-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x512 : Shape := ⟨3, ![16, 4096, 512]⟩
abbrev S512x512 : Shape := ⟨2, ![512, 512]⟩
abbrev S512 : Shape := ⟨1, ![512]⟩
abbrev S_ : Shape := ⟨0, ![]⟩

class Facts : Prop where
  bcast_S_S16x4096x512 : S_.BroadcastsInDim S16x4096x512 (![] : Fin 0 → Fin S16x4096x512.rank)
  reducesTo_S16x4096x512_S_d0_1_2 : S16x4096x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_arg5 : FVec F S512x512 .f32) (main_arg6 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  main_v33

def fn {F : FTy → Type} [FloatOps F] (main_arg0 : FVec F S16x4096x512 .f32) (main_arg1 : FVec F S512x512 .f32) (main_arg2 : FVec F S512 .f32) (main_arg3 : FVec F S512x512 .f32) (main_arg4 : FVec F S512 .f32) (main_arg5 : FVec F S512x512 .f32) (main_arg6 : FVec F S512 .f32) : IVec S_ 1 :=
  let main_v0 : FVec F S16x4096x512 .f32 := Host.absf main_arg0
  let main_cst : FVec F S_ .f32 := constant S_ .f32 0x7F800000#32
  let main_v1 : FVec F S16x4096x512 .f32 := broadcastInDim S16x4096x512 ![] bcast_S_S16x4096x512 main_cst
  let main_v2 : IVec S16x4096x512 1 := cmpf .olt main_v0 main_v1
  let main_c : IVec S_ 1 := constantI S_ 1 1#1
  let main_v3 : IVec S_ 1 := (fun x v => Host.reduce IntOp.andi x v reducesTo_S16x4096x512_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_v13 main_v16
-- ==== Kernel.lean ====
abbrev S16x4096x512 : Shape := ⟨3, ![16, 4096, 512]⟩
abbrev S512x512 : Shape := ⟨2, ![512, 512]⟩
abbrev S512 : Shape := ⟨1, ![512]⟩
abbrev S16x512x4096 : Shape := ⟨3, ![16, 512, 4096]⟩
abbrev S1x1024x512 : Shape := ⟨3, ![1, 1024, 512]⟩
abbrev S1x512x1024 : Shape := ⟨3, ![1, 512, 1024]⟩
abbrev S1024x512 : Shape := ⟨2, ![1024, 512]⟩
abbrev S1x512 : Shape := ⟨2, ![1, 512]⟩
abbrev S512x1024 : Shape := ⟨2, ![512, 1024]⟩
abbrev S16x512x64x64 : Shape := ⟨4, ![16, 512, 64, 64]⟩
abbrev S1x128x64x64 : Shape := ⟨4, ![1, 128, 64, 64]⟩
abbrev S128x64x64 : Shape := ⟨3, ![128, 64, 64]⟩
abbrev S128x32x2x64 : Shape := ⟨4, ![128, 32, 2, 64]⟩
abbrev S128x32x64 : Shape := ⟨3, ![128, 32, 64]⟩
abbrev S128x64x32 : Shape := ⟨3, ![128, 64, 32]⟩
abbrev S128x64 : Shape := ⟨2, ![128, 64]⟩
abbrev S128x64x1 : Shape := ⟨3, ![128, 64, 1]⟩
abbrev S128x32 : Shape := ⟨2, ![128, 32]⟩
abbrev S128x32x1 : Shape := ⟨3, ![128, 32, 1]⟩

abbrev nBuf : Space → Nat
  | .hbm => 16
  | .vmem => 22
  | .smem => 0
  | _ => 0

abbrev bufTy : (tb : Table) → Fin (tcTables nBuf tb) → BufTy
  | .hbm, ⟨0, _⟩ => ⟨S16x4096x512, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S16x512x4096, .bf16⟩
  | .hbm, ⟨8, _⟩ => ⟨S16x512x4096, .bf16⟩
  | .hbm, ⟨9, _⟩ => ⟨S16x512x4096, .bf16⟩
  | .hbm, ⟨10, _⟩ => ⟨S16x512x64x64, .bf16⟩
  | .hbm, ⟨11, _⟩ => ⟨S16x512x64x64, .bf16⟩
  | .hbm, ⟨12, _⟩ => ⟨S16x512x64x64, .bf16⟩
  | .hbm, ⟨13, _⟩ => ⟨S16x512x64x64, .f32⟩
  | .hbm, ⟨14, _⟩ => ⟨S16x512x4096, .f32⟩
  | .hbm, ⟨15, _⟩ => ⟨S16x4096x512, .f32⟩
  | .local _ .vmem, ⟨0, _⟩ => ⟨S1x1024x512, .f32⟩
  | .local _ .vmem, ⟨1, _⟩ => ⟨S1x1024x512, .f32⟩
  | .local _ .vmem, ⟨2, _⟩ => ⟨S512x512, .f32⟩
  | .local _ .vmem, ⟨3, _⟩ => ⟨S512, .f32⟩
  | .local _ .vmem, ⟨4, _⟩ => ⟨S512x512, .f32⟩
  | .local _ .vmem, ⟨5, _⟩ => ⟨S512, .f32⟩
  | .local _ .vmem, ⟨6, _⟩ => ⟨S512x512, .f32⟩
  | .local _ .vmem, ⟨7, _⟩ => ⟨S512, .f32⟩
  | .local _ .vmem, ⟨8, _⟩ => ⟨S1x512x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x512x1024, .bf16⟩
  | .local _ .vmem, ⟨13, _⟩ => ⟨S1x512x1024, .bf16⟩
  | .local _ .vmem, ⟨14, _⟩ => ⟨S1x128x64x64, .bf16⟩
  | .local _ .vmem, ⟨15, _⟩ => ⟨S1x128x64x64, .bf16⟩
  | .local _ .vmem, ⟨16, _⟩ => ⟨S1x128x64x64, .bf16⟩
  | .local _ .vmem, ⟨17, _⟩ => ⟨S1x128x64x64, .bf16⟩
  | .local _ .vmem, ⟨18, _⟩ => ⟨S1x128x64x64, .bf16⟩
  | .local _ .vmem, ⟨19, _⟩ => ⟨S1x128x64x64, .bf16⟩
  | .local _ .vmem, ⟨20, _⟩ => ⟨S1x128x64x64, .f32⟩
  | .local _ .vmem, ⟨21, _⟩ => ⟨S1x128x64x64, .f32⟩
  | _, _ => ⟨S16x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev grid1 : Pipeline.Grid := ⟨2, ![16, 4], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x128x64x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x128x64x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x128x64x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x128x64x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  inb_S512_S512_0 : ∀ a, (![0] : Fin 1 → Nat) a + S512.size a ≤ S512.size a
  h_S512 : 0 < S512.numel
  shapeCasts_S512_S1x512 : S512.ShapeCasts S1x512
  broadcasts_S1x512_S1024x512 : S1x512.Broadcasts S1024x512
  transposes_S1024x512_p1_0_S512x1024 : S1024x512.Transposes [1, 0] S512x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  shapeCasts_S512x1024_S1x512x1024 : S512x1024.ShapeCasts S1x512x1024
  packedbf16_S1x512x1024_S1x512x1024_0_0_0 : (Rect.unit (s := S1x512x1024) ![0, 0, 0] S1x512x1024.size inb_S1x512x1024_S1x512x1024_0_0_0).PackedRows (EltTy.packing .bf16)
  shapeCasts_S16x512x4096_S16x512x64x64 : S16x512x4096.ShapeCasts S16x512x64x64
  inb_S1x128x64x64_S1x128x64x64_0_0_0_0 : ∀ a, (![0, 0, 0, 0] : Fin 4 → Nat) a + S1x128x64x64.size a ≤ S1x128x64x64.size a
  h_S1x128x64x64 : 0 < S1x128x64x64.numel
  shapeCasts_S1x128x64x64_S128x64x64 : S1x128x64x64.ShapeCasts S128x64x64
  shapeCasts_S128x64x64_S128x32x2x64 : S128x64x64.ShapeCasts S128x32x2x64
  reduces_S128x32x2x64_S128x32x64 : S128x32x2x64.Reduces [2] S128x32x64
  reduces_S128x64x32_S128x64 : S128x64x32.Reduces [2] S128x64
  shapeCasts_S128x64_S128x64x1 : S128x64.ShapeCasts S128x64x1
  broadcasts_S128x64x1_S128x64x32 : S128x64x1.Broadcasts S128x64x32
  reduces_S128x32x64_S128x32 : S128x32x64.Reduces [2] S128x32
  shapeCasts_S128x32_S128x32x1 : S128x32.ShapeCasts S128x32x1
  broadcasts_S128x32x1_S128x32x64 : S128x32x1.Broadcasts S128x32x64
  shapeCasts_S128x64x64_S1x128x64x64 : S128x64x64.ShapeCasts S1x128x64x64
  shapeCasts_S16x512x64x64_S16x512x4096 : S16x512x64x64.ShapeCasts S16x512x4096
  transposes_S16x512x4096_S16x4096x512_0_2_1 : S16x512x4096.Transposes [0, 2, 1] S16x4096x512
  dot_S1024x512_S512x512_S1024x512_1_1_0_0_n_n_wf : DotDims.WF S1024x512 S512x512 S1024x512 [1] [1] [0] [0] [] []
  dot_S128x64x64_S128x32x64_S128x64x32_2_2_1_1_0_0_wf : DotDims.WF S128x64x64 S128x32x64 S128x64x32 [2] [2] [1] [1] [0] [0]
  dot_S128x32x64_S128x64x64_S128x32x64_2_2_1_1_0_0_wf : DotDims.WF S128x32x64 S128x64x64 S128x32x64 [2] [2] [1] [1] [0] [0]
  dot_S128x32x64_S128x64x64_S128x32x64_2_1_1_2_0_0_wf : DotDims.WF S128x32x64 S128x64x64 S128x32x64 [2] [1] [1] [2] [0] [0]
  dot_S128x64x32_S128x32x64_S128x64x64_2_1_1_2_0_0_wf : DotDims.WF S128x64x32 S128x32x64 S128x64x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x512.size a ≤ S16x4096x512.size a
  hwx0_0 : ∀ i : grid0.Coords, EltTy.bits .f32 = 32 ∨ (Rect.block (s := S16x4096x512) S1x1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .f32 = 32 ∨ (Rect.block (s := S512x512) S512x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512.size a ≤ S512.size a
  hwx0_6 : ∀ i : grid0.Coords, EltTy.bits .f32 = 32 ∨ (Rect.block (s := S512) S512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512x1024.size a ≤ S16x512x4096.size a
  hwx0_7 : ∀ i : grid0.Coords, EltTy.bits .bf16 = 32 ∨ (Rect.block (s := S16x512x4096) S1x512x1024.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x512x1024.size a ≤ S16x512x4096.size a
  hwx0_8 : ∀ i : grid0.Coords, EltTy.bits .bf16 = 32 ∨ (Rect.block (s := S16x512x4096) S1x512x1024.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x512x1024.size a ≤ S16x512x4096.size a
  hwx0_9 : ∀ i : grid0.Coords, EltTy.bits .bf16 = 32 ∨ (Rect.block (s := S16x512x4096) S1x512x1024.size (cc0_transform_9 i) (hinb0_9 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x128x64x64.size a ≤ S16x512x64x64.size a
  hwx1_0 : ∀ i : grid1.Coords, EltTy.bits .bf16 = 32 ∨ (Rect.block (s := S16x512x64x64) S1x128x64x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x128x64x64.size a ≤ S16x512x64x64.size a
  hwx1_1 : ∀ i : grid1.Coords, EltTy.bits .bf16 = 32 ∨ (Rect.block (s := S16x512x64x64) S1x128x64x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x128x64x64.size a ≤ S16x512x64x64.size a
  hwx1_2 : ∀ i : grid1.Coords, EltTy.bits .bf16 = 32 ∨ (Rect.block (s := S16x512x64x64) S1x128x64x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x128x64x64.size a ≤ S16x512x64x64.size a
  hwx1_3 : ∀ i : grid1.Coords, EltTy.bits .f32 = 32 ∨ (Rect.block (s := S16x512x64x64) S1x128x64x64.size (cc1_transform_3 i) (hinb1_3 i)).WholeWords (EltTy.packing .f32)

variable [Facts₀]

def dot_S1024x512_S512x512_S1024x512_1_1_0_0_n_n : DotDims S1024x512 S512x512 S1024x512 where
  lhsContracting := [1]
  rhsContracting := [1]
  lhsNonContracting := [0]
  rhsNonContracting := [0]
  lhsBatch := []
  rhsBatch := []
  wf := dot_S1024x512_S512x512_S1024x512_1_1_0_0_n_n_wf
def dot_S128x64x64_S128x32x64_S128x64x32_2_2_1_1_0_0 : DotDims S128x64x64 S128x32x64 S128x64x32 where
  lhsContracting := [2]
  rhsContracting := [2]
  lhsNonContracting := [1]
  rhsNonContracting := [1]
  lhsBatch := [0]
  rhsBatch := [0]
  wf := dot_S128x64x64_S128x32x64_S128x64x32_2_2_1_1_0_0_wf
def dot_S128x32x64_S128x64x64_S128x32x64_2_2_1_1_0_0 : DotDims S128x32x64 S128x64x64 S128x32x64 where
  lhsContracting := [2]
  rhsContracting := [2]
  lhsNonContracting := [1]
  rhsNonContracting := [1]
  lhsBatch := [0]
  rhsBatch := [0]
  wf := dot_S128x32x64_S128x64x64_S128x32x64_2_2_1_1_0_0_wf
def dot_S128x32x64_S128x64x64_S128x32x64_2_1_1_2_0_0 : DotDims S128x32x64 S128x64x64 S128x32x64 where
  lhsContracting := [2]
  rhsContracting := [1]
  lhsNonContracting := [1]
  rhsNonContracting := [2]
  lhsBatch := [0]
  rhsBatch := [0]
  wf := dot_S128x32x64_S128x64x64_S128x32x64_2_1_1_2_0_0_wf
def dot_S128x64x32_S128x32x64_S128x64x64_2_1_1_2_0_0 : DotDims S128x64x32 S128x32x64 S128x64x64 where
  lhsContracting := [2]
  rhsContracting := [1]
  lhsNonContracting := [1]
  rhsNonContracting := [2]
  lhsBatch := [0]
  rhsBatch := [0]
  wf := dot_S128x64x32_S128x32x64_S128x64x64_2_1_1_2_0_0_wf

abbrev win0_0 : Pipeline.Window sig grid0 :=
  Pipeline.Window.ofSpec (Memref.whole main_arg0) S1x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0_0) S1x512x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0_1) S1x512x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v0_2) S1x512x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v1) S1x128x64x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1x128x64x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x128x64x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x128x64x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S16x4096x512 : Shape := ⟨3, ![16, 4096, 512]⟩
abbrev S512x512 : Shape := ⟨2, ![512, 512]⟩
abbrev S512 : Shape := ⟨1, ![512]⟩
abbrev S1x1x512 : Shape := ⟨3, ![1, 1, 512]⟩
abbrev S_ : Shape := ⟨0, ![]⟩
abbrev S16x512x4096 : Shape := ⟨3, ![16, 512, 4096]⟩
abbrev S16x512x64x64 : Shape := ⟨4, ![16, 512, 64, 64]⟩
abbrev S16x512x32x2x64 : Shape := ⟨5, ![16, 512, 32, 2, 64]⟩
abbrev S16x512x32x64 : Shape := ⟨4, ![16, 512, 32, 64]⟩
abbrev S16x512x64x32 : Shape := ⟨4, ![16, 512, 64, 32]⟩
abbrev S16x512x64 : Shape := ⟨3, ![16, 512, 64]⟩
abbrev S16x512x64x1 : Shape := ⟨4, ![16, 512, 64, 1]⟩
abbrev S16x512x32 : Shape := ⟨3, ![16, 512, 32]⟩
abbrev S16x512x32x1 : Shape := ⟨4, ![16, 512, 32, 1]⟩

abbrev nBuf : Space → Nat
  | .hbm => 101
  | .vmem => 0
  | .smem => 0
  | _ => 0

abbrev bufTy : (tb : Table) → Fin (tcTables nBuf tb) → BufTy
  | .hbm, ⟨0, _⟩ => ⟨S16x4096x512, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S16x4096x512, .f32⟩
  | .hbm, ⟨8, _⟩ => ⟨S1x1x512, .f32⟩
  | .hbm, ⟨9, _⟩ => ⟨S16x4096x512, .f32⟩
  | .hbm, ⟨10, _⟩ => ⟨S16x4096x512, .f32⟩
  | .hbm, ⟨11, _⟩ => ⟨S16x4096x512, .f32⟩
  | .hbm, ⟨12, _⟩ => ⟨S16x4096x512, .f32⟩
  | .hbm, ⟨13, _⟩ => ⟨S_, .f32⟩
  | .hbm, ⟨14, _⟩ => ⟨S16x4096x512, .f32⟩
  | .hbm, ⟨15, _⟩ => ⟨S16x4096x512, .f32⟩
  | .hbm, ⟨16, _⟩ => ⟨S_, .f32⟩
  | .hbm, ⟨17, _⟩ => ⟨S16x4096x512, .f32⟩
  | .hbm, ⟨18, _⟩ => ⟨S16x4096x512, .f32⟩
  | .hbm, ⟨19, _⟩ => ⟨S16x512x4096, .f32⟩
  | .hbm, ⟨20, _⟩ => ⟨S16x512x64x64, .f32⟩
  | .hbm, ⟨21, _⟩ => ⟨S16x4096x512, .f32⟩
  | .hbm, ⟨22, _⟩ => ⟨S1x1x512, .f32⟩
  | .hbm, ⟨23, _⟩ => ⟨S16x4096x512, .f32⟩
  | .hbm, ⟨24, _⟩ => ⟨S16x4096x512, .f32⟩
  | .hbm, ⟨25, _⟩ => ⟨S16x4096x512, .f32⟩
  | .hbm, ⟨26, _⟩ => ⟨S16x4096x512, .f32⟩
  | .hbm, ⟨27, _⟩ => ⟨S_, .f32⟩
  | .hbm, ⟨28, _⟩ => ⟨S16x4096x512, .f32⟩
  | .hbm, ⟨29, _⟩ => ⟨S16x4096x512, .f32⟩
  | .hbm, ⟨30, _⟩ => ⟨S_, .f32⟩
  | .hbm, ⟨31, _⟩ => ⟨S16x4096x512, .f32⟩
  | .hbm, ⟨32, _⟩ => ⟨S16x4096x512, .f32⟩
  | .hbm, ⟨33, _⟩ => ⟨S16x512x4096, .f32⟩
  | .hbm, ⟨34, _⟩ => ⟨S16x512x64x64, .f32⟩
  | .hbm, ⟨35, _⟩ => ⟨S16x4096x512, .f32⟩
  | .hbm, ⟨36, _⟩ => ⟨S1x1x512, .f32⟩
  | .hbm, ⟨37, _⟩ => ⟨S16x4096x512, .f32⟩
  | .hbm, ⟨38, _⟩ => ⟨S16x4096x512, .f32⟩
  | .hbm, ⟨39, _⟩ => ⟨S16x4096x512, .f32⟩
  | .hbm, ⟨40, _⟩ => ⟨S16x4096x512, .f32⟩
  | .hbm, ⟨41, _⟩ => ⟨S_, .f32⟩
  | .hbm, ⟨42, _⟩ => ⟨S16x4096x512, .f32⟩
  | .hbm, ⟨43, _⟩ => ⟨S16x4096x512, .f32⟩
  | .hbm, ⟨44, _⟩ => ⟨S_, .f32⟩
  | .hbm, ⟨45, _⟩ => ⟨S16x4096x512, .f32⟩
  | .hbm, ⟨46, _⟩ => ⟨S16x4096x512, .f32⟩
  | .hbm, ⟨47, _⟩ => ⟨S16x512x4096, .f32⟩
  | .hbm, ⟨48, _⟩ => ⟨S16x512x64x64, .f32⟩
  | .hbm, ⟨49, _⟩ => ⟨S16x512x32x2x64, .f32⟩
  | .hbm, ⟨50, _⟩ => ⟨S_, .f32⟩
  | .hbm, ⟨51, _⟩ => ⟨S16x512x32x64, .f32⟩
  | .hbm, ⟨52, _⟩ => ⟨S_, .f32⟩
  | .hbm, ⟨53, _⟩ => ⟨S16x512x32x64, .f32⟩
  | .hbm, ⟨54, _⟩ => ⟨S16x512x32x64, .f32⟩
  | .hbm, ⟨55, _⟩ => ⟨S16x512x32x2x64, .f32⟩
  | .hbm, ⟨56, _⟩ => ⟨S_, .f32⟩
  | .hbm, ⟨57, _⟩ => ⟨S16x512x32x64, .f32⟩
  | .hbm, ⟨58, _⟩ => ⟨S_, .f32⟩
  | .hbm, ⟨59, _⟩ => ⟨S16x512x32x64, .f32⟩
  | .hbm, ⟨60, _⟩ => ⟨S16x512x32x64, .f32⟩
  | .hbm, ⟨61, _⟩ => ⟨S16x512x64x32, .f32⟩
  | .hbm, ⟨62, _⟩ => ⟨S_, .f32⟩
  | .hbm, ⟨63, _⟩ => ⟨S16x512x64x32, .f32⟩
  | .hbm, ⟨64, _⟩ => ⟨S16x512x64x32, .f32⟩
  | .hbm, ⟨65, _⟩ => ⟨S_, .f32⟩
  | .hbm, ⟨66, _⟩ => ⟨S16x512x64, .f32⟩
  | .hbm, ⟨67, _⟩ => ⟨S_, .f32⟩
  | .hbm, ⟨68, _⟩ => ⟨S16x512x64, .f32⟩
  | .hbm, ⟨69, _⟩ => ⟨S16x512x64, .f32⟩
  | .hbm, ⟨70, _⟩ => ⟨S16x512x64x1, .f32⟩
  | .hbm, ⟨71, _⟩ => ⟨S16x512x64x32, .f32⟩
  | .hbm, ⟨72, _⟩ => ⟨S16x512x64x32, .f32⟩
  | .hbm, ⟨73, _⟩ => ⟨S16x512x64x32, .f32⟩
  | .hbm, ⟨74, _⟩ => ⟨S_, .f32⟩
  | .hbm, ⟨75, _⟩ => ⟨S16x512x64, .f32⟩
  | .hbm, ⟨76, _⟩ => ⟨S16x512x64x1, .f32⟩
  | .hbm, ⟨77, _⟩ => ⟨S16x512x64x32, .f32⟩
  | .hbm, ⟨78, _⟩ => ⟨S16x512x64x32, .f32⟩
  | .hbm, ⟨79, _⟩ => ⟨S16x512x32x64, .f32⟩
  | .hbm, ⟨80, _⟩ => ⟨S_, .f32⟩
  | .hbm, ⟨81, _⟩ => ⟨S16x512x32x64, .f32⟩
  | .hbm, ⟨82, _⟩ => ⟨S16x512x32x64, .f32⟩
  | .hbm, ⟨83, _⟩ => ⟨S_, .f32⟩
  | .hbm, ⟨84, _⟩ => ⟨S16x512x32, .f32⟩
  | .hbm, ⟨85, _⟩ => ⟨S_, .f32⟩
  | .hbm, ⟨86, _⟩ => ⟨S16x512x32, .f32⟩
  | .hbm, ⟨87, _⟩ => ⟨S16x512x32, .f32⟩
  | .hbm, ⟨88, _⟩ => ⟨S16x512x32x1, .f32⟩
  | .hbm, ⟨89, _⟩ => ⟨S16x512x32x64, .f32⟩
  | .hbm, ⟨90, _⟩ => ⟨S16x512x32x64, .f32⟩
  | .hbm, ⟨91, _⟩ => ⟨S16x512x32x64, .f32⟩
  | .hbm, ⟨92, _⟩ => ⟨S_, .f32⟩
  | .hbm, ⟨93, _⟩ => ⟨S16x512x32, .f32⟩
  | .hbm, ⟨94, _⟩ => ⟨S16x512x32x1, .f32⟩
  | .hbm, ⟨95, _⟩ => ⟨S16x512x32x64, .f32⟩
  | .hbm, ⟨96, _⟩ => ⟨S16x512x32x64, .f32⟩
  | .hbm, ⟨97, _⟩ => ⟨S16x512x32x64, .f32⟩
  | .hbm, ⟨98, _⟩ => ⟨S16x512x64x64, .f32⟩
  | .hbm, ⟨99, _⟩ => ⟨S16x512x4096, .f32⟩
  | .hbm, ⟨100, _⟩ => ⟨S16x4096x512, .f32⟩
  | _, _ => ⟨S16x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_5 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_7 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_9 : Ref sig .tc := ⟨.hbm, 62, rfl⟩
abbrev main_v45 : Ref sig .tc := ⟨.hbm, 63, rfl⟩
abbrev main_v46 : Ref sig .tc := ⟨.hbm, 64, rfl⟩
abbrev main_cst_10 : Ref sig .tc := ⟨.hbm, 65, rfl⟩
abbrev main_v47 : Ref sig .tc := ⟨.hbm, 66, rfl⟩
abbrev main_cst_11 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_12 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_13 : Ref sig .tc := ⟨.hbm, 80, rfl⟩
abbrev main_v59 : Ref sig .tc := ⟨.hbm, 81, rfl⟩
abbrev main_v60 : Ref sig .tc := ⟨.hbm, 82, rfl⟩
abbrev main_cst_14 : Ref sig .tc := ⟨.hbm, 83, rfl⟩
abbrev main_v61 : Ref sig .tc := ⟨.hbm, 84, rfl⟩
abbrev main_cst_15 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_16 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S16x4096x512_0_1_2 : S1x1x512.BroadcastsInDim S16x4096x512 (![0, 1, 2] : Fin 3 → Fin S16x4096x512.rank)
  bcast_S_S16x4096x512 : S_.BroadcastsInDim S16x4096x512 (![] : Fin 0 → Fin S16x4096x512.rank)
  transposes_S16x4096x512_S16x512x4096_0_2_1 : S16x4096x512.Transposes [0, 2, 1] S16x512x4096
  shapeCasts_S16x512x4096_S16x512x64x64 : S16x512x4096.ShapeCasts S16x512x64x64
  shapeCasts_S16x512x64x64_S16x512x32x2x64 : S16x512x64x64.ShapeCasts S16x512x32x2x64
  reducesTo_S16x512x32x2x64_S16x512x32x64_d3 : S16x512x32x2x64.ReducesTo [3] S16x512x32x64
  h_S_ : 0 < S_.numel
  bcast_S_S16x512x32x64 : S_.BroadcastsInDim S16x512x32x64 (![] : Fin 0 → Fin S16x512x32x64.rank)
  bcast_S_S16x512x64x32 : S_.BroadcastsInDim S16x512x64x32 (![] : Fin 0 → Fin S16x512x64x32.rank)
  reducesTo_S16x512x64x32_S16x512x64_d3 : S16x512x64x32.ReducesTo [3] S16x512x64
  bcast_S_S16x512x64 : S_.BroadcastsInDim S16x512x64 (![] : Fin 0 → Fin S16x512x64.rank)
  bcast_S16x512x64_S16x512x64x1_0_1_2 : S16x512x64.BroadcastsInDim S16x512x64x1 (![0, 1, 2] : Fin 3 → Fin S16x512x64x1.rank)
  bcast_S16x512x64x1_S16x512x64x32_0_1_2_3 : S16x512x64x1.BroadcastsInDim S16x512x64x32 (![0, 1, 2, 3] : Fin 4 → Fin S16x512x64x32.rank)
  reducesTo_S16x512x32x64_S16x512x32_d3 : S16x512x32x64.ReducesTo [3] S16x512x32
  bcast_S_S16x512x32 : S_.BroadcastsInDim S16x512x32 (![] : Fin 0 → Fin S16x512x32.rank)
  bcast_S16x512x32_S16x512x32x1_0_1_2 : S16x512x32.BroadcastsInDim S16x512x32x1 (![0, 1, 2] : Fin 3 → Fin S16x512x32x1.rank)
  bcast_S16x512x32x1_S16x512x32x64_0_1_2_3 : S16x512x32x1.BroadcastsInDim S16x512x32x64 (![0, 1, 2, 3] : Fin 4 → Fin S16x512x32x64.rank)
  shapeCasts_S16x512x64x64_S16x512x4096 : S16x512x64x64.ShapeCasts S16x512x4096
  transposes_S16x512x4096_S16x4096x512_0_2_1 : S16x512x4096.Transposes [0, 2, 1] S16x4096x512
  dot_S16x4096x512_S512x512_S16x4096x512_2_1_01_0_n_n_wf : DotDims.WF S16x4096x512 S512x512 S16x4096x512 [2] [1] [0, 1] [0] [] []
  dot_S16x512x64x64_S16x512x32x64_S16x512x64x32_3_3_2_2_01_01_wf : DotDims.WF S16x512x64x64 S16x512x32x64 S16x512x64x32 [3] [3] [2] [2] [0, 1] [0, 1]
  dot_S16x512x32x64_S16x512x64x64_S16x512x32x64_3_3_2_2_01_01_wf : DotDims.WF S16x512x32x64 S16x512x64x64 S16x512x32x64 [3] [3] [2] [2] [0, 1] [0, 1]
  dot_S16x512x32x64_S16x512x64x64_S16x512x32x64_3_2_2_3_01_01_wf : DotDims.WF S16x512x32x64 S16x512x64x64 S16x512x32x64 [3] [2] [2] [3] [0, 1] [0, 1]
  dot_S16x512x64x32_S16x512x32x64_S16x512x64x64_3_2_2_3_01_01_wf : DotDims.WF S16x512x64x32 S16x512x32x64 S16x512x64x64 [3] [2] [2] [3] [0, 1] [0, 1]

variable [Facts₀]

def dot_S16x4096x512_S512x512_S16x4096x512_2_1_01_0_n_n : DotDims S16x4096x512 S512x512 S16x4096x512 where
  lhsContracting := [2]
  rhsContracting := [1]
  lhsNonContracting := [0, 1]
  rhsNonContracting := [0]
  lhsBatch := []
  rhsBatch := []
  wf := dot_S16x4096x512_S512x512_S16x4096x512_2_1_01_0_n_n_wf
def dot_S16x512x64x64_S16x512x32x64_S16x512x64x32_3_3_2_2_01_01 : DotDims S16x512x64x64 S16x512x32x64 S16x512x64x32 where
  lhsContracting := [3]
  rhsContracting := [3]
  lhsNonContracting := [2]
  rhsNonContracting := [2]
  lhsBatch := [0, 1]
  rhsBatch := [0, 1]
  wf := dot_S16x512x64x64_S16x512x32x64_S16x512x64x32_3_3_2_2_01_01_wf
def dot_S16x512x32x64_S16x512x64x64_S16x512x32x64_3_3_2_2_01_01 : DotDims S16x512x32x64 S16x512x64x64 S16x512x32x64 where
  lhsContracting := [3]
  rhsContracting := [3]
  lhsNonContracting := [2]
  rhsNonContracting := [2]
  lhsBatch := [0, 1]
  rhsBatch := [0, 1]
  wf := dot_S16x512x32x64_S16x512x64x64_S16x512x32x64_3_3_2_2_01_01_wf
def dot_S16x512x32x64_S16x512x64x64_S16x512x32x64_3_2_2_3_01_01 : DotDims S16x512x32x64 S16x512x64x64 S16x512x32x64 where
  lhsContracting := [3]
  rhsContracting := [2]
  lhsNonContracting := [2]
  rhsNonContracting := [3]
  lhsBatch := [0, 1]
  rhsBatch := [0, 1]
  wf := dot_S16x512x32x64_S16x512x64x64_S16x512x32x64_3_2_2_3_01_01_wf
def dot_S16x512x64x32_S16x512x32x64_S16x512x64x64_3_2_2_3_01_01 : DotDims S16x512x64x32 S16x512x32x64 S16x512x64x64 where
  lhsContracting := [3]
  rhsContracting := [2]
  lhsNonContracting := [2]
  rhsNonContracting := [3]
  lhsBatch := [0, 1]
  rhsBatch := [0, 1]
  wf := dot_S16x512x64x32_S16x512x32x64_S16x512x64x64_3_2_2_3_01_01_wf

class Facts : Prop extends Facts₀ where

variable [Facts]
-- ==== Proof.Spec.lean ====
/-
  What both programs compute, written once over plain coordinate functions on the extended reals.

  A token matrix `x[n, k]` is projected by `W[d, k]` and a bias `b[d]` and squashed: `proj x W b n d = σ(Σ_k x[n,k]·W[d,k] + b[d])`
  with `σ(t) = 1 / (1 + e^(-t))`. For one batch entry and one channel the three projections, read as 64 × 64 images
  `Q, K, V` (token `n = 64·i + j` at pixel `(i, j)`), go through a pooled double attention: `pool` averages each pair of
  adjacent image rows (32 × 64); `Qk = softmax_p (s · Σ_k Q[i,k]·pool K[p,k])` (64 × 32), `Kq = softmax_l (s · Σ_k pool Q[p,k]·K[l,k])`
  (32 × 64), and the result is `Qk · (Kq · V)`. The softmax subtracts the row maximum (taken from −∞, and once more against −∞)
  before exponentiating and divides by the row sum. The scale `s`, the divisor `2` and `−∞` are kept as the float words
  both programs print, so neither side ever evaluates them.
-/
import Idealize.ShloMosaic.PureOps.Ideal
import Idealize.ShloMosaic.Lib.ValueIdx

noncomputable section

open scoped BigOperators
open Idealize.ShloMosaic Idealize.ShloMosaic.ValueIdx

namespace Cert.Spec

/-- The attention scale both programs print (the f32 nearest to 1/√512). -/
abbrev scale : EReal := Ideal.ofBits .f32 0x3D3504F3#32
/-- The pooling divisor both programs print (2.0). -/
abbrev two : EReal := Ideal.ofBits .f32 0x40000000#32
/-- The value the row maximum starts from (the f32 word of −∞). -/
abbrev ninf : EReal := Ideal.ofBits .f32 0xFF800000#32

/-- A rank-1 array as a function of its coordinate. -/
abbrev arr1 {n0 : Nat} (X : (⟨1, ![n0]⟩ : Shape).Idx → EReal) : Fin n0 → EReal := fun a => X (ix1 a)
/-- A rank-2 array as a function of its coordinates. -/
abbrev arr2 {n0 n1 : Nat} (X : (⟨2, ![n0, n1]⟩ : Shape).Idx → EReal) : Fin n0 → Fin n1 → EReal := fun a b => X (ix2 a b)
/-- A rank-3 array as a function of its coordinates. -/
abbrev arr3 {n0 n1 n2 : Nat} (X : (⟨3, ![n0, n1, n2]⟩ : Shape).Idx → EReal) : Fin n0 → Fin n1 → Fin n2 → EReal :=
  fun a b c => X (ix3 a b c)
/-- A rank-4 array as a function of its coordinates. -/
abbrev arr4 {n0 n1 n2 n3 : Nat} (X : (⟨4, ![n0, n1, n2, n3]⟩ : Shape).Idx → EReal) : Fin n0 → Fin n1 → Fin n2 → Fin n3 → EReal :=
  fun a b c d => X (ix4 a b c d)

/-- Token `n = 64·i + j` of a 64 × 64 image. -/
abbrev tok (i j : Fin 64) : Fin 4096 := ⟨i.val * 64 + j.val, by have := i.isLt; have := j.isLt; omega⟩
/-- The image row of token `n`. -/
abbrev rowOf (n : Fin 4096) : Fin 64 := ⟨n.val / 64, by have := n.isLt; omega⟩
/-- The image column of token `n`. -/
abbrev colOf (n : Fin 4096) : Fin 64 := ⟨n.val % 64, by omega⟩
/-- Image row `2·p + s`: the `s`-th of the pair pooled into row `p`. -/
abbrev pairRow (p : Fin 32) (s : Fin 2) : Fin 64 := ⟨p.val * 2 + s.val, by have := p.isLt; have := s.isLt; omega⟩

/-- One projection entry: the squashed affine map `σ(Σ_k x[n,k]·W[d,k] + b[d])`. -/
def proj (x : Fin 4096 → Fin 512 → EReal) (W : Fin 512 → Fin 512 → EReal) (b : Fin 512 → EReal) (n : Fin 4096) (d : Fin 512) : EReal :=
  Ideal.logistic ((∑ k : Fin 512, x n k * W d k) + b d)

/-- The pooled image: the mean of each pair of adjacent rows. -/
def pool (A : Fin 64 → Fin 64 → EReal) (p : Fin 32) (j : Fin 64) : EReal :=
  Ideal.div (∑ s : Fin 2, A (pairRow p s) j) two

/-- A row's softmax: shift by the row maximum (from −∞, and once more against −∞), exponentiate, divide by the row sum. -/
def softmaxRow {n : Nat} (z : Fin n → EReal) (j : Fin n) : EReal :=
  Ideal.div (Ideal.exp (z j - max ninf ((Finset.univ : Finset (Fin n)).fold max ninf z)))
    (∑ l : Fin n, Ideal.exp (z l - max ninf ((Finset.univ : Finset (Fin n)).fold max ninf z)))

/-- Full rows against pooled rows: `softmax_p (s · Σ_k Q[i,k] · pool K[p,k])`. -/
def attnQk (Q K : Fin 64 → Fin 64 → EReal) (i : Fin 64) (p : Fin 32) : EReal :=
  softmaxRow (fun p' : Fin 32 => scale * ∑ k : Fin 64, Q i k * pool K p' k) p

/-- Pooled rows against full rows: `softmax_l (s · Σ_k pool Q[p,k] · K[l,k])`. -/
def attnKq (Q K : Fin 64 → Fin 64 → EReal) (p : Fin 32) (l : Fin 64) : EReal :=
  softmaxRow (fun l' : Fin 64 => scale * ∑ k : Fin 64, pool Q p k * K l' k) l

/-- The pooled double attention of one channel's three images: `Qk · (Kq · V)`. -/
def attn (Q K V : Fin 64 → Fin 64 → EReal) (i j : Fin 64) : EReal :=
  ∑ p : Fin 32, attnQk Q K i p * ∑ l : Fin 64, attnKq Q K p l * V l j

/-- One channel's projection as a 64 × 64 image: token `64·i + j` at pixel `(i, j)`. -/
def image (x : Fin 4096 → Fin 512 → EReal) (W : Fin 512 → Fin 512 → EReal) (b : Fin 512 → EReal) (d : Fin 512) (i j : Fin 64) : EReal :=
  proj x W b (tok i j) d

/-- The whole result at batch entry `bb`, token `n`, channel `d`. -/
def result (x : Fin 16 → Fin 4096 → Fin 512 → EReal) (Wq : Fin 512 → Fin 512 → EReal) (bq : Fin 512 → EReal)
    (Wk : Fin 512 → Fin 512 → EReal) (bk : Fin 512 → EReal) (Wv : Fin 512 → Fin 512 → EReal) (bv : Fin 512 → EReal)
    (bb : Fin 16) (n : Fin 4096) (d : Fin 512) : EReal :=
  attn (image (x bb) Wq bq d) (image (x bb) Wk bk d) (image (x bb) Wv bv d) (rowOf n) (colOf n)

end Cert.Spec

end
-- ==== Proof.KerProjPoint.lean ====
/-
  The projection kernel's three stored blocks, read at one entry.

  A point of the first launch holds a 1024-token tile `x0` of one batch entry, the three weight matrices and biases. Each
  stored block, transposed to channel-major, holds at `(d, n)` the squashed affine map `σ(Σ_k x0[n,k]·W[d,k] + b[d])`:
  the matrix unit's product into a zero block is that sum, the bias is broadcast down the tokens, and the changes of
  float format are the identity on the extended reals.
-/
import proofs.«176652_j85564338471094_1_alg».proof.Proof.Spec
import proofs.«176652_j85564338471094_1_alg».proof.Proof.Gen.KernelIdeal.Frame
import Idealize.ShloMosaic.PureOps.Ideal.Laws
import Idealize.ShloMosaic.Lib.Pipeline.Value
import Idealize.ShloMosaic.Lib.ValueLayout

set_option maxRecDepth 16384

noncomputable section

open scoped BigOperators
open Idealize.ShloMosaic Idealize.ShloMosaic.TcCoe Idealize.ShloMosaic.ValueIdx Idealize.SL.Sem
open Idealize.ShloMosaic.Pipeline (Dat Cfg Window)

namespace Cert.KernelIdeal.Hand

open Cert.KernelIdeal Cert.KernelIdeal.Gen

/-- The token tile without its unit batch axis: entry `(n, k)` is entry `(0, n, k)`. -/
private theorem tile_apply (x : Vec Ideal S1x1024x512 .f32) (n : Fin 1024) (k : Fin 512) :
    k0_pay2 (F := Ideal) x (ix2 n k) = x (ix3 (0 : Fin 1) n k) := by
  unfold k0_pay2
  rw [truncf_apply]
  refine shapeCast_apply _ _ _ (ix3 (0 : Fin 1) n k) ?_
  rw [Shape.rowMajor_val_three, Shape.rowMajor_val_two]
  show ((0 : Nat) * 1024 + n.val) * 512 + k.val = n.val * 512 + k.val
  omega

/-- The left operand's row axis is the result's row. -/
private theorem projDot_lhs_0 (i : S1024x512.Idx) (q : dot_S1024x512_S512x512_S1024x512_1_1_0_0_n_n.contr.Idx) :
    (dot_S1024x512_S512x512_S1024x512_1_1_0_0_n_n.lhsIdx i q 0).val = (i 0).val := by
  unfold DotDims.lhsIdx
  rw [dif_neg (show ¬(0 : Fin S1024x512.rank) ∈ dot_S1024x512_S512x512_S1024x512_1_1_0_0_n_n.lhsBatch by decide), dif_pos (show (0 : Fin S1024x512.rank) ∈ dot_S1024x512_S512x512_S1024x512_1_1_0_0_n_n.lhsNonContracting by decide)]
  rfl
/-- The left operand's column axis is the contracted coordinate. -/
private theorem projDot_lhs_1 (i : S1024x512.Idx) (q : dot_S1024x512_S512x512_S1024x512_1_1_0_0_n_n.contr.Idx) :
    (dot_S1024x512_S512x512_S1024x512_1_1_0_0_n_n.lhsIdx i q 1).val = (q ⟨0, by decide⟩).val :=
  dot_S1024x512_S512x512_S1024x512_1_1_0_0_n_n.lhsIdx_val_of_single rfl i q
/-- The right operand's row axis is the result's column. -/
private theorem projDot_rhs_0 (i : S1024x512.Idx) (q : dot_S1024x512_S512x512_S1024x512_1_1_0_0_n_n.contr.Idx) :
    (dot_S1024x512_S512x512_S1024x512_1_1_0_0_n_n.rhsIdx i q 0).val = (i 1).val := by
  unfold DotDims.rhsIdx
  rw [dif_neg (show ¬(0 : Fin S512x512.rank) ∈ dot_S1024x512_S512x512_S1024x512_1_1_0_0_n_n.rhsBatch by decide), dif_pos (show (0 : Fin S512x512.rank) ∈ dot_S1024x512_S512x512_S1024x512_1_1_0_0_n_n.rhsNonContracting by decide)]
  rfl
/-- The right operand's column axis is the contracted coordinate. -/
private theorem projDot_rhs_1 (i : S1024x512.Idx) (q : dot_S1024x512_S512x512_S1024x512_1_1_0_0_n_n.contr.Idx) :
    (dot_S1024x512_S512x512_S1024x512_1_1_0_0_n_n.rhsIdx i q 1).val = (q ⟨0, by decide⟩).val :=
  dot_S1024x512_S512x512_S1024x512_1_1_0_0_n_n.rhsIdx_val_of_single rfl i q

/-- The matrix unit's product into a zero block at `(n, d)`: the sum over the contracted axis. -/
private theorem prod_apply (A : FVec Ideal S1024x512 .bf16) (B : FVec Ideal S512x512 .bf16) (n : Fin 1024) (d : Fin 512) :
    matmul dot_S1024x512_S512x512_S1024x512_1_1_0_0_n_n none A B (constant (F := Ideal) S1024x512 .f32 0x00000000#32) (ix2 n d)
      = ∑ k : Fin 512, A (ix2 n k) * B (ix2 d k) := by
  show FloatOps.matmul dot_S1024x512_S512x512_S1024x512_1_1_0_0_n_n none A B (constant (F := Ideal) S1024x512 .f32 0x00000000#32) (ix2 n d) = _
  rw [Ideal.matmul_constant_zero_apply, ← Equiv.sum_comp (ValueIdx.contrEquiv1 dot_S1024x512_S512x512_S1024x512_1_1_0_0_n_n 512 rfl rfl).symm]
  refine Finset.sum_congr rfl fun k _ => ?_
  have hk := ValueIdx.contrEquiv1_symm_val dot_S1024x512_S512x512_S1024x512_1_1_0_0_n_n 512 rfl rfl k
  have el : dot_S1024x512_S512x512_S1024x512_1_1_0_0_n_n.lhsIdx (ix2 n d) ((ValueIdx.contrEquiv1 dot_S1024x512_S512x512_S1024x512_1_1_0_0_n_n 512 rfl rfl).symm k) = ix2 n k := funext fun a => Fin.ext (by
    match a with
    | ⟨0, _⟩ => exact projDot_lhs_0 _ _
    | ⟨1, _⟩ => exact (projDot_lhs_1 _ _).trans hk)
  have er : dot_S1024x512_S512x512_S1024x512_1_1_0_0_n_n.rhsIdx (ix2 n d) ((ValueIdx.contrEquiv1 dot_S1024x512_S512x512_S1024x512_1_1_0_0_n_n 512 rfl rfl).symm k) = ix2 d k := funext fun a => Fin.ext (by
    match a with
    | ⟨0, _⟩ => exact projDot_rhs_0 _ _
    | ⟨1, _⟩ => exact (projDot_rhs_1 _ _).trans hk)
  rw [el, er]

/-- The bias as a row, broadcast down the tokens: entry `(n, d)` is `b[d]`. -/
private theorem bias_apply (b : Vec Ideal S512 .f32) (n : Fin 1024) (d : Fin 512) :
    broadcastTo S1024x512 (shapeCast S1x512 b shapeCasts_S512_S1x512) broadcasts_S1x512_S1024x512 (ix2 n d) = b (ix1 d) := by
  refine (broadcastTo_apply _ _ _ (ix2 (0 : Fin 1) d) ?_).trans ?_
  · intro a
    match a with
    | ⟨0, _⟩ => rfl
    | ⟨1, _⟩ => rfl
  · refine shapeCast_apply _ _ _ (ix1 d) ?_
    rw [Shape.rowMajor_val_one, Shape.rowMajor_val_two]
    show d.val = (0 : Nat) * 512 + d.val
    omega

/-- Squashing, the transposition to channel-major, the change of format and the unit batch axis: entry `(0, d, n)`
    is the squashed entry `(n, d)`. -/
private theorem squash_apply (v : FVec Ideal S1024x512 .f32) (d : Fin 512) (n : Fin 1024) :
    shapeCast S1x512x1024 (truncf .bf16 (transpose S512x1024 [1, 0] (logistic v) transposes_S1024x512_p1_0_S512x1024) bitsLt_bf16_f32)
        shapeCasts_S512x1024_S1x512x1024 (ix3 (0 : Fin 1) d n)
      = Ideal.logistic (v (ix2 n d)) := by
  refine (shapeCast_apply _ _ _ (ix2 d n) ?_).trans ?_
  · rw [Shape.rowMajor_val_two, Shape.rowMajor_val_three]
    show d.val * 1024 + n.val = ((0 : Nat) * 512 + d.val) * 1024 + n.val
    omega
  · rw [truncf_apply]
    refine (transpose_apply _ _ _ _ (ix2 n d) ?_).trans ?_
    · intro b
      match b with
      | ⟨0, _⟩ => rfl
      | ⟨1, _⟩ => rfl
    · rfl

/-- One projection block at `(0, d, n)`: the squashed affine map of token `n` against row `d` of the weights. -/
private theorem projBlock_apply (x : Vec Ideal S1x1024x512 .f32) (W : Vec Ideal S512x512 .f32) (b : Vec Ideal S512 .f32)
    (d : Fin 512) (n : Fin 1024) :
    shapeCast S1x512x1024 (truncf .bf16 (transpose S512x1024 [1, 0] (logistic (addf
        (matmul dot_S1024x512_S512x512_S1024x512_1_1_0_0_n_n none (k0_pay2 (F := Ideal) x) (truncf .bf16 W bitsLt_bf16_f32)
          (constant (F := Ideal) S1024x512 .f32 0x00000000#32))
        (broadcastTo S1024x512 (shapeCast S1x512 b shapeCasts_S512_S1x512) broadcasts_S1x512_S1024x512)))
        transposes_S1024x512_p1_0_S512x1024) bitsLt_bf16_f32) shapeCasts_S512x1024_S1x512x1024 (ix3 (0 : Fin 1) d n)
      = Ideal.logistic ((∑ k : Fin 512, x (ix3 (0 : Fin 1) n k) * W (ix2 d k)) + b (ix1 d)) := by
  rw [squash_apply, addf_apply, prod_apply, bias_apply]
  simp only [tile_apply, truncf_apply]

/-- The origin of a rank-3 block. -/
private theorem origin3 : (![0, 0, 0] : Fin 3 → Nat) = fun _ => 0 := funext fun a => by fin_cases a <;> rfl
/-- The origin of a rank-2 block. -/
private theorem origin2 : (![0, 0] : Fin 2 → Nat) = fun _ => 0 := funext fun a => by fin_cases a <;> rfl
/-- The origin of a rank-1 block. -/
private theorem origin1 : (![0] : Fin 1 → Nat) = fun _ => 0 := funext fun a => by fin_cases a <;> rfl

/-- The query block at channel `d`, tile token `n`. -/
theorem out0_7_apply (x0 : Vec Ideal S1x1024x512 .f32) (x1 : Vec Ideal S512x512 .f32) (x2 : Vec Ideal S512 .f32)
    (x3 : Vec Ideal S512x512 .f32) (x4 : Vec Ideal S512 .f32) (x5 : Vec Ideal S512x512 .f32) (x6 : Vec Ideal S512 .f32)
    (d : Fin 512) (n : Fin 1024) :
    out0_7 (F := Ideal) x0 x1 x2 x3 x4 x5 x6 (ix3 (0 : Fin 1) d n)
      = Ideal.logistic ((∑ k : Fin 512, x0 (ix3 (0 : Fin 1) n k) * x1 (ix2 d k)) + x2 (ix1 d)) := by
  unfold out0_7
  rw [View.canon_unit_zero origin3]
  simp only [View.ld_unit_zero (S := S1x1024x512) origin3, View.ld_unit_zero (S := S512x512) origin2,
    View.ld_unit_zero (S := S512) origin1]
  unfold k0_pay3
  exact projBlock_apply x0 x1 x2 d n

/-- The key block at channel `d`, tile token `n`. -/
theorem out0_8_apply (x0 : Vec Ideal S1x1024x512 .f32) (x1 : Vec Ideal S512x512 .f32) (x2 : Vec Ideal S512 .f32)
    (x3 : Vec Ideal S512x512 .f32) (x4 : Vec Ideal S512 .f32) (x5 : Vec Ideal S512x512 .f32) (x6 : Vec Ideal S512 .f32)
    (d : Fin 512) (n : Fin 1024) :
    out0_8 (F := Ideal) x0 x1 x2 x3 x4 x5 x6 (ix3 (0 : Fin 1) d n)
      = Ideal.logistic ((∑ k : Fin 512, x0 (ix3 (0 : Fin 1) n k) * x3 (ix2 d k)) + x4 (ix1 d)) := by
  unfold out0_8
  rw [View.canon_unit_zero origin3]
  simp only [View.ld_unit_zero (S := S1x1024x512) origin3, View.ld_unit_zero (S := S512x512) origin2,
    View.ld_unit_zero (S := S512) origin1]
  unfold k0_pay4
  exact projBlock_apply x0 x3 x4 d n

/-- The value block at channel `d`, tile token `n`. -/
theorem out0_9_apply (x0 : Vec Ideal S1x1024x512 .f32) (x1 : Vec Ideal S512x512 .f32) (x2 : Vec Ideal S512 .f32)
    (x3 : Vec Ideal S512x512 .f32) (x4 : Vec Ideal S512 .f32) (x5 : Vec Ideal S512x512 .f32) (x6 : Vec Ideal S512 .f32)
    (d : Fin 512) (n : Fin 1024) :
    out0_9 (F := Ideal) x0 x1 x2 x3 x4 x5 x6 (ix3 (0 : Fin 1) d n)
      = Ideal.logistic ((∑ k : Fin 512, x0 (ix3 (0 : Fin 1) n k) * x5 (ix2 d k)) + x6 (ix1 d)) := by
  unfold out0_9
  rw [View.canon_unit_zero origin3]
  simp only [View.ld_unit_zero (S := S1x1024x512) origin3, View.ld_unit_zero (S := S512x512) origin2,
    View.ld_unit_zero (S := S512) origin1]
  unfold k0_pay1 k0_pay5 k0_pay6
  exact projBlock_apply x0 x5 x6 d n

end Cert.KernelIdeal.Hand

end
-- ==== Proof.KerProjArray.lean ====
/-
  The three arrays the first launch leaves, each as one function of the arrays it was entered with.

  The grid runs over batch entry `b` and token tile `n' ` (four tiles of 1024 tokens). Point `(b, n')` stores, for each of the
  three projections, the channel-major block `[b, 0:512, 1024·n' : 1024·(n'+1)]`; the blocks tile the array, so entry
  `(b, d, n)` of each array is the squashed affine map of token `n` of batch entry `b` against row `d` of the weights.
-/
import proofs.«176652_j85564338471094_1_alg».proof.Proof.KerProjPoint

set_option maxRecDepth 16384

noncomputable section

open scoped BigOperators
open Idealize.ShloMosaic Idealize.ShloMosaic.TcCoe Idealize.ShloMosaic.ValueIdx Idealize.SL.Sem
open Idealize.ShloMosaic.Pipeline (Dat Cfg Window)

namespace Cert.KernelIdeal.Hand

open Cert.KernelIdeal Cert.KernelIdeal.Gen

variable (V : (c : Dev nD) → (b : Ref sig .tc) → Buf (Elt Ideal) ((c : Thread nD τ).loc b))

/-! ## The token window, read by all three projections -/

/-- The token window's block at a point is one batch entry's tile of 1024 tokens: entry `(0, n, k)` of the block sits in the
    array at block index × block size + the coordinate inside the block, axis by axis. -/
theorem tokens_read (c : Dev nD) (t : Fin cfg0.N) (n : Fin 1024) (k : Fin 512) (y : S16x4096x512.Idx)
    (h0 : win0_0.index t (0 : Fin 3) * 1 + 1 * 0 = (y 0).val)
    (h1 : win0_0.index t (1 : Fin 3) * 1024 + 1 * n.val = (y 1).val)
    (h2 : win0_0.index t (2 : Fin 3) * 512 + 1 * k.val = (y 2).val) :
    (iblk0 (F := Ideal) V c 0 t : Vec Ideal S1x1024x512 .f32) (ix3 (0 : Fin 1) n k) = V c main_arg0 y := by
  show V c main_arg0 (((cfg0.win 0).blk t).view.emb (ix3 (0 : Fin 1) n k)) = V c main_arg0 y
  refine congrArg (V c main_arg0) (funext fun a => Fin.ext ?_)
  match a with
  | ⟨0, _⟩ => exact h0
  | ⟨1, _⟩ => exact h1
  | ⟨2, _⟩ => exact h2

/-! ## The query array (window 7) -/

/-- The block indices at a grid point: the token window and the query window move together over batch entry and token tile,
    the query weights and bias stay whole, and the query window's indices stay in their ranges. -/
theorem index_facts_q : ∀ t : Fin cfg0.N,
    win0_0.index t (0 : Fin 3) = win0_7.index t (0 : Fin 3)
    ∧ win0_0.index t (1 : Fin 3) = win0_7.index t (2 : Fin 3)
    ∧ win0_0.index t (2 : Fin 3) = 0
    ∧ win0_1.index t (0 : Fin 2) = 0 ∧ win0_1.index t (1 : Fin 2) = 0
    ∧ win0_2.index t (0 : Fin 1) = 0
    ∧ win0_7.index t (0 : Fin 3) ≤ 15 ∧ win0_7.index t (1 : Fin 3) = 0 ∧ win0_7.index t (2 : Fin 3) ≤ 3 :=
  (by decide +kernel : ∀ t : Fin grid0.N, _)

/-- Every (batch entry, token tile) pair is some grid point's. -/
theorem index_onto_q : ∀ (q0 : Fin 16) (q2 : Fin 4), ∃ t : Fin cfg0.N, win0_7.index t = ![q0.val, 0, q2.val] :=
  (by decide +kernel : ∀ (q0 : Fin 16) (q2 : Fin 4), ∃ t : Fin grid0.N, win0_7.index t = ![q0.val, 0, q2.val])

/-- An index of the query array is in point `t`'s block iff each coordinate is in the block's range on its axis. -/
theorem mem_blk_q (t : Fin cfg0.N) (i : S16x512x4096.Idx) :
    i ∈ ((cfg0.win 7).blk t).view.set ↔ ∀ a : Fin 3, win0_7.index t a * S1x512x1024.size a ≤ (i a).val ∧ (i a).val < win0_7.index t a * S1x512x1024.size a + S1x512x1024.size a := by
  show i ∈ ((View.whole main_v0_0).slice (win0_7.rect t)).set ↔ _
  rw [View.set_slice_whole, Rect.mem_set_unit]
  exact Iff.rfl

/-- The query array as one function of the entry arrays: entry `(b, d, n)` is the squashed affine map of token `n` of batch
    entry `b` against row `d` of the query weights. -/
abbrev G_q (c : Dev nD) : S16x512x4096.Idx → EReal := fun i =>
  Spec.proj (fun n k => V c main_arg0 (ix3 (i 0) n k)) (Spec.arr2 (V c main_arg1)) (Spec.arr1 (V c main_arg2)) (i 2) (i 1)

/-- The query weights' block at any point is the whole matrix: entry `(d, k)` sits at `(0·512 + d, 0·512 + k)`. -/
theorem weights_read_q (c : Dev nD) (t : Fin cfg0.N) (d k : Fin 512) (y : S512x512.Idx)
    (h0 : win0_1.index t (0 : Fin 2) * 512 + 1 * d.val = (y 0).val)
    (h1 : win0_1.index t (1 : Fin 2) * 512 + 1 * k.val = (y 1).val) :
    (iblk0 (F := Ideal) V c 1 t : Vec Ideal S512x512 .f32) (ix2 d k) = V c main_arg1 y := by
  show V c main_arg1 (((cfg0.win 1).blk t).view.emb (ix2 d k)) = V c main_arg1 y
  refine congrArg (V c main_arg1) (funext fun a => Fin.ext ?_)
  match a with
  | ⟨0, _⟩ => exact h0
  | ⟨1, _⟩ => exact h1

/-- The query bias's block at any point is the whole vector. -/
theorem bias_read_q (c : Dev nD) (t : Fin cfg0.N) (d : Fin 512) (y : S512.Idx)
    (h0 : win0_2.index t (0 : Fin 1) * 512 + 1 * d.val = (y 0).val) :
    (iblk0 (F := Ideal) V c 2 t : Vec Ideal S512 .f32) (ix1 d) = V c main_arg2 y := by
  show V c main_arg2 (((cfg0.win 2).blk t).view.emb (ix1 d)) = V c main_arg2 y
  refine congrArg (V c main_arg2) (funext fun a => Fin.ext ?_)
  match a with
  | ⟨0, _⟩ => exact h0

/-- What a point stores at channel `d`, tile token `n` is the query array's function at that entry's place `i` in the array
    (`i` = block index × block size + the coordinate inside the block, axis by axis). -/
theorem stored_q (c : Dev nD) (t : Fin cfg0.N) (d : Fin 512) (n : Fin 1024) (i : S16x512x4096.Idx)
    (h0 : win0_7.index t (0 : Fin 3) * 1 + 1 * 0 = (i 0).val)
    (h1 : win0_7.index t (1 : Fin 3) * 512 + 1 * d.val = (i 1).val)
    (h2 : win0_7.index t (2 : Fin 3) * 1024 + 1 * n.val = (i 2).val) :
    out0_7 (F := Ideal) (iblk0 V c 0 t) (iblk0 V c 1 t) (iblk0 V c 2 t) (iblk0 V c 3 t) (iblk0 V c 4 t) (iblk0 V c 5 t) (iblk0 V c 6 t)
      (ix3 (0 : Fin 1) d n) = G_q V c i := by
  rw [out0_7_apply]
  obtain ⟨e00, e01, e02, e10, e11, e20, b0, b1, b2⟩ := index_facts_q t
  show _ = Spec.proj _ _ _ _ _
  unfold Spec.proj
  refine congrArg Ideal.logistic (congrArg₂ (· + ·) (Finset.sum_congr rfl fun k _ => congrArg₂ (· * ·) ?_ ?_) ?_)
  · refine tokens_read V c t n k _ ?_ ?_ ?_
    · show _ = (i 0).val; omega
    · show _ = (i 2).val; omega
    · show _ = k.val; omega
  · refine weights_read_q V c t d k _ ?_ ?_
    · show _ = (i 1).val; omega
    · show _ = k.val; omega
  · refine bias_read_q V c t d _ ?_
    show _ = (i 1).val; omega

/-- What point `t` writes back is block `t` of the query array's function. -/
theorem flushed_q (c : Dev nD) (t : Fin cfg0.N) :
    (dat0 (F := Ideal) V c).flushed 7 t = ((cfg0.win 7).blk t).view.read (Elt Ideal) (G_q V c) := by
  show (cfg0.win 7).cut (grid0.coords t) ((dat0 (F := Ideal) V c).after 7 t) = _
  rw [after0_7]
  funext j
  obtain ⟨a, d, n, rfl⟩ : ∃ (a : Fin 1) (d : Fin 512) (n : Fin 1024), j = ix3 a d n := ⟨j 0, j 1, j 2, eq_ix3 j⟩
  obtain rfl : a = 0 := Subsingleton.elim _ _
  exact stored_q V c t d n (((cfg0.win 7).blk t).view.emb (ix3 (0 : Fin 1) d n)) rfl rfl rfl

/-- Every index `(b, d, n)` of the query array is in some point's block, the one of batch entry `b` and tile `n / 1024`:
    the blocks tile the array. -/
theorem cover_q (i : S16x512x4096.Idx) :
    ∃ t : Fin cfg0.N, (cfg0.win 7).flush t = true ∧ i ∈ ((cfg0.win 7).blk t).view.set := by
  have hi0 : (i 0).val < 16 := (i 0).isLt
  have hi1 : (i 1).val < 512 := (i 1).isLt
  have hi2 : (i 2).val < 4096 := (i 2).isLt
  obtain ⟨t, ht⟩ := index_onto_q ⟨(i 0).val, hi0⟩ ⟨(i 2).val / 1024, by omega⟩
  have q0 : win0_7.index t (0 : Fin 3) = (i 0).val := congrFun ht 0
  have q1 : win0_7.index t (1 : Fin 3) = 0 := congrFun ht 1
  have q2 : win0_7.index t (2 : Fin 3) = (i 2).val / 1024 := congrFun ht 2
  refine ⟨t, flush0_7 t, ?_⟩
  rw [mem_blk_q]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 512 ≤ (i 1).val ∧ (i 1).val < win0_7.index t (1 : Fin 3) * 512 + 512; omega
  | ⟨2, _⟩ => show win0_7.index t (2 : Fin 3) * 1024 ≤ (i 2).val ∧ (i 2).val < win0_7.index t (2 : Fin 3) * 1024 + 1024; omega

/-- The query array after the first launch. -/
theorem final0_7 (c : Dev nD) :
    (dat0 (F := Ideal) V c).arrAt 7 cfg0.N = fun i : S16x512x4096.Idx =>
      Spec.proj (fun n k => V c main_arg0 (ix3 (i 0) n k)) (Spec.arr2 (V c main_arg1)) (Spec.arr1 (V c main_arg2)) (i 2) (i 1) :=
  (dat0 (F := Ideal) V c).arrAt_eq_of_cover 7 (G_q V c) (fun t _ => flushed_q V c t) cover_q

/-! ## The key array (window 8) -/

/-- The block indices at a grid point: the token window and the key window move together over batch entry and token tile,
    the key weights and bias stay whole, and the key window's indices stay in their ranges. -/
theorem index_facts_k : ∀ t : Fin cfg0.N,
    win0_0.index t (0 : Fin 3) = win0_8.index t (0 : Fin 3)
    ∧ win0_0.index t (1 : Fin 3) = win0_8.index t (2 : Fin 3)
    ∧ win0_0.index t (2 : Fin 3) = 0
    ∧ win0_3.index t (0 : Fin 2) = 0 ∧ win0_3.index t (1 : Fin 2) = 0
    ∧ win0_4.index t (0 : Fin 1) = 0
    ∧ win0_8.index t (0 : Fin 3) ≤ 15 ∧ win0_8.index t (1 : Fin 3) = 0 ∧ win0_8.index t (2 : Fin 3) ≤ 3 :=
  (by decide +kernel : ∀ t : Fin grid0.N, _)

/-- Every (batch entry, token tile) pair is some grid point's. -/
theorem index_onto_k : ∀ (q0 : Fin 16) (q2 : Fin 4), ∃ t : Fin cfg0.N, win0_8.index t = ![q0.val, 0, q2.val] :=
  (by decide +kernel : ∀ (q0 : Fin 16) (q2 : Fin 4), ∃ t : Fin grid0.N, win0_8.index t = ![q0.val, 0, q2.val])

/-- An index of the key array is in point `t`'s block iff each coordinate is in the block's range on its axis. -/
theorem mem_blk_k (t : Fin cfg0.N) (i : S16x512x4096.Idx) :
    i ∈ ((cfg0.win 8).blk t).view.set ↔ ∀ a : Fin 3, win0_8.index t a * S1x512x1024.size a ≤ (i a).val ∧ (i a).val < win0_8.index t a * S1x512x1024.size a + S1x512x1024.size a := by
  show i ∈ ((View.whole main_v0_1).slice (win0_8.rect t)).set ↔ _
  rw [View.set_slice_whole, Rect.mem_set_unit]
  exact Iff.rfl

/-- The key array as one function of the entry arrays: entry `(b, d, n)` is the squashed affine map of token `n` of batch
    entry `b` against row `d` of the key weights. -/
abbrev G_k (c : Dev nD) : S16x512x4096.Idx → EReal := fun i =>
  Spec.proj (fun n k => V c main_arg0 (ix3 (i 0) n k)) (Spec.arr2 (V c main_arg3)) (Spec.arr1 (V c main_arg4)) (i 2) (i 1)

/-- The key weights' block at any point is the whole matrix: entry `(d, k)` sits at `(0·512 + d, 0·512 + k)`. -/
theorem weights_read_k (c : Dev nD) (t : Fin cfg0.N) (d k : Fin 512) (y : S512x512.Idx)
    (h0 : win0_3.index t (0 : Fin 2) * 512 + 1 * d.val = (y 0).val)
    (h1 : win0_3.index t (1 : Fin 2) * 512 + 1 * k.val = (y 1).val) :
    (iblk0 (F := Ideal) V c 3 t : Vec Ideal S512x512 .f32) (ix2 d k) = V c main_arg3 y := by
  show V c main_arg3 (((cfg0.win 3).blk t).view.emb (ix2 d k)) = V c main_arg3 y
  refine congrArg (V c main_arg3) (funext fun a => Fin.ext ?_)
  match a with
  | ⟨0, _⟩ => exact h0
  | ⟨1, _⟩ => exact h1

/-- The key bias's block at any point is the whole vector. -/
theorem bias_read_k (c : Dev nD) (t : Fin cfg0.N) (d : Fin 512) (y : S512.Idx)
    (h0 : win0_4.index t (0 : Fin 1) * 512 + 1 * d.val = (y 0).val) :
    (iblk0 (F := Ideal) V c 4 t : Vec Ideal S512 .f32) (ix1 d) = V c main_arg4 y := by
  show V c main_arg4 (((cfg0.win 4).blk t).view.emb (ix1 d)) = V c main_arg4 y
  refine congrArg (V c main_arg4) (funext fun a => Fin.ext ?_)
  match a with
  | ⟨0, _⟩ => exact h0

/-- What a point stores at channel `d`, tile token `n` is the key array's function at that entry's place `i` in the array
    (`i` = block index × block size + the coordinate inside the block, axis by axis). -/
theorem stored_k (c : Dev nD) (t : Fin cfg0.N) (d : Fin 512) (n : Fin 1024) (i : S16x512x4096.Idx)
    (h0 : win0_8.index t (0 : Fin 3) * 1 + 1 * 0 = (i 0).val)
    (h1 : win0_8.index t (1 : Fin 3) * 512 + 1 * d.val = (i 1).val)
    (h2 : win0_8.index t (2 : Fin 3) * 1024 + 1 * n.val = (i 2).val) :
    out0_8 (F := Ideal) (iblk0 V c 0 t) (iblk0 V c 1 t) (iblk0 V c 2 t) (iblk0 V c 3 t) (iblk0 V c 4 t) (iblk0 V c 5 t) (iblk0 V c 6 t)
      (ix3 (0 : Fin 1) d n) = G_k V c i := by
  rw [out0_8_apply]
  obtain ⟨e00, e01, e02, e10, e11, e20, b0, b1, b2⟩ := index_facts_k t
  show _ = Spec.proj _ _ _ _ _
  unfold Spec.proj
  refine congrArg Ideal.logistic (congrArg₂ (· + ·) (Finset.sum_congr rfl fun k _ => congrArg₂ (· * ·) ?_ ?_) ?_)
  · refine tokens_read V c t n k _ ?_ ?_ ?_
    · show _ = (i 0).val; omega
    · show _ = (i 2).val; omega
    · show _ = k.val; omega
  · refine weights_read_k V c t d k _ ?_ ?_
    · show _ = (i 1).val; omega
    · show _ = k.val; omega
  · refine bias_read_k V c t d _ ?_
    show _ = (i 1).val; omega

/-- What point `t` writes back is block `t` of the key array's function. -/
theorem flushed_k (c : Dev nD) (t : Fin cfg0.N) :
    (dat0 (F := Ideal) V c).flushed 8 t = ((cfg0.win 8).blk t).view.read (Elt Ideal) (G_k V c) := by
  show (cfg0.win 8).cut (grid0.coords t) ((dat0 (F := Ideal) V c).after 8 t) = _
  rw [after0_8]
  funext j
  obtain ⟨a, d, n, rfl⟩ : ∃ (a : Fin 1) (d : Fin 512) (n : Fin 1024), j = ix3 a d n := ⟨j 0, j 1, j 2, eq_ix3 j⟩
  obtain rfl : a = 0 := Subsingleton.elim _ _
  exact stored_k V c t d n (((cfg0.win 8).blk t).view.emb (ix3 (0 : Fin 1) d n)) rfl rfl rfl

/-- Every index `(b, d, n)` of the key array is in some point's block, the one of batch entry `b` and tile `n / 1024`:
    the blocks tile the array. -/
theorem cover_k (i : S16x512x4096.Idx) :
    ∃ t : Fin cfg0.N, (cfg0.win 8).flush t = true ∧ i ∈ ((cfg0.win 8).blk t).view.set := by
  have hi0 : (i 0).val < 16 := (i 0).isLt
  have hi1 : (i 1).val < 512 := (i 1).isLt
  have hi2 : (i 2).val < 4096 := (i 2).isLt
  obtain ⟨t, ht⟩ := index_onto_k ⟨(i 0).val, hi0⟩ ⟨(i 2).val / 1024, by omega⟩
  have q0 : win0_8.index t (0 : Fin 3) = (i 0).val := congrFun ht 0
  have q1 : win0_8.index t (1 : Fin 3) = 0 := congrFun ht 1
  have q2 : win0_8.index t (2 : Fin 3) = (i 2).val / 1024 := congrFun ht 2
  refine ⟨t, flush0_8 t, ?_⟩
  rw [mem_blk_k]
  intro a
  match a with
  | ⟨0, _⟩ => show win0_8.index t (0 : Fin 3) * 1 ≤ (i 0).val ∧ (i 0).val < win0_8.index t (0 : Fin 3) * 1 + 1; omega
  | ⟨1, _⟩ => show win0_8.index t (1 : Fin 3) * 512 ≤ (i 1).val ∧ (i 1).val < win0_8.index t (1 : Fin 3) * 512 + 512; omega
  | ⟨2, _⟩ => show win0_8.index t (2 : Fin 3) * 1024 ≤ (i 2).val ∧ (i 2).val < win0_8.index t (2 : Fin 3) * 1024 + 1024; omega

/-- The key array after the first launch. -/
theorem final0_8 (c : Dev nD) :
    (dat0 (F := Ideal) V c).arrAt 8 cfg0.N = fun i : S16x512x4096.Idx =>
      Spec.proj (fun n k => V c main_arg0 (ix3 (i 0) n k)) (Spec.arr2 (V c main_arg3)) (Spec.arr1 (V c main_arg4)) (i 2) (i 1) :=
  (dat0 (F := Ideal) V c).arrAt_eq_of_cover 8 (G_k V c) (fun t _ => flushed_k V c t) cover_k

/-! ## The value array (window 9) -/

/-- The block indices at a grid point: the token window and the value window move together over batch entry and token tile,
    the value weights and bias stay whole, and the value window's indices stay in their ranges. -/
theorem index_facts_v : ∀ t : Fin cfg0.N,
    win0_0.index t (0 : Fin 3) = win0_9.index t (0 : Fin 3)
    ∧ win0_0.index t (1 : Fin 3) = win0_9.index t (2 : Fin 3)
    ∧ win0_0.index t (2 : Fin 3) = 0
    ∧ win0_5.index t (0 : Fin 2) = 0 ∧ win0_5.index t (1 : Fin 2) = 0
    ∧ win0_6.index t (0 : Fin 1) = 0
    ∧ win0_9.index t (0 : Fin 3) ≤ 15 ∧ win0_9.index t (1 : Fin 3) = 0 ∧ win0_9.index t (2 : Fin 3) ≤ 3 :=
  (by decide +kernel : ∀ t : Fin grid0.N, _)

/-- Every (batch entry, token tile) pair is some grid point's. -/
theorem index_onto_v : ∀ (q0 : Fin 16) (q2 : Fin 4), ∃ t : Fin cfg0.N, win0_9.index t = ![q0.val, 0, q2.val] :=
  (by decide +kernel : ∀ (q0 : Fin 16) (q2 : Fin 4), ∃ t : Fin grid0.N, win0_9.index t = ![q0.val, 0, q2.val])

/-- An index of the value array is in point `t`'s block iff each coordinate is in the block's range on its axis. -/
theorem mem_blk_v (t : Fin cfg0.N) (i : S16x512x4096.Idx) :
    i ∈ ((cfg0.win 9).blk t).view.set ↔ ∀ a : Fin 3, win0_9.index t a * S1x512x1024.size a ≤ (i a).val ∧ (i a).val < win0_9.index t a * S1x512x1024.size a + S1x512x1024.size a := by
  show i ∈ ((View.whole main_v0_2).slice (win0_9.rect t)).set ↔ _
  rw [View.set_slice_whole, Rect.mem_set_unit]
  exact Iff.rfl

/-- The value array as one function of the entry arrays: entry `(b, d, n)` is the squashed affine map of token `n` of batch
    entry `b` against row `d` of the value weights. -/
abbrev G_v (c : Dev nD) : S16x512x4096.Idx → EReal := fun i =>
  Spec.proj (fun n k => V c main_arg0 (ix3 (i 0) n k)) (Spec.arr2 (V c main_arg5)) (Spec.arr1 (V c main_arg6)) (i 2) (i 1)

/-- The value weights' block at any point is the whole matrix: entry `(d, k)` sits at `(0·512 + d, 0·512 + k)`. -/
theorem weights_read_v (c : Dev nD) (t : Fin cfg0.N) (d k : Fin 512) (y : S512x512.Idx)
    (h0 : win0_5.index t (0 : Fin 2) * 512 + 1 * d.val = (y 0).val)
    (h1 : win0_5.index t (1 : Fin 2) * 512 + 1 * k.val = (y 1).val) :
    (iblk0 (F := Ideal) V c 5 t : Vec Ideal S512x512 .f32) (ix2 d k) = V c main_arg5 y := by
  show V c main_arg5 (((cfg0.win 5).blk t).view.emb (ix2 d k)) = V c main_arg5 y
  refine congrArg (V c main_arg5) (funext fun a => Fin.ext ?_)
  match a with
  | ⟨0, _⟩ => exact h0
  | ⟨1, _⟩ => exact h1

/-- The value bias's block at any point is the whole vector. -/
theorem bias_read_v (c : Dev nD) (t : Fin cfg0.N) (d : Fin 512) (y : S512.Idx)
    (h0 : win0_6.index t (0 : Fin 1) * 512 + 1 * d.val = (y 0).val) :
    (iblk0 (F := Ideal) V c 6 t : Vec Ideal S512 .f32) (ix1 d) = V c main_arg6 y := by
  show V c main_arg6 (((cfg0.win 6).blk t).view.emb (ix1 d)) = V c main_arg6 y
  refine congrArg (V c main_arg6) (funext fun a => Fin.ext ?_)
  match a with
  | ⟨0, _⟩ => exact h0

/-- What a point stores at channel `d`, tile token `n` is the value array's function at that entry's place `i` in the array
    (`i` = block index × block size + the coordinate inside the block, axis by axis). -/
theorem stored_v (c : Dev nD) (t : Fin cfg0.N) (d : Fin 512) (n : Fin 1024) (i : S16x512x4096.Idx)
    (h0 : win0_9.index t (0 : Fin 3) * 1 + 1 * 0 = (i 0).val)
    (h1 : win0_9.index t (1 : Fin 3) * 512 + 1 * d.val = (i 1).val)
    (h2 : win0_9.index t (2 : Fin 3) * 1024 + 1 * n.val = (i 2).val) :
    out0_9 (F := Ideal) (iblk0 V c 0 t) (iblk0 V c 1 t) (iblk0 V c 2 t) (iblk0 V c 3 t) (iblk0 V c 4 t) (iblk0 V c 5 t) (iblk0 V c 6 t)
      (ix3 (0 : Fin 1) d n) = G_v V c i := by
  rw [out0_9_apply]
  obtain ⟨e00, e01, e02, e10, e11, e20, b0, b1, b2⟩ := index_facts_v t
  show _ = Spec.proj _ _ _ _ _
  unfold Spec.proj
  refine congrArg Ideal.logistic (congrArg₂ (· + ·) (Finset.sum_congr rfl fun k _ => congrArg₂ (· * ·) ?_ ?_) ?_)
  · refine tokens_read V c t n k _ ?_ ?_ ?_
    · show _ = (i 0).val; omega
    · show _ = (i 2).val; omega
    · show _ = k.val; omega
  · refine weights_read_v V c t d k _ ?_ ?_
    · show _ = (i 1).val; omega
    · show _ = k.val; omega
  · refine bias_read_v V c t d _ ?_
    show _ = (i 1).val; omega

/-- What point `t` writes back is block `t` of the value array's function. -/
theorem flushed_v (c : Dev nD) (t : Fin cfg0.N) :
    (dat0 (F := Ideal) V c).flushed 9 t = ((cfg0.win 9).blk t).view.read (Elt Ideal) (G_v V c) := by
  show (cfg0.win 9).cut (grid0.coords t) ((dat0 (F := Ideal) V c).after 9 t) = _
  rw [after0_9]
  funext j
  obtain ⟨a, d, n, rfl⟩ : ∃ (a : Fin 1) (d : Fin 512) (n : Fin 1024), j = ix3 a d n := ⟨j 0, j 1, j 2, eq_ix3 j⟩
  obtain rfl : a = 0 := Subsingleton.elim _ _
  exact stored_v V c t d n (((cfg0.win 9).blk t).view.emb (ix3 (0 : Fin 1) d n)) rfl rfl rfl

/-- Every index `(b, d, n)` of the value array is in some point's block, the one of batch entry `b` and tile `n / 1024`:
    the blocks tile the array. -/
theorem cover_v (i : S16x512x4096.Idx) :
    ∃ t : Fin cfg0.N, (cfg0.win 9).flush t = true ∧ i ∈ ((cfg0.win 9).blk t).view.set := by
  have hi0 : (i 0).val < 16 := (i 0).isLt
  have hi1 : (i 1).val < 512 := (i 1).isLt
  have hi2 : (i 2).val < 4096 := (i 2).isLt
  obtain ⟨t, ht⟩ := index_onto_v ⟨(i 0).val, hi0⟩ ⟨(i 2).val / 1024, by omega⟩
  have q0 : win0_9.index t (0 : Fin 3) = (i 0).val := congrFun ht 0
  have q1 : win0_9.index t (1 : Fin 3) = 0 := congrFun ht 1
  have q2 : win0_9.index t (2 : Fin 3) = (i 2).val / 1024 := congrFun ht 2
  refine ⟨t, flush0_9 t, ?_⟩
  rw [mem_blk_v]
  intro a
  match a with
  | ⟨0, _⟩ => show win0_9.index t (0 : Fin 3) * 1 ≤ (i 0).val ∧ (i 0).val < win0_9.index t (0 : Fin 3) * 1 + 1; omega
  | ⟨1, _⟩ => show win0_9.index t (1 : Fin 3) * 512 ≤ (i 1).val ∧ (i 1).val < win0_9.index t (1 : Fin 3) * 512 + 512; omega
  | ⟨2, _⟩ => show win0_9.index t (2 : Fin 3) * 1024 ≤ (i 2).val ∧ (i 2).val < win0_9.index t (2 : Fin 3) * 1024 + 1024; omega

/-- The value array after the first launch. -/
theorem final0_9 (c : Dev nD) :
    (dat0 (F := Ideal) V c).arrAt 9 cfg0.N = fun i : S16x512x4096.Idx =>
      Spec.proj (fun n k => V c main_arg0 (ix3 (i 0) n k)) (Spec.arr2 (V c main_arg5)) (Spec.arr1 (V c main_arg6)) (i 2) (i 1) :=
  (dat0 (F := Ideal) V c).arrAt_eq_of_cover 9 (G_v V c) (fun t _ => flushed_v V c t) cover_v

end Cert.KernelIdeal.Hand

end
-- ==== Proof.KerAttnQk.lean ====
/-
  The attention kernel's first softmax, read at one entry.

  From a point's query and key blocks (128 channels of 64 × 64 images) the body pools the key image's row pairs, multiplies
  every query row against every pooled key row over the 64 columns, scales, and takes the softmax over the 32 pooled rows.
  At channel `ch`, query row `i`, pooled row `p` that is `attnQk` of the channel's two images.
-/
import proofs.«176652_j85564338471094_1_alg».proof.Proof.Spec
import proofs.«176652_j85564338471094_1_alg».proof.Proof.Gen.KernelIdeal.Skeleton
import Idealize.ShloMosaic.PureOps.Ideal.Laws
import Idealize.ShloMosaic.Lib.Pipeline.Value
import Idealize.ShloMosaic.Lib.ValueLayout

set_option maxRecDepth 16384

noncomputable section

open scoped BigOperators
open Idealize.ShloMosaic Idealize.ShloMosaic.TcCoe Idealize.ShloMosaic.ValueIdx Idealize.SL.Sem
open Idealize.ShloMosaic.Pipeline (Dat Cfg Window)

namespace Cert.KernelIdeal.Hand

open Cert.KernelIdeal Cert.KernelIdeal.Gen

namespace AttnQk

/-- A [128, 64] array cast to [128, 64, 1] and spread over the 32 lanes reads, at (ch, i, p), the array at (ch, i). -/
theorem column_spread_apply {α : Type} (x : S128x64.Idx → α) (hs : S128x64.ShapeCasts S128x64x1)
    (hb : S128x64x1.Broadcasts S128x64x32) (ch : Fin 128) (i : Fin 64) (p : Fin 32) :
    broadcastTo S128x64x32 (shapeCast S128x64x1 x hs) hb (ix3 ch i p) = x (ix2 ch i) := by
  refine (broadcastTo_apply _ hb (ix3 ch i p) (ix3 ch i (0 : Fin 1)) ?_).trans ?_
  · intro a
    match a with
    | ⟨0, _⟩ => rfl
    | ⟨1, _⟩ => rfl
    | ⟨2, _⟩ => rfl
  · refine shapeCast_apply x hs _ (ix2 ch i) ?_
    rw [Shape.rowMajor_val_two, Shape.rowMajor_val_three]
    show ch.val * 64 + i.val = (ch.val * 64 + i.val) * 1 + 0
    omega

/-- The sum of the two rows of a pair: the [128, 64, 64] block read as [128, 32, 2, 64] (row 2p + s at (p, s)) and summed
    over the pair axis is, at (ch, p, j), the sum over s of the block at (ch, 2p + s, j). -/
theorem pair_sum_apply (x : FVec Ideal S128x64x64 .f32) (hs : S128x64x64.ShapeCasts S128x32x2x64)
    (hr : S128x32x2x64.Reduces [2] S128x32x64) (hφ : FKind.Formats FTy.f32)
    (hacc : (0x00000000#32 : BitVec 32) = FKind.add.neutral FTy.f32 hφ) (ch : Fin 128) (p : Fin 32) (j : Fin 64) :
    multiReduction (F := Ideal) .add [2] S128x32x64 (shapeCast S128x32x2x64 x hs) 0x00000000#32 hr hφ hacc (ix3 ch p j)
      = ∑ s : Fin 2, x (ix3 ch (Spec.pairRow p s) j) := by
  refine (Ideal.multiReduction_add_single _ _ hr hφ hacc (ix3 ch p j)).trans ?_
  refine Finset.sum_congr rfl fun s _ => ?_
  refine shapeCast_apply x hs _ _ ?_
  rw [Shape.rowMajor_val_three, Shape.rowMajor_val_four]
  show (ch.val * 64 + (p.val * 2 + s.val)) * 64 + j.val = ((ch.val * 32 + p.val) * 2 + s.val) * 64 + j.val
  ring

/-- The pooled block: the pair sums of the widened block divided by the word of 2, at (ch, p, j), is the pooled image of
    channel ch at (p, j). -/
theorem pooled_apply (x : FVec Ideal S128x64x64 .bf16) (hlt : FTy.bits .bf16 < FTy.bits .f32)
    (hs : S128x64x64.ShapeCasts S128x32x2x64) (hr : S128x32x2x64.Reduces [2] S128x32x64) (hφ : FKind.Formats FTy.f32)
    (hacc : (0x00000000#32 : BitVec 32) = FKind.add.neutral FTy.f32 hφ) (ch : Fin 128) (p : Fin 32) (j : Fin 64) :
    (truncf .bf16 (divf (multiReduction (F := Ideal) .add [2] S128x32x64 (shapeCast S128x32x2x64 (extf .f32 x hlt) hs)
        0x00000000#32 hr hφ hacc) (broadcast S128x32x64 (FloatOps.ofBits .f32 0x40000000#32))) hlt : FVec Ideal S128x32x64 .bf16)
      (ix3 ch p j) = Spec.pool (fun a b => x (ix3 ch a b)) p j := by
  unfold Spec.pool
  rw [truncf_apply, divf_apply, broadcast_apply, pair_sum_apply]
  rfl

/-! The product of full rows with pooled rows: channel is the batch axis, the 64 columns are contracted. -/

theorem rows_lhs_0 (i : S128x64x32.Idx) (q : dot_S128x64x64_S128x32x64_S128x64x32_2_2_1_1_0_0.contr.Idx) :
    (dot_S128x64x64_S128x32x64_S128x64x32_2_2_1_1_0_0.lhsIdx i q 0).val = (i 0).val := by
  unfold DotDims.lhsIdx
  rw [dif_pos (show (0 : Fin S128x64x64.rank) ∈ dot_S128x64x64_S128x32x64_S128x64x32_2_2_1_1_0_0.lhsBatch by decide)]
  rfl
theorem rows_lhs_1 (i : S128x64x32.Idx) (q : dot_S128x64x64_S128x32x64_S128x64x32_2_2_1_1_0_0.contr.Idx) :
    (dot_S128x64x64_S128x32x64_S128x64x32_2_2_1_1_0_0.lhsIdx i q 1).val = (i 1).val := by
  unfold DotDims.lhsIdx
  rw [dif_neg (show ¬(1 : Fin S128x64x64.rank) ∈ dot_S128x64x64_S128x32x64_S128x64x32_2_2_1_1_0_0.lhsBatch by decide), dif_pos (show (1 : Fin S128x64x64.rank) ∈ dot_S128x64x64_S128x32x64_S128x64x32_2_2_1_1_0_0.lhsNonContracting by decide)]
  rfl
theorem rows_lhs_2 (i : S128x64x32.Idx) (q : dot_S128x64x64_S128x32x64_S128x64x32_2_2_1_1_0_0.contr.Idx) :
    (dot_S128x64x64_S128x32x64_S128x64x32_2_2_1_1_0_0.lhsIdx i q 2).val = (q ⟨0, by decide⟩).val :=
  dot_S128x64x64_S128x32x64_S128x64x32_2_2_1_1_0_0.lhsIdx_val_of_single rfl i q
theorem rows_rhs_0 (i : S128x64x32.Idx) (q : dot_S128x64x64_S128x32x64_S128x64x32_2_2_1_1_0_0.contr.Idx) :
    (dot_S128x64x64_S128x32x64_S128x64x32_2_2_1_1_0_0.rhsIdx i q 0).val = (i 0).val := by
  unfold DotDims.rhsIdx
  rw [dif_pos (show (0 : Fin S128x32x64.rank) ∈ dot_S128x64x64_S128x32x64_S128x64x32_2_2_1_1_0_0.rhsBatch by decide)]
  rfl
theorem rows_rhs_1 (i : S128x64x32.Idx) (q : dot_S128x64x64_S128x32x64_S128x64x32_2_2_1_1_0_0.contr.Idx) :
    (dot_S128x64x64_S128x32x64_S128x64x32_2_2_1_1_0_0.rhsIdx i q 1).val = (i 2).val := by
  unfold DotDims.rhsIdx
  rw [dif_neg (show ¬(1 : Fin S128x32x64.rank) ∈ dot_S128x64x64_S128x32x64_S128x64x32_2_2_1_1_0_0.rhsBatch by decide), dif_pos (show (1 : Fin S128x32x64.rank) ∈ dot_S128x64x64_S128x32x64_S128x64x32_2_2_1_1_0_0.rhsNonContracting by decide)]
  rfl
theorem rows_rhs_2 (i : S128x64x32.Idx) (q : dot_S128x64x64_S128x32x64_S128x64x32_2_2_1_1_0_0.contr.Idx) :
    (dot_S128x64x64_S128x32x64_S128x64x32_2_2_1_1_0_0.rhsIdx i q 2).val = (q ⟨0, by decide⟩).val :=
  dot_S128x64x64_S128x32x64_S128x64x32_2_2_1_1_0_0.rhsIdx_val_of_single rfl i q

/-- The product into the zero block, at (ch, i, p): the sum over the columns k of the left block at (ch, i, k) times the
    right block at (ch, p, k). -/
theorem rows_by_pooled_apply (A : FVec Ideal S128x64x64 .bf16) (B : FVec Ideal S128x32x64 .bf16)
    (ch : Fin 128) (i : Fin 64) (p : Fin 32) :
    matmul dot_S128x64x64_S128x32x64_S128x64x32_2_2_1_1_0_0 none A B (constant (F := Ideal) S128x64x32 .f32 0x00000000#32) (ix3 ch i p)
      = ∑ k : Fin 64, A (ix3 ch i k) * B (ix3 ch p k) := by
  simp only [matmul]
  rw [Ideal.matmul_constant_zero_apply, ← Equiv.sum_comp (ValueIdx.contrEquiv1 dot_S128x64x64_S128x32x64_S128x64x32_2_2_1_1_0_0 64 rfl rfl).symm]
  refine Finset.sum_congr rfl fun k _ => ?_
  have hk := ValueIdx.contrEquiv1_symm_val dot_S128x64x64_S128x32x64_S128x64x32_2_2_1_1_0_0 64 rfl rfl k
  have el : dot_S128x64x64_S128x32x64_S128x64x32_2_2_1_1_0_0.lhsIdx (ix3 ch i p) ((ValueIdx.contrEquiv1 dot_S128x64x64_S128x32x64_S128x64x32_2_2_1_1_0_0 64 rfl rfl).symm k) = ix3 ch i k := funext fun a => Fin.ext (by
    match a with
    | ⟨0, _⟩ => exact rows_lhs_0 _ _
    | ⟨1, _⟩ => exact rows_lhs_1 _ _
    | ⟨2, _⟩ => exact (rows_lhs_2 _ _).trans hk)
  have er : dot_S128x64x64_S128x32x64_S128x64x32_2_2_1_1_0_0.rhsIdx (ix3 ch i p) ((ValueIdx.contrEquiv1 dot_S128x64x64_S128x32x64_S128x64x32_2_2_1_1_0_0 64 rfl rfl).symm k) = ix3 ch p k := funext fun a => Fin.ext (by
    match a with
    | ⟨0, _⟩ => exact rows_rhs_0 _ _
    | ⟨1, _⟩ => exact rows_rhs_1 _ _
    | ⟨2, _⟩ => exact (rows_rhs_2 _ _).trans hk)
  rw [el, er]

/-! The softmax over the 32 lanes of a [128, 64, 32] block. -/

/-- The exponential of a block at an index. -/
theorem exp_at {s : Shape} {φ : FTy} (a : FVec Ideal s φ) (i : s.Idx) : exp a i = Ideal.exp (a i) := rfl

/-- The lane maximum from the word of −∞, at (ch, i): the fold of max from −∞ over the row's 32 entries. -/
theorem row_max_apply (L : FVec Ideal S128x64x32 .f32) (hr : S128x64x32.Reduces [2] S128x64) (hφ : FKind.Formats FTy.f32)
    (hacc : (0xFF800000#32 : BitVec 32) = FKind.maximumf.neutral FTy.f32 hφ) (ch : Fin 128) (i : Fin 64) :
    multiReduction (F := Ideal) .maximumf [2] S128x64 L 0xFF800000#32 hr hφ hacc (ix2 ch i)
      = (Finset.univ : Finset (Fin 32)).fold max Spec.ninf (fun p => L (ix3 ch i p)) := by
  refine (Ideal.multiReduction_maximumf_single L _ hr hφ hacc (ix2 ch i)).trans ?_
  refine congrArg (fun f => (Finset.univ : Finset (Fin 32)).fold max Spec.ninf f) (funext fun p => congrArg L ?_)
  funext c
  apply Fin.ext
  match c with
  | ⟨0, _⟩ => rfl
  | ⟨1, _⟩ => rfl
  | ⟨2, _⟩ => rfl

/-- The lane sum from the zero word, at (ch, i): the sum of the row's 32 entries. -/
theorem row_sum_apply (E : FVec Ideal S128x64x32 .f32) (hr : S128x64x32.Reduces [2] S128x64) (hφ : FKind.Formats FTy.f32)
    (hacc : (0x00000000#32 : BitVec 32) = FKind.add.neutral FTy.f32 hφ) (ch : Fin 128) (i : Fin 64) :
    multiReduction (F := Ideal) .add [2] S128x64 E 0x00000000#32 hr hφ hacc (ix2 ch i) = ∑ p : Fin 32, E (ix3 ch i p) := by
  refine (Ideal.multiReduction_add_single E _ hr hφ hacc (ix2 ch i)).trans ?_
  refine Finset.sum_congr rfl fun p _ => congrArg E ?_
  funext c
  apply Fin.ext
  match c with
  | ⟨0, _⟩ => rfl
  | ⟨1, _⟩ => rfl
  | ⟨2, _⟩ => rfl

/-- A row's entries shifted by the row maximum (taken from −∞, and once more against −∞) and exponentiated. -/
def shiftedExp (L : FVec Ideal S128x64x32 .f32) (hr : S128x64x32.Reduces [2] S128x64) (hφ : FKind.Formats FTy.f32)
    (hacc : (0xFF800000#32 : BitVec 32) = FKind.maximumf.neutral FTy.f32 hφ) (hs : S128x64.ShapeCasts S128x64x1)
    (hb : S128x64x1.Broadcasts S128x64x32) : FVec Ideal S128x64x32 .f32 :=
  exp (subf L (broadcastTo S128x64x32 (shapeCast S128x64x1 (maximumf (broadcast S128x64 (FloatOps.ofBits .f32 0xFF800000#32))
    (multiReduction (F := Ideal) .maximumf [2] S128x64 L 0xFF800000#32 hr hφ hacc)) hs) hb))

theorem shiftedExp_apply (L : FVec Ideal S128x64x32 .f32) (hr : S128x64x32.Reduces [2] S128x64) (hφ : FKind.Formats FTy.f32)
    (hacc : (0xFF800000#32 : BitVec 32) = FKind.maximumf.neutral FTy.f32 hφ) (hs : S128x64.ShapeCasts S128x64x1)
    (hb : S128x64x1.Broadcasts S128x64x32) (ch : Fin 128) (i : Fin 64) (q : Fin 32) :
    shiftedExp L hr hφ hacc hs hb (ix3 ch i q)
      = Ideal.exp (L (ix3 ch i q) - max Spec.ninf ((Finset.univ : Finset (Fin 32)).fold max Spec.ninf (fun p => L (ix3 ch i p)))) := by
  unfold shiftedExp
  rw [exp_at, subf_apply, column_spread_apply, maximumf_apply, broadcast_apply, row_max_apply]
  rfl

/-- The block's softmax at (ch, i, p): the shifted exponential over the row's sum of them. -/
theorem softmax_apply (L : FVec Ideal S128x64x32 .f32) (hlt : FTy.bits .bf16 < FTy.bits .f32)
    (hr : S128x64x32.Reduces [2] S128x64) (hφ : FKind.Formats FTy.f32)
    (haccM : (0xFF800000#32 : BitVec 32) = FKind.maximumf.neutral FTy.f32 hφ)
    (haccS : (0x00000000#32 : BitVec 32) = FKind.add.neutral FTy.f32 hφ) (hs : S128x64.ShapeCasts S128x64x1)
    (hb : S128x64x1.Broadcasts S128x64x32) (ch : Fin 128) (i : Fin 64) (p : Fin 32) :
    (truncf .bf16 (divf (shiftedExp L hr hφ haccM hs hb)
        (broadcastTo S128x64x32 (shapeCast S128x64x1
          (multiReduction (F := Ideal) .add [2] S128x64 (shiftedExp L hr hφ haccM hs hb) 0x00000000#32 hr hφ haccS) hs) hb)) hlt
      : FVec Ideal S128x64x32 .bf16) (ix3 ch i p)
      = Spec.softmaxRow (fun p' => L (ix3 ch i p')) p := by
  unfold Spec.softmaxRow
  rw [truncf_apply, divf_apply, column_spread_apply, row_sum_apply, shiftedExp_apply]
  refine congrArg (fun t => Ideal.div _ t) (Finset.sum_congr rfl fun l _ => ?_)
  exact shiftedExp_apply L hr hφ haccM hs hb ch i l

/-! The two blocks read from the point's windows, and the scaled logits. -/

/-- The query block at (ch, a, b) is the point's query window at (0, ch, a, b). -/
theorem query_block_apply (v0 : Vec Ideal S1x128x64x64 .bf16) (ch : Fin 128) (a b : Fin 64) :
    k1_pay2 (F := Ideal) v0 (ix3 ch a b) = v0 (ix4 (0 : Fin 1) ch a b) := by
  unfold k1_pay2
  exact shapeCast_1abc_abc_apply v0 _ ch a b

/-- The key block at (ch, a, b) is the point's key window at (0, ch, a, b). -/
theorem key_block_apply (v2 : Vec Ideal S1x128x64x64 .bf16) (ch : Fin 128) (a b : Fin 64) :
    k1_pay3 (F := Ideal) v2 (ix3 ch a b) = v2 (ix4 (0 : Fin 1) ch a b) := by
  unfold k1_pay3
  exact shapeCast_1abc_abc_apply v2 _ ch a b

/-- The scaled logits at (ch, i, p): the scale word times the sum over the columns of the query row i against the pooled
    key row p. -/
theorem scaled_logits_apply (v0 v2 : Vec Ideal S1x128x64x64 .bf16) (hlt : FTy.bits .bf16 < FTy.bits .f32)
    (hs : S128x64x64.ShapeCasts S128x32x2x64) (hr : S128x32x2x64.Reduces [2] S128x32x64) (hφ : FKind.Formats FTy.f32)
    (hacc : (0x00000000#32 : BitVec 32) = FKind.add.neutral FTy.f32 hφ) (ch : Fin 128) (i : Fin 64) (p : Fin 32) :
    mulf (broadcast S128x64x32 (FloatOps.ofBits .f32 0x3D3504F3#32))
      (matmul dot_S128x64x64_S128x32x64_S128x64x32_2_2_1_1_0_0 none (k1_pay2 (F := Ideal) v0)
        (truncf .bf16 (divf (multiReduction (F := Ideal) .add [2] S128x32x64
            (shapeCast S128x32x2x64 (extf .f32 (k1_pay3 (F := Ideal) v2) hlt) hs) 0x00000000#32 hr hφ hacc)
          (broadcast S128x32x64 (FloatOps.ofBits .f32 0x40000000#32))) hlt)
        (constant (F := Ideal) S128x64x32 .f32 0x00000000#32)) (ix3 ch i p)
      = Spec.scale * ∑ k : Fin 64, v0 (ix4 (0 : Fin 1) ch i k) * Spec.pool (fun a b => v2 (ix4 (0 : Fin 1) ch a b)) p k := by
  rw [mulf_apply, broadcast_apply, rows_by_pooled_apply]
  refine congrArg (fun t => Spec.scale * t) (Finset.sum_congr rfl fun k _ => ?_)
  rw [pooled_apply, query_block_apply]
  refine congrArg (fun K => v0 (ix4 (0 : Fin 1) ch i k) * Spec.pool K p k) (funext fun a => funext fun b => ?_)
  exact key_block_apply v2 ch a b

end AttnQk

open AttnQk in
/-- Full rows against pooled rows, at channel `ch`. -/
theorem k1_pay5_apply (v0 v2 : Vec Ideal S1x128x64x64 .bf16) (ch : Fin 128) (i : Fin 64) (p : Fin 32) :
    k1_pay5 (F := Ideal) v0 v2 (ix3 ch i p)
      = Spec.attnQk (fun a b => v0 (ix4 (0 : Fin 1) ch a b)) (fun a b => v2 (ix4 (0 : Fin 1) ch a b)) i p := by
  unfold k1_pay5
  refine (softmax_apply _ _ _ _ _ _ _ _ ch i p).trans ?_
  unfold Spec.attnQk
  refine congrArg (fun z => Spec.softmaxRow z p) (funext fun p' => ?_)
  exact scaled_logits_apply v0 v2 _ _ _ _ _ ch i p'

end Cert.KernelIdeal.Hand

end
-- ==== Proof.KerAttnKq.lean ====
/-
  The attention kernel's second product chain, read at one entry.

  The pooled query rows against the full key rows give the second logits; the stored block then takes their scaled softmax
  over the 64 key rows, multiplies it into the value image, and multiplies the first softmax into that.
-/
import proofs.«176652_j85564338471094_1_alg».proof.Proof.Spec
import proofs.«176652_j85564338471094_1_alg».proof.Proof.Gen.KernelIdeal.Skeleton
import Idealize.ShloMosaic.PureOps.Ideal.Laws
import Idealize.ShloMosaic.Lib.Pipeline.Value
import Idealize.ShloMosaic.Lib.ValueLayout

set_option maxRecDepth 16384

noncomputable section

open scoped BigOperators
open Idealize.ShloMosaic Idealize.ShloMosaic.TcCoe Idealize.ShloMosaic.ValueIdx Idealize.SL.Sem
open Idealize.ShloMosaic.Pipeline (Dat Cfg Window)

namespace Cert.KernelIdeal.Hand

open Cert.KernelIdeal Cert.KernelIdeal.Gen

/-! ## The second logits: pooled query rows against full key rows -/

/-- Dropping the leading unit axis: the block at `(ch, a, b)` is the array at `(0, ch, a, b)`. -/
private theorem dropUnit_apply {α : Type} (x : S1x128x64x64.Idx → α) (h : S1x128x64x64.ShapeCasts S128x64x64)
    (ch : Fin 128) (a b : Fin 64) :
    shapeCast S128x64x64 x h (ix3 ch a b) = x (ix4 (0 : Fin 1) ch a b) := by
  refine shapeCast_apply x h (ix3 ch a b) (ix4 (0 : Fin 1) ch a b) ?_
  rewrite [Shape.rowMajor_val_four, Shape.rowMajor_val_three]
  show (((0 : Fin 1).val * 128 + ch.val) * 64 + a.val) * 64 + b.val = (ch.val * 64 + a.val) * 64 + b.val
  simp

/-- Splitting the row axis in pairs: the block at `(ch, p, s, k)` is the image at row `2 p + s`. -/
private theorem splitRows_apply {α : Type} (x : S128x64x64.Idx → α) (h : S128x64x64.ShapeCasts S128x32x2x64)
    (ch : Fin 128) (p : Fin 32) (s : Fin 2) (k : Fin 64) :
    shapeCast S128x32x2x64 x h (ix4 ch p s k) = x (ix3 ch (Spec.pairRow p s) k) := by
  refine shapeCast_apply x h (ix4 ch p s k) (ix3 ch (Spec.pairRow p s) k) ?_
  rewrite [Shape.rowMajor_val_four, Shape.rowMajor_val_three]
  show (ch.val * 64 + (p.val * 2 + s.val)) * 64 + k.val = ((ch.val * 32 + p.val) * 2 + s.val) * 64 + k.val
  omega

/-- The lane sum over the pair axis at `(ch, p, k)`. -/
private theorem pairSum_apply (x : FVec Ideal S128x32x2x64 .f32) (h : S128x32x2x64.Reduces [2] S128x32x64)
    (hφ : FKind.Formats .f32) (hacc : (0x00000000#32 : BitVec 32) = 0x00000000#32)
    (ch : Fin 128) (p : Fin 32) (k : Fin 64) :
    multiReduction (F := Ideal) .add [2] S128x32x64 x 0x00000000#32 h hφ hacc (ix3 ch p k)
      = ∑ s : Fin 2, x (ix4 ch p s k) := by
  refine (Ideal.multiReduction_add_single x 0x00000000#32 h hφ hacc (ix3 ch p k)).trans ?_
  refine Finset.sum_congr rfl fun s _ => ?_
  exact congrArg x (funext fun a => Fin.ext (by match a with | ⟨0, _⟩ => rfl | ⟨1, _⟩ => rfl | ⟨2, _⟩ => rfl | ⟨3, _⟩ => rfl))

/-- The pooled block at `(ch, p, k)`: the mean of image rows `2 p` and `2 p + 1`. -/
private theorem pooled_apply (x : FVec Ideal S128x64x64 .bf16) (ch : Fin 128) (p : Fin 32) (k : Fin 64) :
    (truncf .bf16 (divf (multiReduction (F := Ideal) .add [2] S128x32x64
        (shapeCast S128x32x2x64 (extf .f32 x bitsLt_bf16_f32) shapeCasts_S128x64x64_S128x32x2x64)
        0x00000000#32 reduces_S128x32x2x64_S128x32x64 (.inl rfl) rfl)
      (broadcast S128x32x64 (Scalar.ofBits (F := Ideal) .f32 0x40000000#32))) bitsLt_bf16_f32 : FVec Ideal S128x32x64 .bf16) (ix3 ch p k)
      = Spec.pool (fun a b => x (ix3 ch a b)) p k := by
  rw [truncf_apply, divf_apply, pairSum_apply]
  unfold Spec.pool
  refine congrArg₂ Ideal.div (Finset.sum_congr rfl fun s _ => ?_) rfl
  rw [splitRows_apply]
  rfl

private theorem lhs_poolQK_0 (i : S128x32x64.Idx) (q : dot_S128x32x64_S128x64x64_S128x32x64_2_2_1_1_0_0.contr.Idx) :
    (dot_S128x32x64_S128x64x64_S128x32x64_2_2_1_1_0_0.lhsIdx i q 0).val = (i 0).val := by
  unfold DotDims.lhsIdx
  rw [dif_pos (show (0 : Fin S128x32x64.rank) ∈ dot_S128x32x64_S128x64x64_S128x32x64_2_2_1_1_0_0.lhsBatch by decide)]
  rfl
private theorem lhs_poolQK_1 (i : S128x32x64.Idx) (q : dot_S128x32x64_S128x64x64_S128x32x64_2_2_1_1_0_0.contr.Idx) :
    (dot_S128x32x64_S128x64x64_S128x32x64_2_2_1_1_0_0.lhsIdx i q 1).val = (i 1).val := by
  unfold DotDims.lhsIdx
  rw [dif_neg (show ¬(1 : Fin S128x32x64.rank) ∈ dot_S128x32x64_S128x64x64_S128x32x64_2_2_1_1_0_0.lhsBatch by decide), dif_pos (show (1 : Fin S128x32x64.rank) ∈ dot_S128x32x64_S128x64x64_S128x32x64_2_2_1_1_0_0.lhsNonContracting by decide)]
  rfl
private theorem lhs_poolQK_2 (i : S128x32x64.Idx) (q : dot_S128x32x64_S128x64x64_S128x32x64_2_2_1_1_0_0.contr.Idx) :
    (dot_S128x32x64_S128x64x64_S128x32x64_2_2_1_1_0_0.lhsIdx i q 2).val = (q ⟨0, by decide⟩).val :=
  dot_S128x32x64_S128x64x64_S128x32x64_2_2_1_1_0_0.lhsIdx_val_of_single rfl i q
private theorem rhs_poolQK_0 (i : S128x32x64.Idx) (q : dot_S128x32x64_S128x64x64_S128x32x64_2_2_1_1_0_0.contr.Idx) :
    (dot_S128x32x64_S128x64x64_S128x32x64_2_2_1_1_0_0.rhsIdx i q 0).val = (i 0).val := by
  unfold DotDims.rhsIdx
  rw [dif_pos (show (0 : Fin S128x64x64.rank) ∈ dot_S128x32x64_S128x64x64_S128x32x64_2_2_1_1_0_0.rhsBatch by decide)]
  rfl
private theorem rhs_poolQK_1 (i : S128x32x64.Idx) (q : dot_S128x32x64_S128x64x64_S128x32x64_2_2_1_1_0_0.contr.Idx) :
    (dot_S128x32x64_S128x64x64_S128x32x64_2_2_1_1_0_0.rhsIdx i q 1).val = (i 2).val := by
  unfold DotDims.rhsIdx
  rw [dif_neg (show ¬(1 : Fin S128x64x64.rank) ∈ dot_S128x32x64_S128x64x64_S128x32x64_2_2_1_1_0_0.rhsBatch by decide), dif_pos (show (1 : Fin S128x64x64.rank) ∈ dot_S128x32x64_S128x64x64_S128x32x64_2_2_1_1_0_0.rhsNonContracting by decide)]
  rfl
private theorem rhs_poolQK_2 (i : S128x32x64.Idx) (q : dot_S128x32x64_S128x64x64_S128x32x64_2_2_1_1_0_0.contr.Idx) :
    (dot_S128x32x64_S128x64x64_S128x32x64_2_2_1_1_0_0.rhsIdx i q 2).val = (q ⟨0, by decide⟩).val :=
  dot_S128x32x64_S128x64x64_S128x32x64_2_2_1_1_0_0.rhsIdx_val_of_single rfl i q

/-- The batched product with both operands contracted along their last axis, into the zero block, at `(ch, p, l)`. -/
private theorem poolQK_apply (A : FVec Ideal S128x32x64 .bf16) (B : FVec Ideal S128x64x64 .bf16) (ch : Fin 128) (p : Fin 32) (l : Fin 64) :
    matmul dot_S128x32x64_S128x64x64_S128x32x64_2_2_1_1_0_0 none A B (constant (F := Ideal) S128x32x64 .f32 0x00000000#32) (ix3 ch p l)
      = ∑ k : Fin 64, A (ix3 ch p k) * B (ix3 ch l k) := by
  simp only [matmul]
  rw [Ideal.matmul_constant_zero_apply, ← Equiv.sum_comp (ValueIdx.contrEquiv1 dot_S128x32x64_S128x64x64_S128x32x64_2_2_1_1_0_0 64 rfl rfl).symm]
  refine Finset.sum_congr rfl fun k _ => ?_
  have hk := ValueIdx.contrEquiv1_symm_val dot_S128x32x64_S128x64x64_S128x32x64_2_2_1_1_0_0 64 rfl rfl k
  have el : dot_S128x32x64_S128x64x64_S128x32x64_2_2_1_1_0_0.lhsIdx (ix3 ch p l) ((ValueIdx.contrEquiv1 dot_S128x32x64_S128x64x64_S128x32x64_2_2_1_1_0_0 64 rfl rfl).symm k) = ix3 ch p k := funext fun a => Fin.ext (by
    match a with
    | ⟨0, _⟩ => exact lhs_poolQK_0 _ _
    | ⟨1, _⟩ => exact lhs_poolQK_1 _ _
    | ⟨2, _⟩ => exact (lhs_poolQK_2 _ _).trans hk)
  have er : dot_S128x32x64_S128x64x64_S128x32x64_2_2_1_1_0_0.rhsIdx (ix3 ch p l) ((ValueIdx.contrEquiv1 dot_S128x32x64_S128x64x64_S128x32x64_2_2_1_1_0_0 64 rfl rfl).symm k) = ix3 ch l k := funext fun a => Fin.ext (by
    match a with
    | ⟨0, _⟩ => exact rhs_poolQK_0 _ _
    | ⟨1, _⟩ => exact rhs_poolQK_1 _ _
    | ⟨2, _⟩ => exact (rhs_poolQK_2 _ _).trans hk)
  rw [el, er]

/-- Pooled query rows against full key rows, before scaling, at channel `ch`. -/
theorem k1_pay6_apply (v0 v2 : Vec Ideal S1x128x64x64 .bf16) (ch : Fin 128) (p : Fin 32) (l : Fin 64) :
    k1_pay6 (F := Ideal) v0 v2 (ix3 ch p l)
      = ∑ k : Fin 64, Spec.pool (fun a b => v0 (ix4 (0 : Fin 1) ch a b)) p k * v2 (ix4 (0 : Fin 1) ch l k) := by
  unfold k1_pay6 k1_pay2 k1_pay3
  simp only []
  rw [poolQK_apply]
  refine Finset.sum_congr rfl fun k _ => ?_
  rw [pooled_apply, dropUnit_apply]
  refine congrArg₂ (· * ·) (congrArg (fun f => Spec.pool f p k) (funext fun a => funext fun b => ?_)) rfl
  exact dropUnit_apply _ _ ch a b

/-! ## The stored block: the row softmax of the scaled logits, into the value image, under the first softmax -/

/-- The exponential at an index. -/
private theorem exp_apply {s : Shape} {φ : FTy} (x : FVec Ideal s φ) (i : s.Idx) : exp x i = Ideal.exp (x i) := rfl

/-- A per-row value kept as a unit column and spread over the 64 lanes reads the row's value at every lane. -/
private theorem column_apply {α : Type} (x : S128x32.Idx → α) (h : S128x32.ShapeCasts S128x32x1) (h' : S128x32x1.Broadcasts S128x32x64)
    (ch : Fin 128) (p : Fin 32) (l : Fin 64) :
    broadcastTo S128x32x64 (shapeCast S128x32x1 x h) h' (ix3 ch p l) = x (ix2 ch p) := by
  refine (broadcastTo_apply _ h' (ix3 ch p l) (ix3 ch p (0 : Fin 1)) ?_).trans ?_
  · intro a
    match a with
    | ⟨0, _⟩ => rfl
    | ⟨1, _⟩ => rfl
    | ⟨2, _⟩ => rfl
  · refine shapeCast_apply x h (ix3 ch p (0 : Fin 1)) (ix2 ch p) ?_
    rewrite [Shape.rowMajor_val_two, Shape.rowMajor_val_three]
    show ch.val * 32 + p.val = (ch.val * 32 + p.val) * 1 + (0 : Fin 1).val
    simp

/-- The lane maximum of row `(ch, p)`, from −∞. -/
private theorem rowMax_apply (x : FVec Ideal S128x32x64 .f32) (h : S128x32x64.Reduces [2] S128x32)
    (hφ : FKind.Formats .f32) (hacc : (0xFF800000#32 : BitVec 32) = 0xFF800000#32) (ch : Fin 128) (p : Fin 32) :
    multiReduction (F := Ideal) .maximumf [2] S128x32 x 0xFF800000#32 h hφ hacc (ix2 ch p)
      = (Finset.univ : Finset (Fin 64)).fold max Spec.ninf (fun l => x (ix3 ch p l)) := by
  refine (Ideal.multiReduction_maximumf_single x 0xFF800000#32 h hφ hacc (ix2 ch p)).trans ?_
  refine congrArg (fun f : Fin 64 → EReal => (Finset.univ : Finset (Fin 64)).fold max Spec.ninf f) (funext fun l => ?_)
  exact congrArg x (funext fun a => Fin.ext (by match a with | ⟨0, _⟩ => rfl | ⟨1, _⟩ => rfl | ⟨2, _⟩ => rfl))

/-- The lane sum of row `(ch, p)`. -/
private theorem rowSum_apply (x : FVec Ideal S128x32x64 .f32) (h : S128x32x64.Reduces [2] S128x32)
    (hφ : FKind.Formats .f32) (hacc : (0x00000000#32 : BitVec 32) = 0x00000000#32) (ch : Fin 128) (p : Fin 32) :
    multiReduction (F := Ideal) .add [2] S128x32 x 0x00000000#32 h hφ hacc (ix2 ch p)
      = ∑ l : Fin 64, x (ix3 ch p l) := by
  refine (Ideal.multiReduction_add_single x 0x00000000#32 h hφ hacc (ix2 ch p)).trans ?_
  refine Finset.sum_congr rfl fun l _ => ?_
  exact congrArg x (funext fun a => Fin.ext (by match a with | ⟨0, _⟩ => rfl | ⟨1, _⟩ => rfl | ⟨2, _⟩ => rfl))

/-- The row's entries shifted by the row maximum and exponentiated. -/
private theorem shiftExp_apply (z : FVec Ideal S128x32x64 .f32) (ch : Fin 128) (p : Fin 32) (l : Fin 64) :
    exp (subf z (broadcastTo S128x32x64 (shapeCast S128x32x1 (maximumf (broadcast S128x32 (Scalar.ofBits (F := Ideal) .f32 0xFF800000#32)) (multiReduction (F := Ideal) .maximumf [2] S128x32 z 0xFF800000#32 reduces_S128x32x64_S128x32 (.inl rfl) rfl)) shapeCasts_S128x32_S128x32x1) broadcasts_S128x32x1_S128x32x64)) (ix3 ch p l)
      = Ideal.exp (z (ix3 ch p l) - max Spec.ninf ((Finset.univ : Finset (Fin 64)).fold max Spec.ninf (fun l' => z (ix3 ch p l')))) := by
  rw [exp_apply, subf_apply, column_apply, maximumf_apply, rowMax_apply]
  rfl

/-- The softmax of row `(ch, p)` over its 64 lanes, at lane `l`. -/
private theorem softmax_apply (z : FVec Ideal S128x32x64 .f32) (ch : Fin 128) (p : Fin 32) (l : Fin 64) :
    (truncf .bf16 (divf (exp (subf z (broadcastTo S128x32x64 (shapeCast S128x32x1 (maximumf (broadcast S128x32 (Scalar.ofBits (F := Ideal) .f32 0xFF800000#32)) (multiReduction (F := Ideal) .maximumf [2] S128x32 z 0xFF800000#32 reduces_S128x32x64_S128x32 (.inl rfl) rfl)) shapeCasts_S128x32_S128x32x1) broadcasts_S128x32x1_S128x32x64))) (broadcastTo S128x32x64 (shapeCast S128x32x1 (multiReduction (F := Ideal) .add [2] S128x32 (exp (subf z (broadcastTo S128x32x64 (shapeCast S128x32x1 (maximumf (broadcast S128x32 (Scalar.ofBits (F := Ideal) .f32 0xFF800000#32)) (multiReduction (F := Ideal) .maximumf [2] S128x32 z 0xFF800000#32 reduces_S128x32x64_S128x32 (.inl rfl) rfl)) shapeCasts_S128x32_S128x32x1) broadcasts_S128x32x1_S128x32x64))) 0x00000000#32 reduces_S128x32x64_S128x32 (.inl rfl) rfl) shapeCasts_S128x32_S128x32x1) broadcasts_S128x32x1_S128x32x64)) bitsLt_bf16_f32 : FVec Ideal S128x32x64 .bf16) (ix3 ch p l)
      = Spec.softmaxRow (fun l' : Fin 64 => z (ix3 ch p l')) l := by
  rw [truncf_apply, divf_apply, column_apply, rowSum_apply, shiftExp_apply]
  unfold Spec.softmaxRow
  refine congrArg (Ideal.div _) (Finset.sum_congr rfl fun l' _ => ?_)
  exact shiftExp_apply z ch p l'

private theorem lhs_kqV_0 (i : S128x32x64.Idx) (q : dot_S128x32x64_S128x64x64_S128x32x64_2_1_1_2_0_0.contr.Idx) :
    (dot_S128x32x64_S128x64x64_S128x32x64_2_1_1_2_0_0.lhsIdx i q 0).val = (i 0).val := by
  unfold DotDims.lhsIdx
  rw [dif_pos (show (0 : Fin S128x32x64.rank) ∈ dot_S128x32x64_S128x64x64_S128x32x64_2_1_1_2_0_0.lhsBatch by decide)]
  rfl
private theorem lhs_kqV_1 (i : S128x32x64.Idx) (q : dot_S128x32x64_S128x64x64_S128x32x64_2_1_1_2_0_0.contr.Idx) :
    (dot_S128x32x64_S128x64x64_S128x32x64_2_1_1_2_0_0.lhsIdx i q 1).val = (i 1).val := by
  unfold DotDims.lhsIdx
  rw [dif_neg (show ¬(1 : Fin S128x32x64.rank) ∈ dot_S128x32x64_S128x64x64_S128x32x64_2_1_1_2_0_0.lhsBatch by decide), dif_pos (show (1 : Fin S128x32x64.rank) ∈ dot_S128x32x64_S128x64x64_S128x32x64_2_1_1_2_0_0.lhsNonContracting by decide)]
  rfl
private theorem lhs_kqV_2 (i : S128x32x64.Idx) (q : dot_S128x32x64_S128x64x64_S128x32x64_2_1_1_2_0_0.contr.Idx) :
    (dot_S128x32x64_S128x64x64_S128x32x64_2_1_1_2_0_0.lhsIdx i q 2).val = (q ⟨0, by decide⟩).val :=
  dot_S128x32x64_S128x64x64_S128x32x64_2_1_1_2_0_0.lhsIdx_val_of_single rfl i q
private theorem rhs_kqV_0 (i : S128x32x64.Idx) (q : dot_S128x32x64_S128x64x64_S128x32x64_2_1_1_2_0_0.contr.Idx) :
    (dot_S128x32x64_S128x64x64_S128x32x64_2_1_1_2_0_0.rhsIdx i q 0).val = (i 0).val := by
  unfold DotDims.rhsIdx
  rw [dif_pos (show (0 : Fin S128x64x64.rank) ∈ dot_S128x32x64_S128x64x64_S128x32x64_2_1_1_2_0_0.rhsBatch by decide)]
  rfl
private theorem rhs_kqV_1 (i : S128x32x64.Idx) (q : dot_S128x32x64_S128x64x64_S128x32x64_2_1_1_2_0_0.contr.Idx) :
    (dot_S128x32x64_S128x64x64_S128x32x64_2_1_1_2_0_0.rhsIdx i q 1).val = (q ⟨0, by decide⟩).val :=
  dot_S128x32x64_S128x64x64_S128x32x64_2_1_1_2_0_0.rhsIdx_val_of_single rfl i q
private theorem rhs_kqV_2 (i : S128x32x64.Idx) (q : dot_S128x32x64_S128x64x64_S128x32x64_2_1_1_2_0_0.contr.Idx) :
    (dot_S128x32x64_S128x64x64_S128x32x64_2_1_1_2_0_0.rhsIdx i q 2).val = (i 2).val := by
  unfold DotDims.rhsIdx
  rw [dif_neg (show ¬(2 : Fin S128x64x64.rank) ∈ dot_S128x32x64_S128x64x64_S128x32x64_2_1_1_2_0_0.rhsBatch by decide), dif_pos (show (2 : Fin S128x64x64.rank) ∈ dot_S128x32x64_S128x64x64_S128x32x64_2_1_1_2_0_0.rhsNonContracting by decide)]
  rfl

/-- The batched product contracting the left operand's last axis with the right operand's middle axis, into the zero block, at `(ch, p, j)`. -/
private theorem kqV_apply (A : FVec Ideal S128x32x64 .bf16) (B : FVec Ideal S128x64x64 .bf16) (ch : Fin 128) (p : Fin 32) (j : Fin 64) :
    matmul dot_S128x32x64_S128x64x64_S128x32x64_2_1_1_2_0_0 none A B (constant (F := Ideal) S128x32x64 .f32 0x00000000#32) (ix3 ch p j)
      = ∑ l : Fin 64, A (ix3 ch p l) * B (ix3 ch l j) := by
  simp only [matmul]
  rw [Ideal.matmul_constant_zero_apply, ← Equiv.sum_comp (ValueIdx.contrEquiv1 dot_S128x32x64_S128x64x64_S128x32x64_2_1_1_2_0_0 64 rfl rfl).symm]
  refine Finset.sum_congr rfl fun k _ => ?_
  have hk := ValueIdx.contrEquiv1_symm_val dot_S128x32x64_S128x64x64_S128x32x64_2_1_1_2_0_0 64 rfl rfl k
  have el : dot_S128x32x64_S128x64x64_S128x32x64_2_1_1_2_0_0.lhsIdx (ix3 ch p j) ((ValueIdx.contrEquiv1 dot_S128x32x64_S128x64x64_S128x32x64_2_1_1_2_0_0 64 rfl rfl).symm k) = ix3 ch p k := funext fun a => Fin.ext (by
    match a with
    | ⟨0, _⟩ => exact lhs_kqV_0 _ _
    | ⟨1, _⟩ => exact lhs_kqV_1 _ _
    | ⟨2, _⟩ => exact (lhs_kqV_2 _ _).trans hk)
  have er : dot_S128x32x64_S128x64x64_S128x32x64_2_1_1_2_0_0.rhsIdx (ix3 ch p j) ((ValueIdx.contrEquiv1 dot_S128x32x64_S128x64x64_S128x32x64_2_1_1_2_0_0 64 rfl rfl).symm k) = ix3 ch k j := funext fun a => Fin.ext (by
    match a with
    | ⟨0, _⟩ => exact rhs_kqV_0 _ _
    | ⟨1, _⟩ => exact (rhs_kqV_1 _ _).trans hk
    | ⟨2, _⟩ => exact rhs_kqV_2 _ _)
  rw [el, er]

private theorem lhs_qkW_0 (i : S128x64x64.Idx) (q : dot_S128x64x32_S128x32x64_S128x64x64_2_1_1_2_0_0.contr.Idx) :
    (dot_S128x64x32_S128x32x64_S128x64x64_2_1_1_2_0_0.lhsIdx i q 0).val = (i 0).val := by
  unfold DotDims.lhsIdx
  rw [dif_pos (show (0 : Fin S128x64x32.rank) ∈ dot_S128x64x32_S128x32x64_S128x64x64_2_1_1_2_0_0.lhsBatch by decide)]
  rfl
private theorem lhs_qkW_1 (i : S128x64x64.Idx) (q : dot_S128x64x32_S128x32x64_S128x64x64_2_1_1_2_0_0.contr.Idx) :
    (dot_S128x64x32_S128x32x64_S128x64x64_2_1_1_2_0_0.lhsIdx i q 1).val = (i 1).val := by
  unfold DotDims.lhsIdx
  rw [dif_neg (show ¬(1 : Fin S128x64x32.rank) ∈ dot_S128x64x32_S128x32x64_S128x64x64_2_1_1_2_0_0.lhsBatch by decide), dif_pos (show (1 : Fin S128x64x32.rank) ∈ dot_S128x64x32_S128x32x64_S128x64x64_2_1_1_2_0_0.lhsNonContracting by decide)]
  rfl
private theorem lhs_qkW_2 (i : S128x64x64.Idx) (q : dot_S128x64x32_S128x32x64_S128x64x64_2_1_1_2_0_0.contr.Idx) :
    (dot_S128x64x32_S128x32x64_S128x64x64_2_1_1_2_0_0.lhsIdx i q 2).val = (q ⟨0, by decide⟩).val :=
  dot_S128x64x32_S128x32x64_S128x64x64_2_1_1_2_0_0.lhsIdx_val_of_single rfl i q
private theorem rhs_qkW_0 (i : S128x64x64.Idx) (q : dot_S128x64x32_S128x32x64_S128x64x64_2_1_1_2_0_0.contr.Idx) :
    (dot_S128x64x32_S128x32x64_S128x64x64_2_1_1_2_0_0.rhsIdx i q 0).val = (i 0).val := by
  unfold DotDims.rhsIdx
  rw [dif_pos (show (0 : Fin S128x32x64.rank) ∈ dot_S128x64x32_S128x32x64_S128x64x64_2_1_1_2_0_0.rhsBatch by decide)]
  rfl
private theorem rhs_qkW_1 (i : S128x64x64.Idx) (q : dot_S128x64x32_S128x32x64_S128x64x64_2_1_1_2_0_0.contr.Idx) :
    (dot_S128x64x32_S128x32x64_S128x64x64_2_1_1_2_0_0.rhsIdx i q 1).val = (q ⟨0, by decide⟩).val :=
  dot_S128x64x32_S128x32x64_S128x64x64_2_1_1_2_0_0.rhsIdx_val_of_single rfl i q
private theorem rhs_qkW_2 (i : S128x64x64.Idx) (q : dot_S128x64x32_S128x32x64_S128x64x64_2_1_1_2_0_0.contr.Idx) :
    (dot_S128x64x32_S128x32x64_S128x64x64_2_1_1_2_0_0.rhsIdx i q 2).val = (i 2).val := by
  unfold DotDims.rhsIdx
  rw [dif_neg (show ¬(2 : Fin S128x32x64.rank) ∈ dot_S128x64x32_S128x32x64_S128x64x64_2_1_1_2_0_0.rhsBatch by decide), dif_pos (show (2 : Fin S128x32x64.rank) ∈ dot_S128x64x32_S128x32x64_S128x64x64_2_1_1_2_0_0.rhsNonContracting by decide)]
  rfl

/-- The same product at the outer sizes: 64 × 32 times 32 × 64 per channel, at `(ch, i, j)`. -/
private theorem qkW_apply (A : FVec Ideal S128x64x32 .bf16) (B : FVec Ideal S128x32x64 .bf16) (ch : Fin 128) (i j : Fin 64) :
    matmul dot_S128x64x32_S128x32x64_S128x64x64_2_1_1_2_0_0 none A B (constant (F := Ideal) S128x64x64 .f32 0x00000000#32) (ix3 ch i j)
      = ∑ p : Fin 32, A (ix3 ch i p) * B (ix3 ch p j) := by
  simp only [matmul]
  rw [Ideal.matmul_constant_zero_apply, ← Equiv.sum_comp (ValueIdx.contrEquiv1 dot_S128x64x32_S128x32x64_S128x64x64_2_1_1_2_0_0 32 rfl rfl).symm]
  refine Finset.sum_congr rfl fun k _ => ?_
  have hk := ValueIdx.contrEquiv1_symm_val dot_S128x64x32_S128x32x64_S128x64x64_2_1_1_2_0_0 32 rfl rfl k
  have el : dot_S128x64x32_S128x32x64_S128x64x64_2_1_1_2_0_0.lhsIdx (ix3 ch i j) ((ValueIdx.contrEquiv1 dot_S128x64x32_S128x32x64_S128x64x64_2_1_1_2_0_0 32 rfl rfl).symm k) = ix3 ch i k := funext fun a => Fin.ext (by
    match a with
    | ⟨0, _⟩ => exact lhs_qkW_0 _ _
    | ⟨1, _⟩ => exact lhs_qkW_1 _ _
    | ⟨2, _⟩ => exact (lhs_qkW_2 _ _).trans hk)
  have er : dot_S128x64x32_S128x32x64_S128x64x64_2_1_1_2_0_0.rhsIdx (ix3 ch i j) ((ValueIdx.contrEquiv1 dot_S128x64x32_S128x32x64_S128x64x64_2_1_1_2_0_0 32 rfl rfl).symm k) = ix3 ch k j := funext fun a => Fin.ext (by
    match a with
    | ⟨0, _⟩ => exact rhs_qkW_0 _ _
    | ⟨1, _⟩ => exact (rhs_qkW_1 _ _).trans hk
    | ⟨2, _⟩ => exact rhs_qkW_2 _ _)
  rw [el, er]

/-- Adding the leading unit axis: the stored block at `(0, ch, i, j)` is the product at `(ch, i, j)`. -/
private theorem addUnit_apply {α : Type} (x : S128x64x64.Idx → α) (h : S128x64x64.ShapeCasts S1x128x64x64)
    (ch : Fin 128) (i j : Fin 64) :
    shapeCast S1x128x64x64 x h (ix4 (0 : Fin 1) ch i j) = x (ix3 ch i j) := by
  refine shapeCast_apply x h (ix4 (0 : Fin 1) ch i j) (ix3 ch i j) ?_
  rewrite [Shape.rowMajor_val_four, Shape.rowMajor_val_three]
  show (ch.val * 64 + i.val) * 64 + j.val = (((0 : Fin 1).val * 128 + ch.val) * 64 + i.val) * 64 + j.val
  simp

/-- The stored block from the value image `v5`, the first softmax `v32` and the second logits `v33`. -/
theorem k1_pay1_apply (v5 : FVec Ideal S128x64x64 .bf16) (v32 : FVec Ideal S128x64x32 .bf16) (v33 : FVec Ideal S128x32x64 .f32)
    (ch : Fin 128) (i j : Fin 64) :
    k1_pay1 (F := Ideal) v5 v32 v33 (k1_pay7 (F := Ideal)) (ix4 (0 : Fin 1) ch i j)
      = ∑ p : Fin 32, v32 (ix3 ch i p)
          * ∑ l : Fin 64, Spec.softmaxRow (fun l' : Fin 64 => Spec.scale * v33 (ix3 ch p l')) l * v5 (ix3 ch l j) := by
  unfold k1_pay1
  simp only []
  rw [addUnit_apply, qkW_apply]
  refine Finset.sum_congr rfl fun p _ => congrArg (v32 (ix3 ch i p) * ·) ?_
  rw [truncf_apply, kqV_apply]
  refine Finset.sum_congr rfl fun l _ => congrArg (· * v5 (ix3 ch l j)) ?_
  rw [softmax_apply]
  rfl

end Cert.KernelIdeal.Hand

end
-- ==== Proof.KerAttnPoint.lean ====
/-
  The attention kernel's stored block, read at one entry: the pooled double attention of the channel's three images.
-/
import proofs.«176652_j85564338471094_1_alg».proof.Proof.KerAttnQk
import proofs.«176652_j85564338471094_1_alg».proof.Proof.KerAttnKq
import proofs.«176652_j85564338471094_1_alg».proof.Proof.Gen.KernelIdeal.Frame

set_option maxRecDepth 16384

noncomputable section

open scoped BigOperators
open Idealize.ShloMosaic Idealize.ShloMosaic.TcCoe Idealize.ShloMosaic.ValueIdx Idealize.SL.Sem
open Idealize.ShloMosaic.Pipeline (Dat Cfg Window)

namespace Cert.KernelIdeal.Hand

open Cert.KernelIdeal Cert.KernelIdeal.Gen

/-- The value block with its unit batch axis dropped, at channel `ch`, pixel `(l, j)`. -/
theorem k1_pay4_apply (v : Vec Ideal S1x128x64x64 .bf16) (ch : Fin 128) (l j : Fin 64) :
    k1_pay4 (F := Ideal) v (ix3 ch l j) = v (ix4 (0 : Fin 1) ch l j) := by
  unfold k1_pay4
  exact shapeCast_1abc_abc_apply v _ ch l j

/-- The stored block at channel `ch`, pixel `(i, j)`. -/
theorem out1_3_apply (x0 x1 x2 : Vec Ideal S1x128x64x64 .bf16) (ch : Fin 128) (i j : Fin 64) :
    out1_3 (F := Ideal) x0 x1 x2 (ix4 (0 : Fin 1) ch i j)
      = Spec.attn (fun a b => x0 (ix4 (0 : Fin 1) ch a b)) (fun a b => x1 (ix4 (0 : Fin 1) ch a b))
          (fun a b => x2 (ix4 (0 : Fin 1) ch a b)) i j := by
  have hz : (![0, 0, 0, 0] : Fin 4 → Nat) = fun _ => 0 := funext fun a => by fin_cases a <;> rfl
  unfold out1_3
  rw [View.canon_unit_zero hz]
  simp only [View.ld_unit_zero (S := S1x128x64x64) hz]
  rw [k1_pay1_apply]
  unfold Spec.attn Spec.attnKq
  simp only [k1_pay5_apply, k1_pay6_apply, k1_pay4_apply]

end Cert.KernelIdeal.Hand

end
-- ==== Proof.KerAttnArray.lean ====
/-
  The array the second launch leaves, as one function of the three image arrays it was entered with.

  The grid runs over batch entry `b` and channel tile `c'` (four tiles of 128 channels); point `(b, c')` stores the block
  `[b, 128·c' : 128·(c'+1), 0:64, 0:64]`. The blocks tile the array, so entry `(b, d, i, j)` is the pooled double attention
  of channel `d`'s three images of batch entry `b`.
-/
import proofs.«176652_j85564338471094_1_alg».proof.Proof.KerAttnPoint

set_option maxRecDepth 16384

noncomputable section

open scoped BigOperators
open Idealize.ShloMosaic Idealize.ShloMosaic.TcCoe Idealize.ShloMosaic.ValueIdx Idealize.SL.Sem
open Idealize.ShloMosaic.Pipeline (Dat Cfg Window)

namespace Cert.KernelIdeal.Hand

open Cert.KernelIdeal Cert.KernelIdeal.Gen

/-- The pooled double attention of the three image arrays, entry by entry: what the attention array ends holding. -/
abbrev attnOf (a1 a2 a3 : S16x512x64x64.Idx → EReal) : S16x512x64x64.Idx → EReal := fun i =>
  Spec.attn (fun a b => a1 (ix4 (i 0) (i 1) a b)) (fun a b => a2 (ix4 (i 0) (i 1) a b))
    (fun a b => a3 (ix4 (i 0) (i 1) a b)) (i 2) (i 3)

/-- The stored block at any entry of the block: the unit batch coordinate is `0`. -/
theorem out1_3_at (x0 x1 x2 : Vec Ideal S1x128x64x64 .bf16) (j : S1x128x64x64.Idx) :
    out1_3 (F := Ideal) x0 x1 x2 j
      = Spec.attn (fun a b => x0 (ix4 (0 : Fin 1) (j 1) a b)) (fun a b => x1 (ix4 (0 : Fin 1) (j 1) a b))
          (fun a b => x2 (ix4 (0 : Fin 1) (j 1) a b)) (j 2) (j 3) := by
  obtain ⟨u, ch, i, k, rfl⟩ : ∃ (u : Fin 1) (ch : Fin 128) (i k : Fin 64), j = ix4 u ch i k :=
    ⟨j 0, j 1, j 2, j 3, eq_ix4 j⟩
  obtain rfl : u = 0 := Subsingleton.elim _ _
  exact out1_3_apply x0 x1 x2 ch i k

/-- The printed index maps, decided over the grid: the three input windows move with the output window, whose block
    index is (batch entry, channel tile, 0, 0). -/
theorem attn_index_facts : ∀ t : Fin cfg1.N,
    win1_0.index t (0 : Fin 4) = win1_3.index t (0 : Fin 4) ∧ win1_0.index t (1 : Fin 4) = win1_3.index t (1 : Fin 4)
    ∧ win1_0.index t (2 : Fin 4) = 0 ∧ win1_0.index t (3 : Fin 4) = 0
    ∧ win1_1.index t (0 : Fin 4) = win1_3.index t (0 : Fin 4) ∧ win1_1.index t (1 : Fin 4) = win1_3.index t (1 : Fin 4)
    ∧ win1_1.index t (2 : Fin 4) = 0 ∧ win1_1.index t (3 : Fin 4) = 0
    ∧ win1_2.index t (0 : Fin 4) = win1_3.index t (0 : Fin 4) ∧ win1_2.index t (1 : Fin 4) = win1_3.index t (1 : Fin 4)
    ∧ win1_2.index t (2 : Fin 4) = 0 ∧ win1_2.index t (3 : Fin 4) = 0
    ∧ win1_3.index t (0 : Fin 4) ≤ 15 ∧ win1_3.index t (1 : Fin 4) ≤ 3
    ∧ win1_3.index t (2 : Fin 4) = 0 ∧ win1_3.index t (3 : Fin 4) = 0 :=
  (by decide +kernel : ∀ t : Fin grid1.N, _)

/-- Every (batch entry, channel tile) is some point's block index. -/
theorem attn_index_onto : ∀ (q0 : Fin 16) (q1 : Fin 4), ∃ t : Fin cfg1.N, win1_3.index t = ![q0.val, q1.val, 0, 0] :=
  (by decide +kernel : ∀ (q0 : Fin 16) (q1 : Fin 4), ∃ t : Fin grid1.N, win1_3.index t = ![q0.val, q1.val, 0, 0])

/-- An index of the array is in point `t`'s block iff each coordinate is in the block's range on its axis. -/
theorem attn_mem_blk (t : Fin cfg1.N) (i : S16x512x64x64.Idx) :
    i ∈ ((cfg1.win 3).blk t).view.set ↔ ∀ a : Fin 4, win1_3.index t a * S1x128x64x64.size a ≤ (i a).val
      ∧ (i a).val < win1_3.index t a * S1x128x64x64.size a + S1x128x64x64.size a := by
  show i ∈ ((View.whole main_v4).slice (win1_3.rect t)).set ↔ _
  rw [View.set_slice_whole, Rect.mem_set_unit]
  exact Iff.rfl

/-- The blocks tile the array: every index is in some point's block. -/
theorem attn_cover (i : S16x512x64x64.Idx) :
    ∃ t : Fin cfg1.N, (cfg1.win 3).flush t = true ∧ i ∈ ((cfg1.win 3).blk t).view.set := by
  have hi0 : (i 0).val < 16 := (i 0).isLt
  have hi1 : (i 1).val < 512 := (i 1).isLt
  have hi2 : (i 2).val < 64 := (i 2).isLt
  have hi3 : (i 3).val < 64 := (i 3).isLt
  obtain ⟨t, ht⟩ := attn_index_onto ⟨(i 0).val, hi0⟩ ⟨(i 1).val / 128, by omega⟩
  have q0 : win1_3.index t (0 : Fin 4) = (i 0).val := congrFun ht 0
  have q1 : win1_3.index t (1 : Fin 4) = (i 1).val / 128 := congrFun ht 1
  have q2 : win1_3.index t (2 : Fin 4) = 0 := congrFun ht 2
  have q3 : win1_3.index t (3 : Fin 4) = 0 := congrFun ht 3
  refine ⟨t, flush1_3 t, ?_⟩
  rw [attn_mem_blk]
  intro a
  match a with
  | ⟨0, _⟩ => show win1_3.index t (0 : Fin 4) * 1 ≤ (i 0).val ∧ (i 0).val < win1_3.index t (0 : Fin 4) * 1 + 1; omega
  | ⟨1, _⟩ => show win1_3.index t (1 : Fin 4) * 128 ≤ (i 1).val ∧ (i 1).val < win1_3.index t (1 : Fin 4) * 128 + 128; omega
  | ⟨2, _⟩ => show win1_3.index t (2 : Fin 4) * 64 ≤ (i 2).val ∧ (i 2).val < win1_3.index t (2 : Fin 4) * 64 + 64; omega
  | ⟨3, _⟩ => show win1_3.index t (3 : Fin 4) * 64 ≤ (i 3).val ∧ (i 3).val < win1_3.index t (3 : Fin 4) * 64 + 64; omega

variable (V : (c : Dev nD) → (b : Ref sig .tc) → Buf (Elt Ideal) ((c : Thread nD τ).loc b))

/-- The query window's block at point `t`, read at channel `j 1` of the block, is the query array at the batch entry and
    channel where the output's block puts `j`. -/
theorem attn_iblk_query (c : Dev nD) (t : Fin cfg1.N) (j : S1x128x64x64.Idx) (a b : Fin 64) :
    iblk1 (F := Ideal) V c 0 t (ix4 (0 : Fin 1) (j 1) a b)
      = V c main_v1 (ix4 ((((cfg1.win 3).blk t).view.emb j) 0) ((((cfg1.win 3).blk t).view.emb j) 1) a b) := by
  obtain ⟨e0, e1, e2, e3, -⟩ := attn_index_facts t
  show V c main_v1 (((cfg1.win 0).blk t).view.emb (ix4 (0 : Fin 1) (j 1) a b)) = V c main_v1 _
  have hj0 : (j 0).val < 1 := (j 0).isLt
  refine congrArg (V c main_v1) (funext fun e => Fin.ext ?_)
  match e with
  | ⟨0, _⟩ => show win1_0.index t (0 : Fin 4) * 1 + 1 * 0 = win1_3.index t (0 : Fin 4) * 1 + 1 * (j 0).val; omega
  | ⟨1, _⟩ => show win1_0.index t (1 : Fin 4) * 128 + 1 * (j 1).val = win1_3.index t (1 : Fin 4) * 128 + 1 * (j 1).val; omega
  | ⟨2, _⟩ => show win1_0.index t (2 : Fin 4) * 64 + 1 * a.val = a.val; omega
  | ⟨3, _⟩ => show win1_0.index t (3 : Fin 4) * 64 + 1 * b.val = b.val; omega

/-- The key window's block at point `t`, likewise. -/
theorem attn_iblk_key (c : Dev nD) (t : Fin cfg1.N) (j : S1x128x64x64.Idx) (a b : Fin 64) :
    iblk1 (F := Ideal) V c 1 t (ix4 (0 : Fin 1) (j 1) a b)
      = V c main_v2 (ix4 ((((cfg1.win 3).blk t).view.emb j) 0) ((((cfg1.win 3).blk t).view.emb j) 1) a b) := by
  obtain ⟨-, -, -, -, e0, e1, e2, e3, -⟩ := attn_index_facts t
  show V c main_v2 (((cfg1.win 1).blk t).view.emb (ix4 (0 : Fin 1) (j 1) a b)) = V c main_v2 _
  have hj0 : (j 0).val < 1 := (j 0).isLt
  refine congrArg (V c main_v2) (funext fun e => Fin.ext ?_)
  match e with
  | ⟨0, _⟩ => show win1_1.index t (0 : Fin 4) * 1 + 1 * 0 = win1_3.index t (0 : Fin 4) * 1 + 1 * (j 0).val; omega
  | ⟨1, _⟩ => show win1_1.index t (1 : Fin 4) * 128 + 1 * (j 1).val = win1_3.index t (1 : Fin 4) * 128 + 1 * (j 1).val; omega
  | ⟨2, _⟩ => show win1_1.index t (2 : Fin 4) * 64 + 1 * a.val = a.val; omega
  | ⟨3, _⟩ => show win1_1.index t (3 : Fin 4) * 64 + 1 * b.val = b.val; omega

/-- The value window's block at point `t`, likewise. -/
theorem attn_iblk_value (c : Dev nD) (t : Fin cfg1.N) (j : S1x128x64x64.Idx) (a b : Fin 64) :
    iblk1 (F := Ideal) V c 2 t (ix4 (0 : Fin 1) (j 1) a b)
      = V c main_v3 (ix4 ((((cfg1.win 3).blk t).view.emb j) 0) ((((cfg1.win 3).blk t).view.emb j) 1) a b) := by
  obtain ⟨-, -, -, -, -, -, -, -, e0, e1, e2, e3, -⟩ := attn_index_facts t
  show V c main_v3 (((cfg1.win 2).blk t).view.emb (ix4 (0 : Fin 1) (j 1) a b)) = V c main_v3 _
  have hj0 : (j 0).val < 1 := (j 0).isLt
  refine congrArg (V c main_v3) (funext fun e => Fin.ext ?_)
  match e with
  | ⟨0, _⟩ => show win1_2.index t (0 : Fin 4) * 1 + 1 * 0 = win1_3.index t (0 : Fin 4) * 1 + 1 * (j 0).val; omega
  | ⟨1, _⟩ => show win1_2.index t (1 : Fin 4) * 128 + 1 * (j 1).val = win1_3.index t (1 : Fin 4) * 128 + 1 * (j 1).val; omega
  | ⟨2, _⟩ => show win1_2.index t (2 : Fin 4) * 64 + 1 * a.val = a.val; omega
  | ⟨3, _⟩ => show win1_2.index t (3 : Fin 4) * 64 + 1 * b.val = b.val; omega

/-- What point `t` writes back is block `t` of the pooled double attention of the three image arrays. -/
theorem flushed_attn (c : Dev nD) (t : Fin cfg1.N) :
    (dat1 (F := Ideal) V c).flushed 3 t
      = ((cfg1.win 3).blk t).view.read (Elt Ideal) (attnOf (V c main_v1) (V c main_v2) (V c main_v3)) := by
  show (cfg1.win 3).cut (grid1.coords t) ((dat1 (F := Ideal) V c).after 3 t) = _
  rw [after1_3]
  funext j
  show out1_3 (F := Ideal) (iblk1 V c 0 t) (iblk1 V c 1 t) (iblk1 V c 2 t) j
    = attnOf (V c main_v1) (V c main_v2) (V c main_v3) (((cfg1.win 3).blk t).view.emb j)
  rw [out1_3_at]
  simp only [attn_iblk_query V c t j, attn_iblk_key V c t j, attn_iblk_value V c t j]
  obtain ⟨-, -, -, -, -, -, -, -, -, -, -, -, -, -, e2, e3⟩ := attn_index_facts t
  have h2 : (((cfg1.win 3).blk t).view.emb j) 2 = j 2 :=
    Fin.ext (by show win1_3.index t (2 : Fin 4) * 64 + 1 * (j 2).val = (j 2).val; omega)
  have h3 : (((cfg1.win 3).blk t).view.emb j) 3 = j 3 :=
    Fin.ext (by show win1_3.index t (3 : Fin 4) * 64 + 1 * (j 3).val = (j 3).val; omega)
  show _ = Spec.attn _ _ _ ((((cfg1.win 3).blk t).view.emb j) 2) ((((cfg1.win 3).blk t).view.emb j) 3)
  rw [h2, h3]

/-- The attention array after the second launch. -/
theorem final1_3 (c : Dev nD) :
    (dat1 (F := Ideal) V c).arrAt 3 cfg1.N = fun i : S16x512x64x64.Idx =>
      Spec.attn (fun a b => V c main_v1 (ix4 (i 0) (i 1) a b)) (fun a b => V c main_v2 (ix4 (i 0) (i 1) a b))
        (fun a b => V c main_v3 (ix4 (i 0) (i 1) a b)) (i 2) (i 3) :=
  (dat1 (F := Ideal) V c).arrAt_eq_of_cover 3 (attnOf (V c main_v1) (V c main_v2) (V c main_v3))
    (fun t _ => flushed_attn V c t) attn_cover

end Cert.KernelIdeal.Hand

end
-- ==== Proof.KerGlue.lean ====
/-
  The kernel program's result buffer at the end of the run, as the specification of the seven arguments.

  The run's boundary contents are a fold: the first launch's three arrays, each re-read as `[16, 512, 64, 64]` images (token
  `64·i + j` at pixel `(i, j)`), the second launch's array, re-read as `[16, 512, 4096]` and transposed to token-major.
  Reading the fold back from the result: entry `(b, n, d)` is the attention array at `(b, d, n / 64, n % 64)`, whose three
  images are the projection arrays at `(b, d, 64·i + j)`, which are the squashed affine maps of the arguments.
-/
import proofs.«176652_j85564338471094_1_alg».proof.Proof.KerProjArray
import proofs.«176652_j85564338471094_1_alg».proof.Proof.KerAttnArray
import Idealize.ShloMosaic.Lib.StableHlo.Run

set_option maxRecDepth 16384

noncomputable section

open scoped BigOperators
open Idealize.ShloMosaic Idealize.ShloMosaic.TcCoe Idealize.ShloMosaic.ValueIdx Idealize.SL.Sem
open Idealize.ShloMosaic.Pipeline (Dat Cfg Window)

namespace Cert.KernelIdeal.Hand

open Cert.KernelIdeal Cert.KernelIdeal.Gen

variable (m : (ℓ : Loc nD τ sig) → Buf (Elt Ideal) ℓ) (ρ : Dev nD → PrngReg)

/-- The result buffer is the second launch's array re-read as `[16, 512, 4096]` and transposed. -/
private theorem glue_out_eq (c : Dev nD) :
    (W4 (F := Ideal) m ρ c (Proc.devRef .tc main_v6) : S16x4096x512.Idx → EReal) =
      transpose S16x4096x512 [0, 2, 1]
        (shapeCast S16x512x4096 (W3 (F := Ideal) m ρ c (Proc.devRef .tc main_v4) : S16x512x64x64.Idx → EReal)
          shapeCasts_S16x512x64x64_S16x512x4096)
        transposes_S16x512x4096_S16x4096x512_0_2_1 := by
  show StableHlo.after hostOps2 _ (Proc.devRef .tc main_v6) = _
  after_results
  rfl

/-- Entry `(b, n, d)` of the result is the second launch's array at `(b, d, n / 64, n % 64)`. -/
private theorem glue_out_apply (c : Dev nD) (b : Fin 16) (n : Fin 4096) (d : Fin 512) :
    (W4 (F := Ideal) m ρ c (Proc.devRef .tc main_v6) : S16x4096x512.Idx → EReal) (ix3 b n d) =
      (W3 (F := Ideal) m ρ c (Proc.devRef .tc main_v4) : S16x512x64x64.Idx → EReal) (ix4 b d (Spec.rowOf n) (Spec.colOf n)) := by
  rw [glue_out_eq m ρ c]
  refine (transpose_apply _ _ _ (ix3 b n d) (ix3 b d n) ?_).trans ?_
  · intro a
    match a with
    | ⟨0, _⟩ => rfl
    | ⟨1, _⟩ => rfl
    | ⟨2, _⟩ => rfl
  · refine shapeCast_apply _ _ (ix3 b d n) (ix4 b d (Spec.rowOf n) (Spec.colOf n)) ?_
    rw [Shape.rowMajor_val_four, Shape.rowMajor_val_three]
    show ((b.val * 512 + d.val) * 64 + n.val / 64) * 64 + n.val % 64 = (b.val * 512 + d.val) * 4096 + n.val
    omega

/-- The second launch's array at `(b, d, i, j)` is the attention of the three images it reads. -/
private theorem glue_attn_apply (c : Dev nD) (b : Fin 16) (d : Fin 512) (i j : Fin 64) :
    (W3 (F := Ideal) m ρ c (Proc.devRef .tc main_v4) : S16x512x64x64.Idx → EReal) (ix4 b d i j) =
      Spec.attn (fun a k => (V2 (F := Ideal) m ρ c main_v1 : S16x512x64x64.Idx → EReal) (ix4 b d a k))
        (fun a k => (V2 (F := Ideal) m ρ c main_v2 : S16x512x64x64.Idx → EReal) (ix4 b d a k))
        (fun a k => (V2 (F := Ideal) m ρ c main_v3 : S16x512x64x64.Idx → EReal) (ix4 b d a k)) i j :=
  congrFun ((W3_arr m ρ c 3).trans (final1_3 (V2 m ρ) c)) (ix4 b d i j)

/-- The first image buffer the second launch reads is the first launch's query array re-read as images. -/
private theorem glue_v1_eq (c : Dev nD) :
    (V2 (F := Ideal) m ρ c main_v1 : S16x512x64x64.Idx → EReal) =
      shapeCast S16x512x64x64 ((dat0 (F := Ideal) (V0 m ρ) c).arrAt 7 cfg0.N : S16x512x4096.Idx → EReal)
        shapeCasts_S16x512x4096_S16x512x64x64 := by
  rw [← W1_arr m ρ c 7]
  show StableHlo.after hostOps1 _ (Proc.devRef .tc main_v1) = _
  after_results
  rfl

/-- The second: the key array. -/
private theorem glue_v2_eq (c : Dev nD) :
    (V2 (F := Ideal) m ρ c main_v2 : S16x512x64x64.Idx → EReal) =
      shapeCast S16x512x64x64 ((dat0 (F := Ideal) (V0 m ρ) c).arrAt 8 cfg0.N : S16x512x4096.Idx → EReal)
        shapeCasts_S16x512x4096_S16x512x64x64 := by
  rw [← W1_arr m ρ c 8]
  show StableHlo.after hostOps1 _ (Proc.devRef .tc main_v2) = _
  after_results
  rfl

/-- The third: the value array. -/
private theorem glue_v3_eq (c : Dev nD) :
    (V2 (F := Ideal) m ρ c main_v3 : S16x512x64x64.Idx → EReal) =
      shapeCast S16x512x64x64 ((dat0 (F := Ideal) (V0 m ρ) c).arrAt 9 cfg0.N : S16x512x4096.Idx → EReal)
        shapeCasts_S16x512x4096_S16x512x64x64 := by
  rw [← W1_arr m ρ c 9]
  show StableHlo.after hostOps1 _ (Proc.devRef .tc main_v3) = _
  after_results
  rfl

/-- Pixel `(i, j)` of a `[16, 512, 4096]` array re-read as images is its token `64·i + j`. -/
private theorem glue_images_apply (X : S16x512x4096.Idx → EReal) (b : Fin 16) (d : Fin 512) (i j : Fin 64) :
    shapeCast S16x512x64x64 X shapeCasts_S16x512x4096_S16x512x64x64 (ix4 b d i j) = X (ix3 b d (Spec.tok i j)) := by
  refine shapeCast_apply _ _ (ix4 b d i j) (ix3 b d (Spec.tok i j)) ?_
  rw [Shape.rowMajor_val_four, Shape.rowMajor_val_three]
  show (b.val * 512 + d.val) * 4096 + (i.val * 64 + j.val) = ((b.val * 512 + d.val) * 64 + i.val) * 64 + j.val
  omega

/-- The query images of batch entry `b`, channel `d`. -/
private theorem glue_images_q (c : Dev nD) (b : Fin 16) (d : Fin 512) :
    (fun a k : Fin 64 => (V2 (F := Ideal) m ρ c main_v1 : S16x512x64x64.Idx → EReal) (ix4 b d a k)) =
      Spec.image (Spec.arr3 (m ((c.tc : Thread nD τ).loc main_arg0)) b) (Spec.arr2 (m ((c.tc : Thread nD τ).loc main_arg1)))
        (Spec.arr1 (m ((c.tc : Thread nD τ).loc main_arg2))) d := by
  funext a k
  rw [glue_v1_eq m ρ c, glue_images_apply]
  exact congrFun (final0_7 (V0 m ρ) c) (ix3 b d (Spec.tok a k))

/-- The key images. -/
private theorem glue_images_k (c : Dev nD) (b : Fin 16) (d : Fin 512) :
    (fun a k : Fin 64 => (V2 (F := Ideal) m ρ c main_v2 : S16x512x64x64.Idx → EReal) (ix4 b d a k)) =
      Spec.image (Spec.arr3 (m ((c.tc : Thread nD τ).loc main_arg0)) b) (Spec.arr2 (m ((c.tc : Thread nD τ).loc main_arg3)))
        (Spec.arr1 (m ((c.tc : Thread nD τ).loc main_arg4))) d := by
  funext a k
  rw [glue_v2_eq m ρ c, glue_images_apply]
  exact congrFun (final0_8 (V0 m ρ) c) (ix3 b d (Spec.tok a k))

/-- The value images. -/
private theorem glue_images_v (c : Dev nD) (b : Fin 16) (d : Fin 512) :
    (fun a k : Fin 64 => (V2 (F := Ideal) m ρ c main_v3 : S16x512x64x64.Idx → EReal) (ix4 b d a k)) =
      Spec.image (Spec.arr3 (m ((c.tc : Thread nD τ).loc main_arg0)) b) (Spec.arr2 (m ((c.tc : Thread nD τ).loc main_arg5)))
        (Spec.arr1 (m ((c.tc : Thread nD τ).loc main_arg6))) d := by
  funext a k
  rw [glue_v3_eq m ρ c, glue_images_apply]
  exact congrFun (final0_9 (V0 m ρ) c) (ix3 b d (Spec.tok a k))

/-- Entry `(b, n, d)` of the result buffer, over explicit coordinates. -/
private theorem glue_result_apply (c : Dev nD) (b : Fin 16) (n : Fin 4096) (d : Fin 512) :
    (W4 (F := Ideal) m ρ c (Proc.devRef .tc main_v6) : S16x4096x512.Idx → EReal) (ix3 b n d) =
      Spec.result (Spec.arr3 (m ((c.tc : Thread nD τ).loc main_arg0))) (Spec.arr2 (m ((c.tc : Thread nD τ).loc main_arg1)))
        (Spec.arr1 (m ((c.tc : Thread nD τ).loc main_arg2))) (Spec.arr2 (m ((c.tc : Thread nD τ).loc main_arg3)))
        (Spec.arr1 (m ((c.tc : Thread nD τ).loc main_arg4))) (Spec.arr2 (m ((c.tc : Thread nD τ).loc main_arg5)))
        (Spec.arr1 (m ((c.tc : Thread nD τ).loc main_arg6))) b n d := by
  rw [glue_out_apply, glue_attn_apply, glue_images_q, glue_images_k, glue_images_v]
  rfl

/-- The result buffer at the last boundary of the run. -/
theorem kernel_value (c : Dev nD) :
    W4 (F := Ideal) m ρ c (Proc.devRef .tc main_v6) = fun i : S16x4096x512.Idx =>
      Spec.result (Spec.arr3 (m ((c.tc : Thread nD τ).loc main_arg0))) (Spec.arr2 (m ((c.tc : Thread nD τ).loc main_arg1)))
        (Spec.arr1 (m ((c.tc : Thread nD τ).loc main_arg2))) (Spec.arr2 (m ((c.tc : Thread nD τ).loc main_arg3)))
        (Spec.arr1 (m ((c.tc : Thread nD τ).loc main_arg4))) (Spec.arr2 (m ((c.tc : Thread nD τ).loc main_arg5)))
        (Spec.arr1 (m ((c.tc : Thread nD τ).loc main_arg6))) (i 0) (i 1) (i 2) := by
  funext i
  exact (congrArg (W4 (F := Ideal) m ρ c (Proc.devRef .tc main_v6) : S16x4096x512.Idx → EReal)
    (eq_ix3 (n0 := 16) (n1 := 4096) (n2 := 512) i)).trans (glue_result_apply m ρ c (i 0) (i 1) (i 2))

end Cert.KernelIdeal.Hand

end
-- ==== Proof.RefProj.lean ====
/-
  The reference's three projections as images, read at one entry.

  Each projection is the host's product of the tokens with the transposed weights, plus the bias broadcast over batch and
  tokens, squashed as `1 / (1 + e^(-t))`, transposed to channel-major and re-read as 64 × 64 images. At batch entry `b`,
  channel `d`, pixel `(i, j)` that is the squashed affine map of token `64·i + j`; the host's spelling of the squash is the
  logistic function's definition on the extended reals, its literal `1.0` the real one.
-/
import proofs.«176652_j85564338471094_1_alg».proof.Proof.Spec
import proofs.«176652_j85564338471094_1_alg».proof.Proof.Gen.ReferenceIdeal.Read

noncomputable section

open scoped BigOperators
open Idealize.ShloMosaic Idealize.ShloMosaic.TcCoe Idealize.ShloMosaic.ValueIdx Idealize.SL.Sem

namespace Cert.ReferenceIdeal.Hand

open Cert.ReferenceIdeal Cert.ReferenceIdeal.Gen Cert.ReferenceIdeal.Read

/-- The f32 word of `1.0` (sign 0, biased exponent 127, zero fraction) is the extended real `1`. -/
theorem ofBits_one_f32 : Ideal.ofBits .f32 0x3F800000#32 = 1 := by
  simp [Ideal.ofBits, Ideal.ieee, -EReal.coe_mul]; norm_num

/-- The re-reading as images followed by the transposition: pixel `(i, j)` of channel `d` in batch entry `b` has row-major
    position `((512·b + d)·64 + i)·64 + j`, whose quotient by `512·4096` is `b`, whose quotient by `4096` is `d` modulo `512`, and
    whose remainder modulo `4096` is the token `64·i + j`; the transposition then swaps token and channel. -/
theorem idx_q (b : Fin 16) (d : Fin 512) (i j : Fin 64) :
    idx_main_v10 (idx_main_v11 (ix4 b d i j)) = ix3 b (Spec.tok i j) d := by
  have hb := b.isLt; have hd := d.isLt; have hi := i.isLt; have hj := j.isLt
  funext a
  apply Fin.ext
  match a with
  | ⟨0, _⟩ => show (((b.val * 512 + d.val) * 64 + i.val) * 64 + j.val) / 2097152 = b.val; omega
  | ⟨1, _⟩ => show (((b.val * 512 + d.val) * 64 + i.val) * 64 + j.val) % 4096 = i.val * 64 + j.val; omega
  | ⟨2, _⟩ => show (((b.val * 512 + d.val) * 64 + i.val) * 64 + j.val) / 4096 % 512 = d.val; omega

/-- The product's left factor at summand `k`: batch entry and token of the output entry, feature `k`. -/
theorem lidx_q (b : Fin 16) (n : Fin 4096) (d k : Fin 512) : lidx_main_v0 (ix3 b n d) k = ix3 b n k := by
  funext a
  match a with
  | ⟨0, _⟩ => rfl
  | ⟨1, _⟩ => rfl
  | ⟨2, _⟩ => rfl

/-- The product's right factor at summand `k`: the weight row of the output channel, feature `k`. -/
theorem ridx_q (b : Fin 16) (n : Fin 4096) (d k : Fin 512) : ridx_main_v0 (ix3 b n d) k = ix2 d k := by
  funext a
  match a with
  | ⟨0, _⟩ => rfl
  | ⟨1, _⟩ => rfl

/-- The bias broadcast over batch and tokens reads the bias at the output channel. -/
theorem bidx_q (b : Fin 16) (n : Fin 4096) (d : Fin 512) : idx_main_v1 (idx_main_v2 (ix3 b n d)) = ix1 d := by
  funext a
  match a with
  | ⟨0, _⟩ => rfl

/-- The query images. -/
theorem ref_image_q (x0 : (⟨S16x4096x512, .f32⟩ : BufTy).Contents (Elt Ideal)) (x1 : (⟨S512x512, .f32⟩ : BufTy).Contents (Elt Ideal)) (x2 : (⟨S512, .f32⟩ : BufTy).Contents (Elt Ideal)) (b : Fin 16) (d : Fin 512) (i j : Fin 64) :
    val_main_v11 (F := Ideal) x0 x1 x2 (ix4 b d i j) = Spec.image (Spec.arr3 x0 b) (Spec.arr2 x1) (Spec.arr1 x2) d i j := by
  -- entry (b, d, i, j) of the images is entry (b, 64·i + j, d) of the squashed affine map
  rw [val_main_v11_apply, val_main_v10_apply, idx_q, val_main_v9_apply, val_main_v8_apply, val_main_cst_0_apply,
    val_main_v7_apply, val_main_v6_apply, val_main_cst_apply, val_main_v5_apply, val_main_v4_apply, val_main_v3_apply,
    val_main_v0_apply, val_main_v2_apply, val_main_v1_apply]
  -- the operations on the extended reals, the literal 1.0 the real one
  simp only [Ideal.hostDivf_def, Ideal.addf_def, Ideal.hostUnary_exp_def, Ideal.hostNegf_def, Ideal.negf_def,
    Ideal.ofBits_def, ofBits_one_f32]
  -- the summands and the bias at explicit coordinates; what is left is the logistic function's definition
  simp only [lidx_q, ridx_q, bidx_q]
  rfl

/-- The key projection is the same composed function of its tokens, weights and bias as the query projection. -/
theorem v23_eq (x0 : (⟨S16x4096x512, .f32⟩ : BufTy).Contents (Elt Ideal)) (x3 : (⟨S512x512, .f32⟩ : BufTy).Contents (Elt Ideal)) (x4 : (⟨S512, .f32⟩ : BufTy).Contents (Elt Ideal)) :
    val_main_v23 (F := Ideal) x0 x3 x4 = val_main_v11 (F := Ideal) x0 x3 x4 := rfl

/-- The value projection is the same composed function of its tokens, weights and bias as the query projection. -/
theorem v35_eq (x0 : (⟨S16x4096x512, .f32⟩ : BufTy).Contents (Elt Ideal)) (x5 : (⟨S512x512, .f32⟩ : BufTy).Contents (Elt Ideal)) (x6 : (⟨S512, .f32⟩ : BufTy).Contents (Elt Ideal)) :
    val_main_v35 (F := Ideal) x0 x5 x6 = val_main_v11 (F := Ideal) x0 x5 x6 := rfl

/-- The key images. -/
theorem ref_image_k (x0 : (⟨S16x4096x512, .f32⟩ : BufTy).Contents (Elt Ideal)) (x3 : (⟨S512x512, .f32⟩ : BufTy).Contents (Elt Ideal)) (x4 : (⟨S512, .f32⟩ : BufTy).Contents (Elt Ideal)) (b : Fin 16) (d : Fin 512) (i j : Fin 64) :
    val_main_v23 (F := Ideal) x0 x3 x4 (ix4 b d i j) = Spec.image (Spec.arr3 x0 b) (Spec.arr2 x3) (Spec.arr1 x4) d i j := by
  rw [v23_eq]
  exact ref_image_q x0 x3 x4 b d i j

/-- The value images. -/
theorem ref_image_v (x0 : (⟨S16x4096x512, .f32⟩ : BufTy).Contents (Elt Ideal)) (x5 : (⟨S512x512, .f32⟩ : BufTy).Contents (Elt Ideal)) (x6 : (⟨S512, .f32⟩ : BufTy).Contents (Elt Ideal)) (b : Fin 16) (d : Fin 512) (i j : Fin 64) :
    val_main_v35 (F := Ideal) x0 x5 x6 (ix4 b d i j) = Spec.image (Spec.arr3 x0 b) (Spec.arr2 x5) (Spec.arr1 x6) d i j := by
  rw [v35_eq]
  exact ref_image_q x0 x5 x6 b d i j

end Cert.ReferenceIdeal.Hand

end
-- ==== Proof.RefQk.lean ====
/-
  The reference's first softmax, read at one entry.

  The key images' row pairs are averaged; every query row meets every pooled key row over the 64 columns; the logits are
  scaled and the softmax taken over the 32 pooled rows (maximum from −∞ and once more against −∞, shift, exponentiate,
  divide by the row sum). At batch entry `b`, channel `d`, query row `i`, pooled row `p` that is `attnQk` of the two images.
-/
import proofs.«176652_j85564338471094_1_alg».proof.Proof.Spec
import proofs.«176652_j85564338471094_1_alg».proof.Proof.Gen.ReferenceIdeal.Read

noncomputable section

open scoped BigOperators
open Idealize.ShloMosaic Idealize.ShloMosaic.TcCoe Idealize.ShloMosaic.ValueIdx Idealize.SL.Sem

namespace Cert.ReferenceIdeal.Hand

open Cert.ReferenceIdeal Cert.ReferenceIdeal.Gen Cert.ReferenceIdeal.Read

/-- Splitting the 64 image rows into 32 pairs: element `(b, d, p, s, k)` of the paired array is element
    `(b, d, 2·p + s, k)` of the image, since both sit at the same row-major position. -/
private theorem qk_pairIdx (b : Fin 16) (d : Fin 512) (p : Fin 32) (k : Fin 64) (s : Fin 2) :
    idx_main_v40 (idx_main_v41 (ix4 b d p k) s) = ix4 b d (Spec.pairRow p s) k := by
  have hb := b.isLt; have hd := d.isLt; have hp := p.isLt; have hk := k.isLt; have hs := s.isLt
  refine funext fun a => Fin.ext ?_
  match a with
  | ⟨0, _⟩ => show ((((b.val * 512 + d.val) * 32 + p.val) * 2 + s.val) * 64 + k.val) / 2097152 = b.val; omega
  | ⟨1, _⟩ => show ((((b.val * 512 + d.val) * 32 + p.val) * 2 + s.val) * 64 + k.val) / 4096 % 512 = d.val; omega
  | ⟨2, _⟩ => show ((((b.val * 512 + d.val) * 32 + p.val) * 2 + s.val) * 64 + k.val) / 64 % 64 = p.val * 2 + s.val; omega
  | ⟨3, _⟩ => show ((((b.val * 512 + d.val) * 32 + p.val) * 2 + s.val) * 64 + k.val) % 64 = k.val; omega

/-- The pooled key image: the sum of the two rows of pair `p` (from 0) divided by 2. -/
private theorem qk_pooledK (x0 : (⟨S16x4096x512, .f32⟩ : BufTy).Contents (Elt Ideal)) (x3 : (⟨S512x512, .f32⟩ : BufTy).Contents (Elt Ideal)) (x4 : (⟨S512, .f32⟩ : BufTy).Contents (Elt Ideal)) (b : Fin 16) (d : Fin 512) (p : Fin 32) (k : Fin 64) :
    val_main_v43 (F := Ideal) x0 x3 x4 (ix4 b d p k)
      = Spec.pool (fun a k => val_main_v23 (F := Ideal) x0 x3 x4 (ix4 b d a k)) p k := by
  rw [val_main_v43_apply, val_main_v41_apply, val_main_v42_apply, val_main_cst_8_apply, val_main_cst_7_apply]
  simp only [Ideal.hostDivf_def, Ideal.ofBits_def, Ideal.ofBits_zero_f32, zero_add]
  unfold Spec.pool
  refine congrArg (Ideal.div · Spec.two) (Finset.sum_congr rfl fun s _ => ?_)
  rw [val_main_v40_apply, qk_pairIdx]

/-- The scaled logit of query row `i` against pooled key row `p`: `s · Σ_k Q[i,k] · pool K[p,k]`. -/
private def qk_logit (x0 : (⟨S16x4096x512, .f32⟩ : BufTy).Contents (Elt Ideal)) (x1 : (⟨S512x512, .f32⟩ : BufTy).Contents (Elt Ideal)) (x2 : (⟨S512, .f32⟩ : BufTy).Contents (Elt Ideal)) (x3 : (⟨S512x512, .f32⟩ : BufTy).Contents (Elt Ideal)) (x4 : (⟨S512, .f32⟩ : BufTy).Contents (Elt Ideal)) (b : Fin 16) (d : Fin 512) (i : Fin 64) (p : Fin 32) : EReal :=
  Spec.scale * ∑ k : Fin 64, val_main_v11 (F := Ideal) x0 x1 x2 (ix4 b d i k)
    * Spec.pool (fun a k => val_main_v23 (F := Ideal) x0 x3 x4 (ix4 b d a k)) p k

/-- The scaled product of the query image with the pooled key image over the 64 columns is the logit. -/
private theorem qk_logit_at (x0 : (⟨S16x4096x512, .f32⟩ : BufTy).Contents (Elt Ideal)) (x1 : (⟨S512x512, .f32⟩ : BufTy).Contents (Elt Ideal)) (x2 : (⟨S512, .f32⟩ : BufTy).Contents (Elt Ideal)) (x3 : (⟨S512x512, .f32⟩ : BufTy).Contents (Elt Ideal)) (x4 : (⟨S512, .f32⟩ : BufTy).Contents (Elt Ideal)) (b : Fin 16) (d : Fin 512) (i : Fin 64) (p : Fin 32) :
    val_main_v46 (F := Ideal) x0 x1 x2 x3 x4 (ix4 b d i p) = qk_logit x0 x1 x2 x3 x4 b d i p := by
  rw [val_main_v46_apply, val_main_v45_apply, val_main_cst_9_apply, val_main_v44_apply]
  simp only [Ideal.mulf_def, Ideal.ofBits_def]
  unfold qk_logit
  refine congrArg (Spec.scale * ·) (Finset.sum_congr rfl fun k _ => ?_)
  have el : lidx_main_v44 (ix4 b d i p) k = ix4 b d i k :=
    funext fun a => Fin.ext (by match a with | ⟨0, _⟩ => rfl | ⟨1, _⟩ => rfl | ⟨2, _⟩ => rfl | ⟨3, _⟩ => rfl)
  have er : ridx_main_v44 (ix4 b d i p) k = ix4 b d p k :=
    funext fun a => Fin.ext (by match a with | ⟨0, _⟩ => rfl | ⟨1, _⟩ => rfl | ⟨2, _⟩ => rfl | ⟨3, _⟩ => rfl)
  rw [el, er, qk_pooledK]

/-- The maximum over the 32 pooled rows, taken from −∞, is the fold of `max` over the row's logits. -/
private theorem qk_fold_at (x0 : (⟨S16x4096x512, .f32⟩ : BufTy).Contents (Elt Ideal)) (x1 : (⟨S512x512, .f32⟩ : BufTy).Contents (Elt Ideal)) (x2 : (⟨S512, .f32⟩ : BufTy).Contents (Elt Ideal)) (x3 : (⟨S512x512, .f32⟩ : BufTy).Contents (Elt Ideal)) (x4 : (⟨S512, .f32⟩ : BufTy).Contents (Elt Ideal)) (b : Fin 16) (d : Fin 512) (i : Fin 64) :
    val_main_v47 (F := Ideal) x0 x1 x2 x3 x4 (ix3 b d i)
      = (Finset.univ : Finset (Fin 32)).fold max Spec.ninf (fun p => qk_logit x0 x1 x2 x3 x4 b d i p) := by
  unfold val_main_v47
  have hz : ∀ p : Fin 32, val_main_v46 (F := Ideal) x0 x1 x2 x3 x4 (ix4 b d i p) = qk_logit x0 x1 x2 x3 x4 b d i p :=
    fun p => qk_logit_at x0 x1 x2 x3 x4 b d i p
  generalize val_main_v46 (F := Ideal) x0 x1 x2 x3 x4 = y at hz
  have hr : Shape.Reduces S16x512x64x32 [3] S16x512x64 := by decide
  rw [Host.reduce_eq_fold_single (FloatOps.maximumf (F := Ideal) (φ := .f32)) y _ reducesTo_S16x512x64x32_S16x512x64_d3 hr h_S_ (ix3 b d i)]
  have hf : (y ∘ hr.lift (ix3 b d i)) = fun p : Fin 32 => qk_logit x0 x1 x2 x3 x4 b d i p := funext fun p => by
    show y (hr.lift (ix3 b d i) p) = _
    rw [← hz p]
    exact congrArg y (funext fun a => Fin.ext (by match a with | ⟨0, _⟩ => rfl | ⟨1, _⟩ => rfl | ⟨2, _⟩ => rfl | ⟨3, _⟩ => rfl))
  exact congrArg (fun f => (Finset.univ : Finset (Fin 32)).fold max Spec.ninf f) hf

/-- The row maximum of the logits, from −∞ and once more against −∞. -/
private def qk_rowMax (x0 : (⟨S16x4096x512, .f32⟩ : BufTy).Contents (Elt Ideal)) (x1 : (⟨S512x512, .f32⟩ : BufTy).Contents (Elt Ideal)) (x2 : (⟨S512, .f32⟩ : BufTy).Contents (Elt Ideal)) (x3 : (⟨S512x512, .f32⟩ : BufTy).Contents (Elt Ideal)) (x4 : (⟨S512, .f32⟩ : BufTy).Contents (Elt Ideal)) (b : Fin 16) (d : Fin 512) (i : Fin 64) : EReal :=
  max Spec.ninf ((Finset.univ : Finset (Fin 32)).fold max Spec.ninf (fun p => qk_logit x0 x1 x2 x3 x4 b d i p))

/-- The row maximum, spread back over the 32 pooled rows. -/
private theorem qk_rowMax_at (x0 : (⟨S16x4096x512, .f32⟩ : BufTy).Contents (Elt Ideal)) (x1 : (⟨S512x512, .f32⟩ : BufTy).Contents (Elt Ideal)) (x2 : (⟨S512, .f32⟩ : BufTy).Contents (Elt Ideal)) (x3 : (⟨S512x512, .f32⟩ : BufTy).Contents (Elt Ideal)) (x4 : (⟨S512, .f32⟩ : BufTy).Contents (Elt Ideal)) (b : Fin 16) (d : Fin 512) (i : Fin 64) (p : Fin 32) :
    val_main_v51 (F := Ideal) x0 x1 x2 x3 x4 (ix4 b d i p) = qk_rowMax x0 x1 x2 x3 x4 b d i := by
  rw [val_main_v51_apply, val_main_v50_apply, val_main_v49_apply, val_main_v48_apply, val_main_cst_11_apply]
  have e : idx_main_v50 (idx_main_v51 (ix4 b d i p)) = ix3 b d i :=
    funext fun a => Fin.ext (by match a with | ⟨0, _⟩ => rfl | ⟨1, _⟩ => rfl | ⟨2, _⟩ => rfl)
  rw [e, qk_fold_at]
  simp only [Ideal.maximumf_def, Ideal.ofBits_def]
  rfl

/-- The shifted logit, exponentiated. -/
private theorem qk_exp_at (x0 : (⟨S16x4096x512, .f32⟩ : BufTy).Contents (Elt Ideal)) (x1 : (⟨S512x512, .f32⟩ : BufTy).Contents (Elt Ideal)) (x2 : (⟨S512, .f32⟩ : BufTy).Contents (Elt Ideal)) (x3 : (⟨S512x512, .f32⟩ : BufTy).Contents (Elt Ideal)) (x4 : (⟨S512, .f32⟩ : BufTy).Contents (Elt Ideal)) (b : Fin 16) (d : Fin 512) (i : Fin 64) (p : Fin 32) :
    val_main_v53 (F := Ideal) x0 x1 x2 x3 x4 (ix4 b d i p)
      = Ideal.exp (qk_logit x0 x1 x2 x3 x4 b d i p - qk_rowMax x0 x1 x2 x3 x4 b d i) := by
  rw [val_main_v53_apply, val_main_v52_apply, qk_logit_at, qk_rowMax_at]
  simp only [Ideal.hostUnary_exp_def, Ideal.subf_def]

/-- The row sum of the exponentials (from 0), spread back over the 32 pooled rows. -/
private theorem qk_rowSum_at (x0 : (⟨S16x4096x512, .f32⟩ : BufTy).Contents (Elt Ideal)) (x1 : (⟨S512x512, .f32⟩ : BufTy).Contents (Elt Ideal)) (x2 : (⟨S512, .f32⟩ : BufTy).Contents (Elt Ideal)) (x3 : (⟨S512x512, .f32⟩ : BufTy).Contents (Elt Ideal)) (x4 : (⟨S512, .f32⟩ : BufTy).Contents (Elt Ideal)) (b : Fin 16) (d : Fin 512) (i : Fin 64) (p : Fin 32) :
    val_main_v56 (F := Ideal) x0 x1 x2 x3 x4 (ix4 b d i p)
      = ∑ l : Fin 32, Ideal.exp (qk_logit x0 x1 x2 x3 x4 b d i l - qk_rowMax x0 x1 x2 x3 x4 b d i) := by
  rw [val_main_v56_apply, val_main_v55_apply, val_main_v54_apply, val_main_cst_12_apply]
  simp only [Ideal.ofBits_def, Ideal.ofBits_zero_f32, zero_add]
  refine Finset.sum_congr rfl fun l _ => ?_
  have e : idx_main_v54 (idx_main_v55 (idx_main_v56 (ix4 b d i p))) l = ix4 b d i l :=
    funext fun a => Fin.ext (by match a with | ⟨0, _⟩ => rfl | ⟨1, _⟩ => rfl | ⟨2, _⟩ => rfl | ⟨3, _⟩ => rfl)
  rw [e, qk_exp_at]

/-- Full rows against pooled rows. -/
theorem ref_Qk (x0 : (⟨S16x4096x512, .f32⟩ : BufTy).Contents (Elt Ideal)) (x1 : (⟨S512x512, .f32⟩ : BufTy).Contents (Elt Ideal)) (x2 : (⟨S512, .f32⟩ : BufTy).Contents (Elt Ideal)) (x3 : (⟨S512x512, .f32⟩ : BufTy).Contents (Elt Ideal)) (x4 : (⟨S512, .f32⟩ : BufTy).Contents (Elt Ideal)) (b : Fin 16) (d : Fin 512) (i : Fin 64) (p : Fin 32) :
    val_main_v57 (F := Ideal) x0 x1 x2 x3 x4 (ix4 b d i p)
      = Spec.attnQk (fun a k => val_main_v11 (F := Ideal) x0 x1 x2 (ix4 b d a k))
          (fun a k => val_main_v23 (F := Ideal) x0 x3 x4 (ix4 b d a k)) i p := by
  rw [val_main_v57_apply, qk_exp_at, qk_rowSum_at]
  simp only [Ideal.hostDivf_def]
  unfold Spec.attnQk Spec.softmaxRow qk_logit qk_rowMax
  rfl

end Cert.ReferenceIdeal.Hand

end
-- ==== Proof.RefKq.lean ====
/-
  The reference's second softmax, read at one entry.

  The query images' row pairs are averaged; every pooled query row meets every key row over the 64 columns; the logits are
  scaled and the softmax taken over the 64 key rows. At batch entry `b`, channel `d`, pooled row `p`, key row `l` that is
  `attnKq` of the two images.
-/
import proofs.«176652_j85564338471094_1_alg».proof.Proof.Spec
import proofs.«176652_j85564338471094_1_alg».proof.Proof.Gen.ReferenceIdeal.Read

noncomputable section

open scoped BigOperators
open Idealize.ShloMosaic Idealize.ShloMosaic.TcCoe Idealize.ShloMosaic.ValueIdx Idealize.SL.Sem

namespace Cert.ReferenceIdeal.Hand

open Cert.ReferenceIdeal Cert.ReferenceIdeal.Gen Cert.ReferenceIdeal.Read

/-- Row `2·p + s` of the image, column `k`: where the reshape to row pairs followed by the pair sum reads the query image. -/
private theorem kq_idx_pair (b : Fin 16) (d : Fin 512) (p : Fin 32) (k : Fin 64) (s : Fin 2) :
    idx_main_v36 (idx_main_v37 (ix4 b d p k) s) = ix4 b d (Spec.pairRow p s) k := by
  have hb := b.isLt; have hd := d.isLt; have hp := p.isLt; have hk := k.isLt; have hs := s.isLt
  funext a
  refine Fin.ext ?_
  match a with
  | ⟨0, _⟩ => show ((((b.val * 512 + d.val) * 32 + p.val) * 2 + s.val) * 64 + k.val) / 2097152 = b.val; omega
  | ⟨1, _⟩ => show ((((b.val * 512 + d.val) * 32 + p.val) * 2 + s.val) * 64 + k.val) / 4096 % 512 = d.val; omega
  | ⟨2, _⟩ => show ((((b.val * 512 + d.val) * 32 + p.val) * 2 + s.val) * 64 + k.val) / 64 % 64 = p.val * 2 + s.val; omega
  | ⟨3, _⟩ => show ((((b.val * 512 + d.val) * 32 + p.val) * 2 + s.val) * 64 + k.val) % 64 = k.val; omega

/-- The pooled query image: the mean of each pair of adjacent rows. -/
private theorem kq_pooled (x0 : (⟨S16x4096x512, .f32⟩ : BufTy).Contents (Elt Ideal)) (x1 : (⟨S512x512, .f32⟩ : BufTy).Contents (Elt Ideal)) (x2 : (⟨S512, .f32⟩ : BufTy).Contents (Elt Ideal)) (b : Fin 16) (d : Fin 512) (p : Fin 32) (k : Fin 64) :
    val_main_v39 (F := Ideal) x0 x1 x2 (ix4 b d p k)
      = Spec.pool (fun a k' => val_main_v11 (F := Ideal) x0 x1 x2 (ix4 b d a k')) p k := by
  rw [val_main_v39_apply, val_main_v37_apply, val_main_v38_apply, val_main_cst_6_apply, val_main_cst_5_apply]
  simp only [Ideal.hostDivf_def, Ideal.ofBits_def, Ideal.ofBits_zero_f32, zero_add]
  unfold Spec.pool
  refine congrArg (fun t => Ideal.div t Spec.two) (Finset.sum_congr rfl fun s _ => ?_)
  rw [val_main_v36_apply, kq_idx_pair]

/-- The scaled logit of pooled query row `p` against key row `l`: the scale times their product over the 64 columns. -/
private theorem kq_logit (x0 : (⟨S16x4096x512, .f32⟩ : BufTy).Contents (Elt Ideal)) (x1 : (⟨S512x512, .f32⟩ : BufTy).Contents (Elt Ideal)) (x2 : (⟨S512, .f32⟩ : BufTy).Contents (Elt Ideal)) (x3 : (⟨S512x512, .f32⟩ : BufTy).Contents (Elt Ideal)) (x4 : (⟨S512, .f32⟩ : BufTy).Contents (Elt Ideal)) (b : Fin 16) (d : Fin 512) (p : Fin 32) (l : Fin 64) :
    val_main_v60 (F := Ideal) x0 x1 x2 x3 x4 (ix4 b d p l)
      = Spec.scale * ∑ k : Fin 64, Spec.pool (fun a k' => val_main_v11 (F := Ideal) x0 x1 x2 (ix4 b d a k')) p k
          * val_main_v23 (F := Ideal) x0 x3 x4 (ix4 b d l k) := by
  rw [val_main_v60_apply, val_main_v59_apply, val_main_cst_13_apply, val_main_v58_apply]
  simp only [Ideal.mulf_def, Ideal.ofBits_def]
  refine congrArg (fun t => Spec.scale * t) (Finset.sum_congr rfl fun k _ => ?_)
  have el : lidx_main_v58 (ix4 b d p l) k = ix4 b d p k := funext fun a => Fin.ext (by
    match a with | ⟨0, _⟩ => rfl | ⟨1, _⟩ => rfl | ⟨2, _⟩ => rfl | ⟨3, _⟩ => rfl)
  have er : ridx_main_v58 (ix4 b d p l) k = ix4 b d l k := funext fun a => Fin.ext (by
    match a with | ⟨0, _⟩ => rfl | ⟨1, _⟩ => rfl | ⟨2, _⟩ => rfl | ⟨3, _⟩ => rfl)
  rw [el, er, kq_pooled]

/-- The row maximum: the fold of `max` from −∞ over the 64 key rows, once more against −∞. -/
private theorem kq_rowmax (x0 : (⟨S16x4096x512, .f32⟩ : BufTy).Contents (Elt Ideal)) (x1 : (⟨S512x512, .f32⟩ : BufTy).Contents (Elt Ideal)) (x2 : (⟨S512, .f32⟩ : BufTy).Contents (Elt Ideal)) (x3 : (⟨S512x512, .f32⟩ : BufTy).Contents (Elt Ideal)) (x4 : (⟨S512, .f32⟩ : BufTy).Contents (Elt Ideal)) (b : Fin 16) (d : Fin 512) (p : Fin 32) :
    val_main_v63 (F := Ideal) x0 x1 x2 x3 x4 (ix3 b d p)
      = max Spec.ninf ((Finset.univ : Finset (Fin 64)).fold max Spec.ninf
          (fun l' => val_main_v60 (F := Ideal) x0 x1 x2 x3 x4 (ix4 b d p l'))) := by
  rw [val_main_v63_apply, val_main_v62_apply, val_main_cst_15_apply]
  simp only [Ideal.maximumf_def, Ideal.ofBits_def]
  refine congrArg (fun t => max Spec.ninf t) ?_
  unfold val_main_v61
  generalize val_main_v60 (F := Ideal) x0 x1 x2 x3 x4 = y
  rw [Host.reduce_eq_fold_single (FloatOps.maximumf (F := Ideal) (φ := .f32)) y (val_main_cst_14 (F := Ideal))
    reducesTo_S16x512x32x64_S16x512x32_d3 (by decide) h_S_ (ix3 b d p)]
  refine (Finset.fold_congr (g := fun l' : Fin 64 => y (ix4 b d p l')) fun l' _ => congrArg y (funext fun a => Fin.ext (by
    match a with | ⟨0, _⟩ => rfl | ⟨1, _⟩ => rfl | ⟨2, _⟩ => rfl | ⟨3, _⟩ => rfl))).trans ?_
  rfl

/-- One exponential of the softmax: the logit shifted by the row maximum. -/
private theorem kq_exp (x0 : (⟨S16x4096x512, .f32⟩ : BufTy).Contents (Elt Ideal)) (x1 : (⟨S512x512, .f32⟩ : BufTy).Contents (Elt Ideal)) (x2 : (⟨S512, .f32⟩ : BufTy).Contents (Elt Ideal)) (x3 : (⟨S512x512, .f32⟩ : BufTy).Contents (Elt Ideal)) (x4 : (⟨S512, .f32⟩ : BufTy).Contents (Elt Ideal)) (b : Fin 16) (d : Fin 512) (p : Fin 32) (l : Fin 64) :
    val_main_v67 (F := Ideal) x0 x1 x2 x3 x4 (ix4 b d p l)
      = Ideal.exp (val_main_v60 (F := Ideal) x0 x1 x2 x3 x4 (ix4 b d p l)
          - max Spec.ninf ((Finset.univ : Finset (Fin 64)).fold max Spec.ninf
              (fun l' => val_main_v60 (F := Ideal) x0 x1 x2 x3 x4 (ix4 b d p l')))) := by
  rw [val_main_v67_apply, val_main_v66_apply, val_main_v65_apply, val_main_v64_apply]
  simp only [Ideal.hostUnary_exp_def, Ideal.subf_def]
  have e : idx_main_v64 (idx_main_v65 (ix4 b d p l)) = ix3 b d p := funext fun a => Fin.ext (by
    match a with | ⟨0, _⟩ => rfl | ⟨1, _⟩ => rfl | ⟨2, _⟩ => rfl)
  rw [e, kq_rowmax]

/-- The row sum of the exponentials over the 64 key rows. -/
private theorem kq_rowsum (x0 : (⟨S16x4096x512, .f32⟩ : BufTy).Contents (Elt Ideal)) (x1 : (⟨S512x512, .f32⟩ : BufTy).Contents (Elt Ideal)) (x2 : (⟨S512, .f32⟩ : BufTy).Contents (Elt Ideal)) (x3 : (⟨S512x512, .f32⟩ : BufTy).Contents (Elt Ideal)) (x4 : (⟨S512, .f32⟩ : BufTy).Contents (Elt Ideal)) (b : Fin 16) (d : Fin 512) (p : Fin 32) :
    val_main_v68 (F := Ideal) x0 x1 x2 x3 x4 (ix3 b d p)
      = ∑ l : Fin 64, val_main_v67 (F := Ideal) x0 x1 x2 x3 x4 (ix4 b d p l) := by
  rw [val_main_v68_apply, val_main_cst_16_apply]
  simp only [Ideal.ofBits_def, Ideal.ofBits_zero_f32, zero_add]
  refine Finset.sum_congr rfl fun l _ => ?_
  exact congrArg (val_main_v67 (F := Ideal) x0 x1 x2 x3 x4) (funext fun a => Fin.ext (by
    match a with | ⟨0, _⟩ => rfl | ⟨1, _⟩ => rfl | ⟨2, _⟩ => rfl | ⟨3, _⟩ => rfl))

/-- Pooled rows against full rows. -/
theorem ref_Kq (x0 : (⟨S16x4096x512, .f32⟩ : BufTy).Contents (Elt Ideal)) (x1 : (⟨S512x512, .f32⟩ : BufTy).Contents (Elt Ideal)) (x2 : (⟨S512, .f32⟩ : BufTy).Contents (Elt Ideal)) (x3 : (⟨S512x512, .f32⟩ : BufTy).Contents (Elt Ideal)) (x4 : (⟨S512, .f32⟩ : BufTy).Contents (Elt Ideal)) (b : Fin 16) (d : Fin 512) (p : Fin 32) (l : Fin 64) :
    val_main_v71 (F := Ideal) x0 x1 x2 x3 x4 (ix4 b d p l)
      = Spec.attnKq (fun a k => val_main_v11 (F := Ideal) x0 x1 x2 (ix4 b d a k))
          (fun a k => val_main_v23 (F := Ideal) x0 x3 x4 (ix4 b d a k)) p l := by
  rw [val_main_v71_apply, val_main_v70_apply, val_main_v69_apply]
  simp only [Ideal.hostDivf_def]
  have e : idx_main_v69 (idx_main_v70 (ix4 b d p l)) = ix3 b d p := funext fun a => Fin.ext (by
    match a with | ⟨0, _⟩ => rfl | ⟨1, _⟩ => rfl | ⟨2, _⟩ => rfl)
  rw [e, kq_rowsum]
  simp only [kq_exp, kq_logit]
  rfl

end Cert.ReferenceIdeal.Hand

end
-- ==== Proof.RefOut.lean ====
/-
  The reference's last two products and its layout tail, read at one entry.

  The second softmax is multiplied into the value images, the first softmax into that; the result is re-read as
  `[16, 512, 4096]` and transposed to token-major. Entry `(b, n, d)` of the result is the sum over the 32 pooled rows of
  the first softmax at row `n / 64` times the sum over the 64 key rows of the second softmax times the value image at
  column `n % 64`.
-/
import proofs.«176652_j85564338471094_1_alg».proof.Proof.Spec
import proofs.«176652_j85564338471094_1_alg».proof.Proof.Gen.ReferenceIdeal.Read

noncomputable section

open scoped BigOperators
open Idealize.ShloMosaic Idealize.ShloMosaic.TcCoe Idealize.ShloMosaic.ValueIdx Idealize.SL.Sem

namespace Cert.ReferenceIdeal.Hand

open Cert.ReferenceIdeal Cert.ReferenceIdeal.Gen Cert.ReferenceIdeal.Read

/-- The token-major entry `(b, n, d)` is the channel-major entry `(b, d, n)`. -/
private theorem idx75 (b : Fin 16) (n : Fin 4096) (d : Fin 512) :
    idx_main_v75 (ix3 b n d) = ix3 b d n :=
  funext fun a => Fin.ext (by
    match a with
    | ⟨0, _⟩ => rfl
    | ⟨1, _⟩ => rfl
    | ⟨2, _⟩ => rfl)

/-- Token `n` of the flat image is pixel `(n / 64, n % 64)`. -/
private theorem idx74 (b : Fin 16) (d : Fin 512) (n : Fin 4096) :
    idx_main_v74 (ix3 b d n) = ix4 b d (Spec.rowOf n) (Spec.colOf n) :=
  funext fun a => Fin.ext (by
    have hb := b.isLt
    have hd := d.isLt
    have hn := n.isLt
    match a with
    | ⟨0, _⟩ => show ((b.val * 512 + d.val) * 4096 + n.val) / 2097152 = b.val; omega
    | ⟨1, _⟩ => show ((b.val * 512 + d.val) * 4096 + n.val) / 4096 % 512 = d.val; omega
    | ⟨2, _⟩ => show ((b.val * 512 + d.val) * 4096 + n.val) / 64 % 64 = n.val / 64; omega
    | ⟨3, _⟩ => show ((b.val * 512 + d.val) * 4096 + n.val) % 64 = n.val % 64; omega)

/-- The outer product's left factor at pooled row `p`. -/
private theorem lidx73 (b : Fin 16) (d : Fin 512) (i j : Fin 64) (p : Fin 32) :
    lidx_main_v73 (ix4 b d i j) p = ix4 b d i p :=
  funext fun a => Fin.ext (by
    match a with
    | ⟨0, _⟩ => rfl
    | ⟨1, _⟩ => rfl
    | ⟨2, _⟩ => rfl
    | ⟨3, _⟩ => rfl)

/-- The outer product's right factor at pooled row `p`. -/
private theorem ridx73 (b : Fin 16) (d : Fin 512) (i j : Fin 64) (p : Fin 32) :
    ridx_main_v73 (ix4 b d i j) p = ix4 b d p j :=
  funext fun a => Fin.ext (by
    match a with
    | ⟨0, _⟩ => rfl
    | ⟨1, _⟩ => rfl
    | ⟨2, _⟩ => rfl
    | ⟨3, _⟩ => rfl)

/-- The inner product's left factor at key row `l`. -/
private theorem lidx72 (b : Fin 16) (d : Fin 512) (p : Fin 32) (j : Fin 64) (l : Fin 64) :
    lidx_main_v72 (ix4 b d p j) l = ix4 b d p l :=
  funext fun a => Fin.ext (by
    match a with
    | ⟨0, _⟩ => rfl
    | ⟨1, _⟩ => rfl
    | ⟨2, _⟩ => rfl
    | ⟨3, _⟩ => rfl)

/-- The inner product's right factor at key row `l`. -/
private theorem ridx72 (b : Fin 16) (d : Fin 512) (p : Fin 32) (j : Fin 64) (l : Fin 64) :
    ridx_main_v72 (ix4 b d p j) l = ix4 b d l j :=
  funext fun a => Fin.ext (by
    match a with
    | ⟨0, _⟩ => rfl
    | ⟨1, _⟩ => rfl
    | ⟨2, _⟩ => rfl
    | ⟨3, _⟩ => rfl)

/-- The result from the two softmaxes and the value images. -/
theorem ref_out (x0 : (⟨S16x4096x512, .f32⟩ : BufTy).Contents (Elt Ideal)) (x1 : (⟨S512x512, .f32⟩ : BufTy).Contents (Elt Ideal)) (x2 : (⟨S512, .f32⟩ : BufTy).Contents (Elt Ideal)) (x3 : (⟨S512x512, .f32⟩ : BufTy).Contents (Elt Ideal)) (x4 : (⟨S512, .f32⟩ : BufTy).Contents (Elt Ideal)) (x5 : (⟨S512x512, .f32⟩ : BufTy).Contents (Elt Ideal)) (x6 : (⟨S512, .f32⟩ : BufTy).Contents (Elt Ideal)) (b : Fin 16) (n : Fin 4096) (d : Fin 512) :
    val_main_v75 (F := Ideal) x0 x1 x2 x3 x4 x5 x6 (ix3 b n d)
      = ∑ p : Fin 32, val_main_v57 (F := Ideal) x0 x1 x2 x3 x4 (ix4 b d (Spec.rowOf n) p)
          * ∑ l : Fin 64, val_main_v71 (F := Ideal) x0 x1 x2 x3 x4 (ix4 b d p l)
              * val_main_v35 (F := Ideal) x0 x5 x6 (ix4 b d l (Spec.colOf n)) := by
  rw [val_main_v75_apply, idx75, val_main_v74_apply, idx74, val_main_v73_apply]
  refine Finset.sum_congr rfl fun p _ => ?_
  rw [lidx73, ridx73, val_main_v72_apply]
  refine congrArg _ (Finset.sum_congr rfl fun l _ => ?_)
  rw [lidx72, ridx72]

end Cert.ReferenceIdeal.Hand

end
-- ==== Proof.RefValue.lean ====
/-
  The reference's result as the specification of the seven arguments: the three projections are the specification's
  images, the two softmaxes its two attention maps, and the last two products and the layout tail its final sum.
-/
import proofs.«176652_j85564338471094_1_alg».proof.Proof.RefProj
import proofs.«176652_j85564338471094_1_alg».proof.Proof.RefQk
import proofs.«176652_j85564338471094_1_alg».proof.Proof.RefKq
import proofs.«176652_j85564338471094_1_alg».proof.Proof.RefOut

noncomputable section

open scoped BigOperators
open Idealize.ShloMosaic Idealize.ShloMosaic.TcCoe Idealize.ShloMosaic.ValueIdx Idealize.SL.Sem

namespace Cert.ReferenceIdeal.Hand

open Cert.ReferenceIdeal Cert.ReferenceIdeal.Gen Cert.ReferenceIdeal.Read

/-- The reference's result array: at batch entry `b`, token `n`, channel `d` the pooled double attention of channel `d`'s three
    projected images, read at the pixel of token `n`. -/
theorem ref_value (x0 : (⟨S16x4096x512, .f32⟩ : BufTy).Contents (Elt Ideal)) (x1 : (⟨S512x512, .f32⟩ : BufTy).Contents (Elt Ideal)) (x2 : (⟨S512, .f32⟩ : BufTy).Contents (Elt Ideal)) (x3 : (⟨S512x512, .f32⟩ : BufTy).Contents (Elt Ideal)) (x4 : (⟨S512, .f32⟩ : BufTy).Contents (Elt Ideal)) (x5 : (⟨S512x512, .f32⟩ : BufTy).Contents (Elt Ideal)) (x6 : (⟨S512, .f32⟩ : BufTy).Contents (Elt Ideal)) :
    val_main_v75 (F := Ideal) x0 x1 x2 x3 x4 x5 x6 = fun i : S16x4096x512.Idx =>
      Spec.result (Spec.arr3 x0) (Spec.arr2 x1) (Spec.arr1 x2) (Spec.arr2 x3) (Spec.arr1 x4) (Spec.arr2 x5) (Spec.arr1 x6)
        (i 0) (i 1) (i 2) := by
  funext i
  obtain ⟨b, n, d, rfl⟩ : ∃ (b : Fin 16) (n : Fin 4096) (d : Fin 512), i = ix3 b n d := ⟨i 0, i 1, i 2, eq_ix3 i⟩
  -- the three image families of this batch entry and channel are the specification's images
  have hq : (fun a k => val_main_v11 (F := Ideal) x0 x1 x2 (ix4 b d a k))
      = Spec.image (Spec.arr3 x0 b) (Spec.arr2 x1) (Spec.arr1 x2) d :=
    funext fun a => funext fun k => ref_image_q x0 x1 x2 b d a k
  have hk : (fun a k => val_main_v23 (F := Ideal) x0 x3 x4 (ix4 b d a k))
      = Spec.image (Spec.arr3 x0 b) (Spec.arr2 x3) (Spec.arr1 x4) d :=
    funext fun a => funext fun k => ref_image_k x0 x3 x4 b d a k
  rw [ref_out]
  show _ = Spec.result (Spec.arr3 x0) (Spec.arr2 x1) (Spec.arr1 x2) (Spec.arr2 x3) (Spec.arr1 x4) (Spec.arr2 x5) (Spec.arr1 x6) b n d
  unfold Spec.result Spec.attn
  refine Finset.sum_congr rfl fun p _ => ?_
  rw [ref_Qk, hq, hk]
  -- the inner sum over the key rows, term by term
  have hin : (∑ l : Fin 64, val_main_v71 (F := Ideal) x0 x1 x2 x3 x4 (ix4 b d p l)
        * val_main_v35 (F := Ideal) x0 x5 x6 (ix4 b d l (Spec.colOf n)))
      = ∑ l : Fin 64, Spec.attnKq (Spec.image (Spec.arr3 x0 b) (Spec.arr2 x1) (Spec.arr1 x2) d)
            (Spec.image (Spec.arr3 x0 b) (Spec.arr2 x3) (Spec.arr1 x4) d) p l
          * Spec.image (Spec.arr3 x0 b) (Spec.arr2 x5) (Spec.arr1 x6) d l (Spec.colOf n) :=
    Finset.sum_congr rfl fun l _ => by rw [ref_Kq, hq, hk, ref_image_v]
  rw [hin]

end Cert.ReferenceIdeal.Hand

end
-- ==== Proof.lean ====
/-
  The certificate: a two-launch attention kernel against its plain array-program reference, equal over the extended reals.

  The kernel projects the tokens three times (a squashed affine map each) in its first launch, writing the projections
  channel-major, and in its second launch runs, per batch entry and channel, a pooled double attention of the three 64 × 64
  images; the host re-reads the arrays between and after the launches. The reference computes the same from whole arrays.
  Both results are the one function `Spec.result` of the seven arguments, entry by entry: the kernel's by reading its run's
  boundary contents back through the two launches (each launch's blocks tile its array), the reference's by reading its
  operations one at a time. No law of the extended reals beyond the operations' definitions is needed: the two programs apply
  the same operations in the same order and differ only in how the arrays are cut into blocks, and every change of float
  format is the identity there. The frames of the two kernel programs are the launch over the run's segments; the
  reference's frame is its run with the result dropped; the idealization rewrote no operation.
-/
import proofs.«176652_j85564338471094_1_alg».proof.Defs
import proofs.«176652_j85564338471094_1_alg».proof.Proof.Gen.Kernel
import proofs.«176652_j85564338471094_1_alg».proof.Proof.Gen.Kernel.Frame
import proofs.«176652_j85564338471094_1_alg».proof.Proof.Gen.KernelIdeal
import proofs.«176652_j85564338471094_1_alg».proof.Proof.Gen.KernelIdeal.Frame
import proofs.«176652_j85564338471094_1_alg».proof.Proof.Gen.ReferenceIdeal
import proofs.«176652_j85564338471094_1_alg».proof.Proof.Gen.ReferenceIdeal.Run
import proofs.«176652_j85564338471094_1_alg».proof.Proof.Gen.ReferenceIdeal.Read
import proofs.«176652_j85564338471094_1_alg».proof.Proof.Gen.Pre_finite_inputs
import proofs.«176652_j85564338471094_1_alg».proof.Proof.RunNamed
import proofs.«176652_j85564338471094_1_alg».proof.Proof.KerGlue
import proofs.«176652_j85564338471094_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel (hKernel := Cert.Kernel.Gen.facts) (hPre_finite_inputs := Cert.Pre_finite_inputs.Gen.facts) :=
  fun m ρ _ => Cert.Kernel.Gen.frame m ρ

/-- So does the idealized kernel. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The specification's result array of seven argument arrays: entry `(b, n, d)` is `Spec.result` of the arrays read by
    coordinates. -/
def specArray (a0 : Cert.KernelIdeal.S16x4096x512.Idx → EReal) (a1 : Cert.KernelIdeal.S512x512.Idx → EReal)
    (a2 : Cert.KernelIdeal.S512.Idx → EReal) (a3 : Cert.KernelIdeal.S512x512.Idx → EReal) (a4 : Cert.KernelIdeal.S512.Idx → EReal)
    (a5 : Cert.KernelIdeal.S512x512.Idx → EReal) (a6 : Cert.KernelIdeal.S512.Idx → EReal) : Cert.KernelIdeal.S16x4096x512.Idx → EReal :=
  fun i => Spec.result (Spec.arr3 a0) (Spec.arr2 a1) (Spec.arr1 a2) (Spec.arr2 a3) (Spec.arr1 a4) (Spec.arr2 a5) (Spec.arr1 a6)
    (i 0) (i 1) (i 2)

/-- From memories agreeing on the arguments both idealized programs end with the specification's array of those arguments
    in their result buffers. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Gen.W4 (F := Ideal) m ρ c (Proc.devRef .tc Cert.KernelIdeal.main_v6),
    Cert.KernelIdeal.Hand.run_named (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6⟩ := hagree c
  -- the reference's result buffer is the specification's array of ITS arguments …
  have hr : Cert.ReferenceIdeal.Value.res_main_v75 m' c
      = specArray (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4))
          (m' ((c.tc : Thread Cert.ReferenceIdeal.nD Cert.ReferenceIdeal.τ).loc Cert.ReferenceIdeal.main_arg5))
          (m' ((c.tc : Thread Cert.ReferenceIdeal.nD Cert.ReferenceIdeal.τ).loc Cert.ReferenceIdeal.main_arg6)) :=
    (Cert.ReferenceIdeal.Read.val_main_v75_eq (F := Ideal) m' c).trans (Cert.ReferenceIdeal.Hand.ref_value _ _ _ _ _ _ _)
  -- … and the kernel's is the specification's array of its own
  have hk : Cert.KernelIdeal.Gen.W4 (F := Ideal) m ρ c (Proc.devRef .tc Cert.KernelIdeal.main_v6)
      = specArray (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6)) :=
    Cert.KernelIdeal.Hand.kernel_value m ρ c
  refine hr.trans ?_
  rw [e0, e1, e2, e3, e4, e5, e6]
  exact hk.symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
